-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v191_1)) (v1 : (c : Dev Cert.KernelIdeal.nD) → Buf (Elt Ideal) ((c.tc : Thread Cert.KernelIdeal.nD Cert.KernelIdeal.τ).loc Cert.KernelIdeal.main_v203)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191_1) = v0 c
          ∧ r.2.mem ((c.tc : Thread Cert.KernelIdeal.nD Cert.KernelIdeal.τ).loc Cert.KernelIdeal.main_v203) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v287) = v0 c
          ∧ r.2.mem ((c.tc : Thread Cert.ReferenceIdeal.nD Cert.ReferenceIdeal.τ).loc Cert.ReferenceIdeal.main_v299) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_c_13 : IVec S_ 1 := constantI S_ 1 1#1
  let main_v38 : IVec S_ 1 := (fun x v => Host.reduce IntOp.andi x v reducesTo_S800000_S_d0 h_S_) main_v37 main_c_13
  let main_v39 : IVec S_ 1 := andi main_v33 main_v38
  let main_v40 : IVec S1x800000 32 := (extractStridedSlice S1x800000 ![0, 0] · slices_S2x800000_S1x800000_0_0) main_arg1
  let main_v41 : IVec S800000 32 := shapeCast S800000 main_v40 shapeCasts_S1x800000_S800000
  let main_c_14 : IVec S_ 32 := constantI S_ 32 50000#32
  let main_v42 : IVec S800000 32 := broadcastInDim S800000 ![] bcast_S_S800000 main_c_14
  let main_v43 : IVec S800000 1 := cmpi .slt main_v41 main_v42
  let main_c_15 : IVec S_ 1 := constantI S_ 1 1#1
  let main_v44 : IVec S_ 1 := (fun x v => Host.reduce IntOp.andi x v reducesTo_S800000_S_d0 h_S_) main_v43 main_c_15
  let main_v45 : IVec S_ 1 := andi main_v39 main_v44
  main_v45

def fn_part1 {F : FTy → Type} [FloatOps F] (main_arg1 : IVec S2x800000 32) (main_arg6 : FVec F S4x128 .f32) (main_arg7 : FVec F S4x128x128 .f32) (main_arg8 : FVec F S4x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg7
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : IVec S50000 32) (main_arg3 : FVec F S4x128x128 .f32) (main_arg4 : FVec F S4x128 .f32) (main_arg5 : FVec F S4x128 .f32) (main_arg6 : FVec F S4x128 .f32) (main_arg7 : FVec F S4x128x128 .f32) (main_arg8 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg1 main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S64x128 : Shape := ⟨2, ![64, 128]⟩
abbrev S1 : Shape := ⟨1, ![1]⟩
abbrev S1x1 : Shape := ⟨2, ![1, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S64 : Shape := ⟨1, ![64]⟩
abbrev S64x1 : Shape := ⟨2, ![64, 1]⟩

abbrev nBuf : Space → Nat
  | .hbm => 356
  | .vmem => 88
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S4x128, .f32⟩
  | 6 => ⟨S4x128, .f32⟩
  | 7 => ⟨S4x128x128, .f32⟩
  | 8 => ⟨S4x128, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S_, .f32⟩
  | 21 => ⟨S50000, .f32⟩
  | 22 => ⟨S50000, .f32⟩
  | 23 => ⟨S50000x1, .f32⟩
  | 24 => ⟨S_, .f32⟩
  | 25 => ⟨S50000x128, .f32⟩
  | 26 => ⟨S_, .f32⟩
  | 27 => ⟨S64x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S1, .i32⟩
  | 37 => ⟨S_, .i32⟩
  | 38 => ⟨S800000x1, .i32⟩
  | 39 => ⟨S800000x1, .i1⟩
  | 40 => ⟨S1x1, .i32⟩
  | 41 => ⟨S800000x1, .i32⟩
  | 42 => ⟨S800000x1, .i1⟩
  | 43 => ⟨S800000x1, .i1⟩
  | 44 => ⟨S_, .i1⟩
  | 45 => ⟨S800000, .i1⟩
  | 46 => ⟨S800000x128, .f32⟩
  | 47 => ⟨S800000x128, .i1⟩
  | 48 => ⟨S_, .f32⟩
  | 49 => ⟨S800000x128, .f32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S50000x128, .f32⟩
  | 56 => ⟨S50000x128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S50000x128, .f32⟩
  | 63 => ⟨S_, .f32⟩
  | 64 => ⟨S128, .f32⟩
  | 65 => ⟨S_, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128x128, .f32⟩
  | 82 => ⟨S128x128, .f32⟩
  | 83 => ⟨S1x128, .f32⟩
  | 84 => ⟨S128, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S50000x128, .f32⟩
  | 91 => ⟨S50000x128, .f32⟩
  | 92 => ⟨S_, .f32⟩
  | 93 => ⟨S64x128, .f32⟩
  | 94 => ⟨S50000x1, .i32⟩
  | 95 => ⟨S64x128, .f32⟩
  | 96 => ⟨S_, .f32⟩
  | 97 => ⟨S50000, .f32⟩
  | 98 => ⟨S_, .f32⟩
  | 99 => ⟨S64, .f32⟩
  | 100 => ⟨S50000x1, .i32⟩
  | 101 => ⟨S64, .f32⟩
  | 102 => ⟨S_, .f32⟩
  | 103 => ⟨S_, .f32⟩
  | 104 => ⟨S64, .f32⟩
  | 105 => ⟨S64, .f32⟩
  | 106 => ⟨S64x1, .f32⟩
  | 107 => ⟨S64x128, .f32⟩
  | 108 => ⟨S64x128, .f32⟩
  | 109 => ⟨S64x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S1, .i32⟩
  | 119 => ⟨S_, .i32⟩
  | 120 => ⟨S800000x1, .i32⟩
  | 121 => ⟨S800000x1, .i1⟩
  | 122 => ⟨S1x1, .i32⟩
  | 123 => ⟨S800000x1, .i32⟩
  | 124 => ⟨S800000x1, .i1⟩
  | 125 => ⟨S800000x1, .i1⟩
  | 126 => ⟨S_, .i1⟩
  | 127 => ⟨S800000, .i1⟩
  | _ => ⟨S50000x128, .f32⟩

abbrev hbmTy0_1 (i : Nat) : BufTy := match i % 128 with
  | 0 => ⟨S800000x128, .f32⟩
  | 1 => ⟨S800000x128, .i1⟩
  | 2 => ⟨S_, .f32⟩
  | 3 => ⟨S800000x128, .f32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S50000x128, .f32⟩
  | 10 => ⟨S50000x128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S50000x128, .f32⟩
  | 17 => ⟨S_, .f32⟩
  | 18 => ⟨S128, .f32⟩
  | 19 => ⟨S_, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S128, .f32⟩
  | 28 => ⟨S_, .f32⟩
  | 29 => ⟨S128, .f32⟩
  | 30 => ⟨S128, .f32⟩
  | 31 => ⟨S1x128, .f32⟩
  | 32 => ⟨S128, .f32⟩
  | 33 => ⟨S1x128, .f32⟩
  | 34 => ⟨S128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S50000x128, .f32⟩
  | 45 => ⟨S50000x128, .f32⟩
  | 46 => ⟨S_, .f32⟩
  | 47 => ⟨S64x128, .f32⟩
  | 48 => ⟨S50000x1, .i32⟩
  | 49 => ⟨S64x128, .f32⟩
  | 50 => ⟨S_, .f32⟩
  | 51 => ⟨S50000, .f32⟩
  | 52 => ⟨S_, .f32⟩
  | 53 => ⟨S64, .f32⟩
  | 54 => ⟨S50000x1, .i32⟩
  | 55 => ⟨S64, .f32⟩
  | 56 => ⟨S_, .f32⟩
  | 57 => ⟨S_, .f32⟩
  | 58 => ⟨S64, .f32⟩
  | 59 => ⟨S64, .f32⟩
  | 60 => ⟨S64x1, .f32⟩
  | 61 => ⟨S64x128, .f32⟩
  | 62 => ⟨S64x128, .f32⟩
  | 63 => ⟨S64x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S1, .i32⟩
  | 73 => ⟨S_, .i32⟩
  | 74 => ⟨S800000x1, .i32⟩
  | 75 => ⟨S800000x1, .i1⟩
  | 76 => ⟨S1x1, .i32⟩
  | 77 => ⟨S800000x1, .i32⟩
  | 78 => ⟨S800000x1, .i1⟩
  | 79 => ⟨S800000x1, .i1⟩
  | 80 => ⟨S_, .i1⟩
  | 81 => ⟨S800000, .i1⟩
  | 82 => ⟨S800000x128, .f32⟩
  | 83 => ⟨S800000x128, .i1⟩
  | 84 => ⟨S_, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S50000x128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S50000x128, .f32⟩
  | 99 => ⟨S_, .f32⟩
  | 100 => ⟨S128, .f32⟩
  | 101 => ⟨S_, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S50000x128, .f32⟩
  | 108 => ⟨S_, .f32⟩
  | 109 => ⟨S128, .f32⟩
  | 110 => ⟨S_, .f32⟩
  | 111 => ⟨S128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128x128, .f32⟩
  | 118 => ⟨S128x128, .f32⟩
  | 119 => ⟨S1x128, .f32⟩
  | 120 => ⟨S128, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S50000x128, .f32⟩
  | 127 => ⟨S50000x128, .f32⟩
  | _ => ⟨S50000x128, .f32⟩

abbrev hbmTy0_2 (i : Nat) : BufTy := match i % 128 with
  | 0 => ⟨S_, .f32⟩
  | 1 => ⟨S64x128, .f32⟩
  | 2 => ⟨S50000x1, .i32⟩
  | 3 => ⟨S64x128, .f32⟩
  | 4 => ⟨S_, .f32⟩
  | 5 => ⟨S50000, .f32⟩
  | 6 => ⟨S_, .f32⟩
  | 7 => ⟨S64, .f32⟩
  | 8 => ⟨S50000x1, .i32⟩
  | 9 => ⟨S64, .f32⟩
  | 10 => ⟨S_, .f32⟩
  | 11 => ⟨S_, .f32⟩
  | 12 => ⟨S64, .f32⟩
  | 13 => ⟨S64, .f32⟩
  | 14 => ⟨S64x1, .f32⟩
  | 15 => ⟨S64x128, .f32⟩
  | 16 => ⟨S64x128, .f32⟩
  | 17 => ⟨S64x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S1, .i32⟩
  | 27 => ⟨S_, .i32⟩
  | 28 => ⟨S800000x1, .i32⟩
  | 29 => ⟨S800000x1, .i1⟩
  | 30 => ⟨S1x1, .i32⟩
  | 31 => ⟨S800000x1, .i32⟩
  | 32 => ⟨S800000x1, .i1⟩
  | 33 => ⟨S800000x1, .i1⟩
  | 34 => ⟨S_, .i1⟩
  | 35 => ⟨S800000, .i1⟩
  | 36 => ⟨S800000x128, .f32⟩
  | 37 => ⟨S800000x128, .i1⟩
  | 38 => ⟨S_, .f32⟩
  | 39 => ⟨S800000x128, .f32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S50000x128, .f32⟩
  | 46 => ⟨S50000x128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S128, .f32⟩
  | 69 => ⟨S1x128, .f32⟩
  | 70 => ⟨S128, .f32⟩
  | 71 => ⟨S1x128x128, .f32⟩
  | 72 => ⟨S128x128, .f32⟩
  | 73 => ⟨S1x128, .f32⟩
  | 74 => ⟨S128, .f32⟩
  | 75 => ⟨S1x128, .f32⟩
  | 76 => ⟨S1x128, .f32⟩
  | 77 => ⟨S1x128, .f32⟩
  | 78 => ⟨S1x128, .f32⟩
  | 79 => ⟨S1x128, .f32⟩
  | 80 => ⟨S50000x128, .f32⟩
  | 81 => ⟨S50000x128, .f32⟩
  | 82 => ⟨S_, .f32⟩
  | 83 => ⟨S64x128, .f32⟩
  | 84 => ⟨S50000x1, .i32⟩
  | 85 => ⟨S64x128, .f32⟩
  | 86 => ⟨S_, .f32⟩
  | 87 => ⟨S50000, .f32⟩
  | 88 => ⟨S_, .f32⟩
  | 89 => ⟨S64, .f32⟩
  | 90 => ⟨S50000x1, .i32⟩
  | 91 => ⟨S64, .f32⟩
  | 92 => ⟨S_, .f32⟩
  | 93 => ⟨S_, .f32⟩
  | 94 => ⟨S64, .f32⟩
  | 95 => ⟨S64, .f32⟩
  | 96 => ⟨S64x1, .f32⟩
  | 97 => ⟨S64x128, .f32⟩
  | 98 => ⟨S64x128, .f32⟩
  | 99 => ⟨S64x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S128x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S1x128, .f32⟩
  | .local _ .vmem, ⟨77, _⟩ => ⟨S1x128, .f32⟩
  | .local _ .vmem, ⟨78, _⟩ => ⟨S1x128, .f32⟩
  | .local _ .vmem, ⟨79, _⟩ => ⟨S1x128, .f32⟩
  | .local _ .vmem, ⟨80, _⟩ => ⟨S128x128, .f32⟩
  | .local _ .vmem, ⟨81, _⟩ => ⟨S1x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S5000x128, .f32⟩
  | .local _ .vmem, ⟨86, _⟩ => ⟨S5000x128, .f32⟩
  | .local _ .vmem, ⟨87, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v12 : Ref sig .tc := ⟨.hbm, 50, rfl⟩
abbrev main_cst_4 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_5 : Ref sig .tc := ⟨.hbm, 63, rfl⟩
abbrev main_v24 : Ref sig .tc := ⟨.hbm, 64, rfl⟩
abbrev main_cst_6 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_7 : Ref sig .tc := ⟨.hbm, 72, rfl⟩
abbrev main_v31 : Ref sig .tc := ⟨.hbm, 73, rfl⟩
abbrev main_cst_8 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47_0 : Ref sig .tc := ⟨.hbm, 90, rfl⟩
abbrev main_v47_1 : Ref sig .tc := ⟨.hbm, 91, rfl⟩
abbrev main_cst_9 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_10 : Ref sig .tc := ⟨.hbm, 96, rfl⟩
abbrev main_v51 : Ref sig .tc := ⟨.hbm, 97, rfl⟩
abbrev main_cst_11 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_12 : Ref sig .tc := ⟨.hbm, 102, rfl⟩
abbrev main_call2_v0 : Ref sig .tc := ⟨.hbm, 103, rfl⟩
abbrev main_call2_v1 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v60 : Ref sig .tc := ⟨.hbm, 132, rfl⟩
abbrev main_cst_13 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_cst_14 : Ref sig .tc := ⟨.hbm, 145, rfl⟩
abbrev main_v72 : Ref sig .tc := ⟨.hbm, 146, rfl⟩
abbrev main_cst_15 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_cst_16 : Ref sig .tc := ⟨.hbm, 154, rfl⟩
abbrev main_v79 : Ref sig .tc := ⟨.hbm, 155, rfl⟩
abbrev main_cst_17 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95_0 : Ref sig .tc := ⟨.hbm, 172, rfl⟩
abbrev main_v95_1 : Ref sig .tc := ⟨.hbm, 173, rfl⟩
abbrev main_cst_18 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_cst_19 : Ref sig .tc := ⟨.hbm, 178, rfl⟩
abbrev main_v99 : Ref sig .tc := ⟨.hbm, 179, rfl⟩
abbrev main_cst_20 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_cst_21 : Ref sig .tc := ⟨.hbm, 184, rfl⟩
abbrev main_call4_v0 : Ref sig .tc := ⟨.hbm, 185, rfl⟩
abbrev main_call4_v1 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_call5_c : Ref sig .tc := ⟨.hbm, 192, rfl⟩
abbrev main_call5_v0 : Ref sig .tc := ⟨.hbm, 193, rfl⟩
abbrev main_call5_v1 : Ref sig .tc := ⟨.hbm, 194, rfl⟩
abbrev main_call5_c_0 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_call5_v5 : Ref sig .tc := ⟨.hbm, 199, rfl⟩
abbrev main_call5_c_1 : Ref sig .tc := ⟨.hbm, 200, rfl⟩
abbrev main_call5_c_2 : Ref sig .tc := ⟨.hbm, 201, rfl⟩
abbrev main_call5_v6 : Ref sig .tc := ⟨.hbm, 202, rfl⟩
abbrev main_call5_v7 : Ref sig .tc := ⟨.hbm, 203, rfl⟩
abbrev main_call5_v8 : Ref sig .tc := ⟨.hbm, 204, rfl⟩
abbrev main_call5_v9 : Ref sig .tc := ⟨.hbm, 205, rfl⟩
abbrev main_call5_v10 : Ref sig .tc := ⟨.hbm, 206, rfl⟩
abbrev main_call5_v11 : Ref sig .tc := ⟨.hbm, 207, rfl⟩
abbrev main_call5_c_3 : Ref sig .tc := ⟨.hbm, 208, rfl⟩
abbrev main_call5_v12 : Ref sig .tc := ⟨.hbm, 209, rfl⟩
abbrev main_call5_v13 : Ref sig .tc := ⟨.hbm, 210, rfl⟩
abbrev main_call5_v14 : Ref sig .tc := ⟨.hbm, 211, rfl⟩
abbrev main_call5_cst : Ref sig .tc := ⟨.hbm, 212, rfl⟩
abbrev main_call5_v15 : Ref sig .tc := ⟨.hbm, 213, rfl⟩
abbrev main_v108 : Ref sig .tc := ⟨.hbm, 214, rfl⟩
abbrev main_cst_22 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_cst_23 : Ref sig .tc := ⟨.hbm, 227, rfl⟩
abbrev main_v120 : Ref sig .tc := ⟨.hbm, 228, rfl⟩
abbrev main_cst_24 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_cst_25 : Ref sig .tc := ⟨.hbm, 236, rfl⟩
abbrev main_v127 : Ref sig .tc := ⟨.hbm, 237, rfl⟩
abbrev main_cst_26 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143_0 : Ref sig .tc := ⟨.hbm, 254, rfl⟩
abbrev main_v143_1 : Ref sig .tc := ⟨.hbm, 255, rfl⟩
abbrev main_cst_27 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_cst_28 : Ref sig .tc := ⟨.hbm, 260, rfl⟩
abbrev main_v147 : Ref sig .tc := ⟨.hbm, 261, rfl⟩
abbrev main_cst_29 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_cst_30 : Ref sig .tc := ⟨.hbm, 266, rfl⟩
abbrev main_call6_v0 : Ref sig .tc := ⟨.hbm, 267, rfl⟩
abbrev main_call6_v1 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_call7_c : Ref sig .tc := ⟨.hbm, 274, rfl⟩
abbrev main_call7_v0 : Ref sig .tc := ⟨.hbm, 275, rfl⟩
abbrev main_call7_v1 : Ref sig .tc := ⟨.hbm, 276, rfl⟩
abbrev main_call7_c_0 : Ref sig .tc := ⟨.hbm, 277, rfl⟩
abbrev main_call7_v2 : Ref sig .tc := ⟨.hbm, 278, rfl⟩
abbrev main_call7_v3 : Ref sig .tc := ⟨.hbm, 279, rfl⟩
abbrev main_call7_v4 : Ref sig .tc := ⟨.hbm, 280, rfl⟩
abbrev main_call7_v5 : Ref sig .tc := ⟨.hbm, 281, rfl⟩
abbrev main_call7_c_1 : Ref sig .tc := ⟨.hbm, 282, rfl⟩
abbrev main_call7_c_2 : Ref sig .tc := ⟨.hbm, 283, rfl⟩
abbrev main_call7_v6 : Ref sig .tc := ⟨.hbm, 284, rfl⟩
abbrev main_call7_v7 : Ref sig .tc := ⟨.hbm, 285, rfl⟩
abbrev main_call7_v8 : Ref sig .tc := ⟨.hbm, 286, rfl⟩
abbrev main_call7_v9 : Ref sig .tc := ⟨.hbm, 287, rfl⟩
abbrev main_call7_v10 : Ref sig .tc := ⟨.hbm, 288, rfl⟩
abbrev main_call7_v11 : Ref sig .tc := ⟨.hbm, 289, rfl⟩
abbrev main_call7_c_3 : Ref sig .tc := ⟨.hbm, 290, rfl⟩
abbrev main_call7_v12 : Ref sig .tc := ⟨.hbm, 291, rfl⟩
abbrev main_call7_v13 : Ref sig .tc := ⟨.hbm, 292, rfl⟩
abbrev main_call7_v14 : Ref sig .tc := ⟨.hbm, 293, rfl⟩
abbrev main_call7_cst : Ref sig .tc := ⟨.hbm, 294, rfl⟩
abbrev main_call7_v15 : Ref sig .tc := ⟨.hbm, 295, rfl⟩
abbrev main_v156 : Ref sig .tc := ⟨.hbm, 296, rfl⟩
abbrev main_cst_31 : Ref sig .tc := ⟨.hbm, 297, rfl⟩
abbrev main_v157 : Ref sig .tc := ⟨.hbm, 298, rfl⟩
abbrev main_v158 : Ref sig .tc := ⟨.hbm, 299, rfl⟩
abbrev main_v159 : Ref sig .tc := ⟨.hbm, 300, rfl⟩
abbrev main_v160 : Ref sig .tc := ⟨.hbm, 301, rfl⟩
abbrev main_v161 : Ref sig .tc := ⟨.hbm, 302, rfl⟩
abbrev main_v162 : Ref sig .tc := ⟨.hbm, 303, rfl⟩
abbrev main_v163 : Ref sig .tc := ⟨.hbm, 304, rfl⟩
abbrev main_v164 : Ref sig .tc := ⟨.hbm, 305, rfl⟩
abbrev main_v165 : Ref sig .tc := ⟨.hbm, 306, rfl⟩
abbrev main_v166 : Ref sig .tc := ⟨.hbm, 307, rfl⟩
abbrev main_v167 : Ref sig .tc := ⟨.hbm, 308, rfl⟩
abbrev main_cst_32 : Ref sig .tc := ⟨.hbm, 309, rfl⟩
abbrev main_v168 : Ref sig .tc := ⟨.hbm, 310, rfl⟩
abbrev main_cst_33 : Ref sig .tc := ⟨.hbm, 311, rfl⟩
abbrev main_v169 : Ref sig .tc := ⟨.hbm, 312, rfl⟩
abbrev main_v170 : Ref sig .tc := ⟨.hbm, 313, rfl⟩
abbrev main_v171 : Ref sig .tc := ⟨.hbm, 314, rfl⟩
abbrev main_v172 : Ref sig .tc := ⟨.hbm, 315, rfl⟩
abbrev main_v173 : Ref sig .tc := ⟨.hbm, 316, rfl⟩
abbrev main_v174 : Ref sig .tc := ⟨.hbm, 317, rfl⟩
abbrev main_cst_34 : Ref sig .tc := ⟨.hbm, 318, rfl⟩
abbrev main_v175 : Ref sig .tc := ⟨.hbm, 319, rfl⟩
abbrev main_cst_35 : Ref sig .tc := ⟨.hbm, 320, rfl⟩
abbrev main_v176 : Ref sig .tc := ⟨.hbm, 321, rfl⟩
abbrev main_v177 : Ref sig .tc := ⟨.hbm, 322, rfl⟩
abbrev main_v178 : Ref sig .tc := ⟨.hbm, 323, rfl⟩
abbrev main_v179 : Ref sig .tc := ⟨.hbm, 324, rfl⟩
abbrev main_v180 : Ref sig .tc := ⟨.hbm, 325, rfl⟩
abbrev main_v181 : Ref sig .tc := ⟨.hbm, 326, rfl⟩
abbrev main_v182 : Ref sig .tc := ⟨.hbm, 327, rfl⟩
abbrev main_v183 : Ref sig .tc := ⟨.hbm, 328, rfl⟩
abbrev main_v184 : Ref sig .tc := ⟨.hbm, 329, rfl⟩
abbrev main_v185 : Ref sig .tc := ⟨.hbm, 330, rfl⟩
abbrev main_v186 : Ref sig .tc := ⟨.hbm, 331, rfl⟩
abbrev main_v187 : Ref sig .tc := ⟨.hbm, 332, rfl⟩
abbrev main_v188 : Ref sig .tc := ⟨.hbm, 333, rfl⟩
abbrev main_v189 : Ref sig .tc := ⟨.hbm, 334, rfl⟩
abbrev main_v190 : Ref sig .tc := ⟨.hbm, 335, rfl⟩
abbrev main_v191_0 : Ref sig .tc := ⟨.hbm, 336, rfl⟩
abbrev main_v191_1 : Ref sig .tc := ⟨.hbm, 337, rfl⟩
abbrev main_cst_36 : Ref sig .tc := ⟨.hbm, 338, rfl⟩
abbrev main_v192 : Ref sig .tc := ⟨.hbm, 339, rfl⟩
abbrev main_v193 : Ref sig .tc := ⟨.hbm, 340, rfl⟩
abbrev main_v194 : Ref sig .tc := ⟨.hbm, 341, rfl⟩
abbrev main_cst_37 : Ref sig .tc := ⟨.hbm, 342, rfl⟩
abbrev main_v195 : Ref sig .tc := ⟨.hbm, 343, rfl⟩
abbrev main_cst_38 : Ref sig .tc := ⟨.hbm, 344, rfl⟩
abbrev main_v196 : Ref sig .tc := ⟨.hbm, 345, rfl⟩
abbrev main_v197 : Ref sig .tc := ⟨.hbm, 346, rfl⟩
abbrev main_v198 : Ref sig .tc := ⟨.hbm, 347, rfl⟩
abbrev main_cst_39 : Ref sig .tc := ⟨.hbm, 348, rfl⟩
abbrev main_call8_v0 : Ref sig .tc := ⟨.hbm, 349, rfl⟩
abbrev main_call8_v1 : Ref sig .tc := ⟨.hbm, 350, rfl⟩
abbrev main_v199 : Ref sig .tc := ⟨.hbm, 351, rfl⟩
abbrev main_v200 : Ref sig .tc := ⟨.hbm, 352, rfl⟩
abbrev main_v201 : Ref sig .tc := ⟨.hbm, 353, rfl⟩
abbrev main_v202 : Ref sig .tc := ⟨.hbm, 354, rfl⟩
abbrev main_v203 : Ref sig .tc := ⟨.hbm, 355, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc3_stg8_0 : Ref sig .tc := ⟨.vmem, 40, rfl⟩
abbrev cc3_stg8_1 : Ref sig .tc := ⟨.vmem, 41, rfl⟩
abbrev cc3_stg9_0 : Ref sig .tc := ⟨.vmem, 42, rfl⟩
abbrev cc3_stg9_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg7_1 : Ref sig .tc := ⟨.vmem, 61, rfl⟩
abbrev cc5_stg8_0 : Ref sig .tc := ⟨.vmem, 62, rfl⟩
abbrev cc5_stg8_1 : Ref sig .tc := ⟨.vmem, 63, rfl⟩
abbrev cc5_stg9_0 : Ref sig .tc := ⟨.vmem, 64, rfl⟩
abbrev cc5_stg9_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg4_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg3_0 : Ref sig .tc := ⟨.vmem, 78, rfl⟩
abbrev cc7_stg4_0 : Ref sig .tc := ⟨.vmem, 79, rfl⟩
abbrev cc7_stg5_0 : Ref sig .tc := ⟨.vmem, 80, rfl⟩
abbrev cc7_stg6_0 : Ref sig .tc := ⟨.vmem, 81, rfl⟩
abbrev cc7_stg7_0 : Ref sig .tc := ⟨.vmem, 82, rfl⟩
abbrev cc7_stg7_1 : Ref sig .tc := ⟨.vmem, 83, rfl⟩
abbrev cc7_stg8_0 : Ref sig .tc := ⟨.vmem, 84, rfl⟩
abbrev cc7_stg8_1 : Ref sig .tc := ⟨.vmem, 85, rfl⟩
abbrev cc7_stg9_0 : Ref sig .tc := ⟨.vmem, 86, rfl⟩
abbrev cc7_stg9_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc3_sem8_0 : DmaSem sig := 40
abbrev cc3_sem8_1 : DmaSem sig := 41
abbrev cc3_sem9_0 : DmaSem sig := 42
abbrev cc3_sem9_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem4_1 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem7_1 : DmaSem sig := 61
abbrev cc5_sem8_0 : DmaSem sig := 62
abbrev cc5_sem8_1 : DmaSem sig := 63
abbrev cc5_sem9_0 : DmaSem sig := 64
abbrev cc5_sem9_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem3_0 : DmaSem sig := 71
abbrev cc6_sem4_0 : DmaSem sig := 72
abbrev cc6_sem4_1 : DmaSem sig := 73
abbrev cc7_sem0_0 : DmaSem sig := 74
abbrev cc7_sem0_1 : DmaSem sig := 75
abbrev cc7_sem1_0 : DmaSem sig := 76
abbrev cc7_sem2_0 : DmaSem sig := 77
abbrev cc7_sem3_0 : DmaSem sig := 78
abbrev cc7_sem4_0 : DmaSem sig := 79
abbrev cc7_sem5_0 : DmaSem sig := 80
abbrev cc7_sem6_0 : DmaSem sig := 81
abbrev cc7_sem7_0 : DmaSem sig := 82
abbrev cc7_sem7_1 : DmaSem sig := 83
abbrev cc7_sem8_0 : DmaSem sig := 84
abbrev cc7_sem8_1 : DmaSem sig := 85
abbrev cc7_sem9_0 : DmaSem sig := 86
abbrev cc7_sem9_1 : DmaSem sig := 87

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S5000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S5000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S5000x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 2 → Memref sig .tc .vmem S5000x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S_S64x128 : S_.BroadcastsInDim S64x128 (![] : Fin 0 → Fin S64x128.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S50000x1_S50000x128_0_1 : S50000x1.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S50000x128.size a
  hwx3_9 : ∀ i : grid3.Coords, EltTy.bits .f32 = 32 ∨ (Rect.block (s := S50000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x128.size a ≤ S50000x128.size a
  hwx5_8 : ∀ i : grid5.Coords, EltTy.bits .f32 = 32 ∨ (Rect.block (s := S50000x128) S5000x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S50000x128.size a
  hwx5_9 : ∀ i : grid5.Coords, EltTy.bits .f32 = 32 ∨ (Rect.block (s := S50000x128) S5000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S50000x128.size a
  hwx7_7 : ∀ i : grid7.Coords, EltTy.bits .f32 = 32 ∨ (Rect.block (s := S50000x128) S5000x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S5000x128.size a ≤ S50000x128.size a
  hwx7_8 : ∀ i : grid7.Coords, EltTy.bits .f32 = 32 ∨ (Rect.block (s := S50000x128) S5000x128.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S5000x128.size a ≤ S50000x128.size a
  hwx7_9 : ∀ i : grid7.Coords, EltTy.bits .f32 = 32 ∨ (Rect.block (s := S50000x128) S5000x128.size (cc7_transform_9 i) (hinb7_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S5000x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v47_0) S5000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v47_1) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v47_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v71) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v94) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v47_1) S5000x128.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v95_0) S5000x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v95_1) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v95_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v113) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v115) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v118) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v119) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v119) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v138) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v139) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v140) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v141) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v135) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v142) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v95_1) S5000x128.size cc5_transform_7 reads5_7 false false 2 stage5_7 sem5_7
    hrank5 hreads5_7 hinb5_7 nbuf5_7 (Memref.isWhole_whole _) hwx5_7 hstage5_7

abbrev win5_8 : Pipeline.Window sig grid5 :=
  Pipeline.Window.ofSpec (Memref.whole main_v143_0) S5000x128.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v143_1) S5000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v143_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v161) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v163) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v166) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v167) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v167) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v186) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v187) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v188) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v189) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v183) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v190) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v143_1) S5000x128.size cc7_transform_7 reads7_7 false false 2 stage7_7 sem7_7
    hrank7 hreads7_7 hinb7_7 nbuf7_7 (Memref.isWhole_whole _) hwx7_7 hstage7_7

abbrev win7_8 : Pipeline.Window sig grid7 :=
  Pipeline.Window.ofSpec (Memref.whole main_v191_0) S5000x128.size cc7_transform_8 reads7_8 true false 2 stage7_8 sem7_8
    hrank7 hreads7_8 hinb7_8 nbuf7_8 (Memref.isWhole_whole _) hwx7_8 hstage7_8

abbrev win7_9 : Pipeline.Window sig grid7 :=
  Pipeline.Window.ofSpec (Memref.whole main_v191_1) S5000x128.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S64x128 : Shape := ⟨2, ![64, 128]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S64 : Shape := ⟨1, ![64]⟩
abbrev S64x1 : Shape := ⟨2, ![64, 1]⟩

abbrev nBuf : Space → Nat
  | .hbm => 380
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S4x128, .f32⟩
  | 6 => ⟨S4x128, .f32⟩
  | 7 => ⟨S4x128x128, .f32⟩
  | 8 => ⟨S4x128, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S_, .f32⟩
  | 21 => ⟨S50000, .f32⟩
  | 22 => ⟨S50000, .f32⟩
  | 23 => ⟨S50000x1, .f32⟩
  | 24 => ⟨S_, .f32⟩
  | 25 => ⟨S50000x128, .f32⟩
  | 26 => ⟨S_, .f32⟩
  | 27 => ⟨S64x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S50000x128, .f32⟩
  | 42 => ⟨S50000x128, .f32⟩
  | 43 => ⟨S50000x128, .f32⟩
  | 44 => ⟨S1x128x128, .f32⟩
  | 45 => ⟨S128x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S128, .f32⟩
  | 63 => ⟨S_, .f32⟩
  | 64 => ⟨S128, .f32⟩
  | 65 => ⟨S128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S1x128x128, .f32⟩
  | 90 => ⟨S128x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S50000x128, .f32⟩
  | 98 => ⟨S_, .f32⟩
  | 99 => ⟨S64x128, .f32⟩
  | 100 => ⟨S50000x1, .i32⟩
  | 101 => ⟨S64x128, .f32⟩
  | 102 => ⟨S_, .f32⟩
  | 103 => ⟨S50000, .f32⟩
  | 104 => ⟨S_, .f32⟩
  | 105 => ⟨S64, .f32⟩
  | 106 => ⟨S50000x1, .i32⟩
  | 107 => ⟨S64, .f32⟩
  | 108 => ⟨S_, .f32⟩
  | 109 => ⟨S_, .f32⟩
  | 110 => ⟨S64, .f32⟩
  | 111 => ⟨S64, .f32⟩
  | 112 => ⟨S64x1, .f32⟩
  | 113 => ⟨S64x128, .f32⟩
  | 114 => ⟨S64x128, .f32⟩
  | 115 => ⟨S64x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .f32⟩
  | 125 => ⟨S_, .f32⟩
  | 126 => ⟨S50000x128, .f32⟩
  | 127 => ⟨S800000x1, .i32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S50000x128, .f32⟩
  | 19 => ⟨S50000x128, .f32⟩
  | 20 => ⟨S50000x128, .f32⟩
  | 21 => ⟨S_, .f32⟩
  | 22 => ⟨S128, .f32⟩
  | 23 => ⟨S_, .f32⟩
  | 24 => ⟨S128, .f32⟩
  | 25 => ⟨S128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S128, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S64x128, .f32⟩
  | 60 => ⟨S50000x1, .i32⟩
  | 61 => ⟨S64x128, .f32⟩
  | 62 => ⟨S_, .f32⟩
  | 63 => ⟨S50000, .f32⟩
  | 64 => ⟨S_, .f32⟩
  | 65 => ⟨S64, .f32⟩
  | 66 => ⟨S50000x1, .i32⟩
  | 67 => ⟨S64, .f32⟩
  | 68 => ⟨S_, .f32⟩
  | 69 => ⟨S_, .f32⟩
  | 70 => ⟨S64, .f32⟩
  | 71 => ⟨S64, .f32⟩
  | 72 => ⟨S64x1, .f32⟩
  | 73 => ⟨S64x128, .f32⟩
  | 74 => ⟨S64x128, .f32⟩
  | 75 => ⟨S64x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x128, .f32⟩
  | 90 => ⟨S50000x128, .f32⟩
  | 91 => ⟨S50000x128, .f32⟩
  | 92 => ⟨S1x128x128, .f32⟩
  | 93 => ⟨S128x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S_, .f32⟩
  | 103 => ⟨S128, .f32⟩
  | 104 => ⟨S128, .f32⟩
  | 105 => ⟨S1x128, .f32⟩
  | 106 => ⟨S50000x128, .f32⟩
  | 107 => ⟨S50000x128, .f32⟩
  | 108 => ⟨S50000x128, .f32⟩
  | 109 => ⟨S_, .f32⟩
  | 110 => ⟨S128, .f32⟩
  | 111 => ⟨S_, .f32⟩
  | 112 => ⟨S128, .f32⟩
  | 113 => ⟨S128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S128, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_2 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S1x128x128, .f32⟩
  | 10 => ⟨S128x128, .f32⟩
  | 11 => ⟨S50000x128, .f32⟩
  | 12 => ⟨S1x128, .f32⟩
  | 13 => ⟨S128, .f32⟩
  | 14 => ⟨S1x128, .f32⟩
  | 15 => ⟨S50000x128, .f32⟩
  | 16 => ⟨S50000x128, .f32⟩
  | 17 => ⟨S50000x128, .f32⟩
  | 18 => ⟨S_, .f32⟩
  | 19 => ⟨S64x128, .f32⟩
  | 20 => ⟨S50000x1, .i32⟩
  | 21 => ⟨S64x128, .f32⟩
  | 22 => ⟨S_, .f32⟩
  | 23 => ⟨S50000, .f32⟩
  | 24 => ⟨S_, .f32⟩
  | 25 => ⟨S64, .f32⟩
  | 26 => ⟨S50000x1, .i32⟩
  | 27 => ⟨S64, .f32⟩
  | 28 => ⟨S_, .f32⟩
  | 29 => ⟨S_, .f32⟩
  | 30 => ⟨S64, .f32⟩
  | 31 => ⟨S64, .f32⟩
  | 32 => ⟨S64x1, .f32⟩
  | 33 => ⟨S64x128, .f32⟩
  | 34 => ⟨S64x128, .f32⟩
  | 35 => ⟨S64x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S50000x128, .f32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S50000x128, .f32⟩
  | 69 => ⟨S_, .f32⟩
  | 70 => ⟨S128, .f32⟩
  | 71 => ⟨S_, .f32⟩
  | 72 => ⟨S128, .f32⟩
  | 73 => ⟨S128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S1x128x128, .f32⟩
  | 98 => ⟨S128x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S50000x128, .f32⟩
  | 106 => ⟨S_, .f32⟩
  | 107 => ⟨S64x128, .f32⟩
  | 108 => ⟨S50000x1, .i32⟩
  | 109 => ⟨S64x128, .f32⟩
  | 110 => ⟨S_, .f32⟩
  | 111 => ⟨S50000, .f32⟩
  | 112 => ⟨S_, .f32⟩
  | 113 => ⟨S64, .f32⟩
  | 114 => ⟨S50000x1, .i32⟩
  | 115 => ⟨S64, .f32⟩
  | 116 => ⟨S_, .f32⟩
  | 117 => ⟨S_, .f32⟩
  | 118 => ⟨S64, .f32⟩
  | 119 => ⟨S64, .f32⟩
  | 120 => ⟨S64x1, .f32⟩
  | 121 => ⟨S64x128, .f32⟩
  | 122 => ⟨S64x128, .f32⟩
  | 123 => ⟨S64x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_11 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_12 : Ref sig .tc := ⟨.hbm, 102, rfl⟩
abbrev main_v75 : Ref sig .tc := ⟨.hbm, 103, rfl⟩
abbrev main_cst_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_14 : Ref sig .tc := ⟨.hbm, 108, rfl⟩
abbrev main_call2_v0 : Ref sig .tc := ⟨.hbm, 109, rfl⟩
abbrev main_call2_v1 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_15 : Ref sig .tc := ⟨.hbm, 116, rfl⟩
abbrev main_v84 : Ref sig .tc := ⟨.hbm, 117, rfl⟩
abbrev main_v85 : Ref sig .tc := ⟨.hbm, 118, rfl⟩
abbrev main_c_16 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_18 : Ref sig .tc := ⟨.hbm, 140, rfl⟩
abbrev main_v105 : Ref sig .tc := ⟨.hbm, 141, rfl⟩
abbrev main_cst_19 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_20 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_22 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_call3_cst : Ref sig .tc := ⟨.hbm, 174, rfl⟩
abbrev main_call3_v0 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_23 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_24 : Ref sig .tc := ⟨.hbm, 190, rfl⟩
abbrev main_v147 : Ref sig .tc := ⟨.hbm, 191, rfl⟩
abbrev main_cst_25 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_cst_26 : Ref sig .tc := ⟨.hbm, 196, rfl⟩
abbrev main_call4_v0 : Ref sig .tc := ⟨.hbm, 197, rfl⟩
abbrev main_call4_v1 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_c_27 : Ref sig .tc := ⟨.hbm, 204, rfl⟩
abbrev main_v156 : Ref sig .tc := ⟨.hbm, 205, rfl⟩
abbrev main_v157 : Ref sig .tc := ⟨.hbm, 206, rfl⟩
abbrev main_c_28 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_29 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_30 : Ref sig .tc := ⟨.hbm, 228, rfl⟩
abbrev main_v177 : Ref sig .tc := ⟨.hbm, 229, rfl⟩
abbrev main_cst_31 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_cst_32 : Ref sig .tc := ⟨.hbm, 237, rfl⟩
abbrev main_v184 : Ref sig .tc := ⟨.hbm, 238, rfl⟩
abbrev main_cst_33 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_cst_34 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_call5_cst : Ref sig .tc := ⟨.hbm, 262, rfl⟩
abbrev main_call5_v0 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_cst_35 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_cst_36 : Ref sig .tc := ⟨.hbm, 278, rfl⟩
abbrev main_v219 : Ref sig .tc := ⟨.hbm, 279, rfl⟩
abbrev main_cst_37 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_cst_38 : Ref sig .tc := ⟨.hbm, 284, rfl⟩
abbrev main_call6_v0 : Ref sig .tc := ⟨.hbm, 285, rfl⟩
abbrev main_call6_v1 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_c_39 : Ref sig .tc := ⟨.hbm, 292, rfl⟩
abbrev main_v228 : Ref sig .tc := ⟨.hbm, 293, rfl⟩
abbrev main_v229 : Ref sig .tc := ⟨.hbm, 294, rfl⟩
abbrev main_c_40 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_cst_41 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_cst_42 : Ref sig .tc := ⟨.hbm, 316, rfl⟩
abbrev main_v249 : Ref sig .tc := ⟨.hbm, 317, rfl⟩
abbrev main_cst_43 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_cst_44 : Ref sig .tc := ⟨.hbm, 325, rfl⟩
abbrev main_v256 : Ref sig .tc := ⟨.hbm, 326, rfl⟩
abbrev main_cst_45 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_cst_46 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_call7_cst : Ref sig .tc := ⟨.hbm, 350, rfl⟩
abbrev main_call7_v0 : Ref sig .tc := ⟨.hbm, 351, rfl⟩
abbrev main_v278 : Ref sig .tc := ⟨.hbm, 352, rfl⟩
abbrev main_v279 : Ref sig .tc := ⟨.hbm, 353, rfl⟩
abbrev main_v280 : Ref sig .tc := ⟨.hbm, 354, rfl⟩
abbrev main_v281 : Ref sig .tc := ⟨.hbm, 355, rfl⟩
abbrev main_v282 : Ref sig .tc := ⟨.hbm, 356, rfl⟩
abbrev main_v283 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_cst_47 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_cst_48 : Ref sig .tc := ⟨.hbm, 366, rfl⟩
abbrev main_v291 : Ref sig .tc := ⟨.hbm, 367, rfl⟩
abbrev main_cst_49 : Ref sig .tc := ⟨.hbm, 368, rfl⟩
abbrev main_v292 : Ref sig .tc := ⟨.hbm, 369, rfl⟩
abbrev main_v293 : Ref sig .tc := ⟨.hbm, 370, rfl⟩
abbrev main_v294 : Ref sig .tc := ⟨.hbm, 371, rfl⟩
abbrev main_cst_50 : Ref sig .tc := ⟨.hbm, 372, rfl⟩
abbrev main_call8_v0 : Ref sig .tc := ⟨.hbm, 373, rfl⟩
abbrev main_call8_v1 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S_S64x128 : S_.BroadcastsInDim S64x128 (![] : Fin 0 → Fin S64x128.rank)
  bcast_S50000x1_S50000x128_0_1 : S50000x1.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.RefArgs.lean ====
/-
  No operation of the reference writes an argument array: after the whole program each argument buffer holds what
  it held at launch.
-/
import proofs.«417867_j28183575396971_1_alg».proof.Proof.RefStages

set_option maxRecDepth 16384

noncomputable section

namespace Cert.ReferenceIdeal.Args

open Cert.ReferenceIdeal Cert.ReferenceIdeal.Gen Cert.ReferenceIdeal.RunP Cert.ReferenceIdeal.Stages
open Idealize.ShloMosaic Idealize.ShloMosaic.TcCoe Idealize.SL.Sem Idealize.ShloMosaic.StableHlo

variable {F : FTy → Type} [FloatOps F] (V : Valuation τ sig (Elt F))

set_option maxHeartbeats 8000000 in
theorem arg0 : after ops V (Proc.devRef .tc main_arg0) = V (Proc.devRef .tc main_arg0) := by
  rw [after_ops]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]

set_option maxHeartbeats 8000000 in
theorem arg1 : after ops V (Proc.devRef .tc main_arg1) = V (Proc.devRef .tc main_arg1) := by
  rw [after_ops]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]

set_option maxHeartbeats 8000000 in
theorem arg2 : after ops V (Proc.devRef .tc main_arg2) = V (Proc.devRef .tc main_arg2) := by
  rw [after_ops]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]

set_option maxHeartbeats 8000000 in
theorem arg3 : after ops V (Proc.devRef .tc main_arg3) = V (Proc.devRef .tc main_arg3) := by
  rw [after_ops]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]

set_option maxHeartbeats 8000000 in
theorem arg4 : after ops V (Proc.devRef .tc main_arg4) = V (Proc.devRef .tc main_arg4) := by
  rw [after_ops]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]

set_option maxHeartbeats 8000000 in
theorem arg5 : after ops V (Proc.devRef .tc main_arg5) = V (Proc.devRef .tc main_arg5) := by
  rw [after_ops]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]

set_option maxHeartbeats 8000000 in
theorem arg6 : after ops V (Proc.devRef .tc main_arg6) = V (Proc.devRef .tc main_arg6) := by
  rw [after_ops]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]

set_option maxHeartbeats 8000000 in
theorem arg7 : after ops V (Proc.devRef .tc main_arg7) = V (Proc.devRef .tc main_arg7) := by
  rw [after_ops]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]

set_option maxHeartbeats 8000000 in
theorem arg8 : after ops V (Proc.devRef .tc main_arg8) = V (Proc.devRef .tc main_arg8) := by
  rw [after_ops]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]

end Cert.ReferenceIdeal.Args

end
-- ==== Proof.PreRange.lean ====
/-
  What the input precondition says of the edge list's source row.

  The precondition is a conjunction of tests, each "every entry of an array passes", and-ed into one bit. Its last two
  tests read the first row of the 2 by 800000 edge list and ask that every entry be at least 0 and below 50000. From
  the whole conjunction being 1 those two tests are 1, so every entry passed both: as a signed number each source
  index lies in [0, 50000).
-/
import proofs.«417867_j28183575396971_1_alg».proof.Pre_finite_inputs
import Idealize.ShloMosaic.PureOps.Ideal
import Idealize.ShloMosaic.Lib.ValueIdx
import Idealize.ShloMosaic.Lib.ReduceAll

noncomputable section

namespace Cert.PreRange

open Idealize.ShloMosaic

/-- The shape with no axes has one index. -/
instance : Subsingleton (⟨0, ![]⟩ : Shape).Idx := ⟨fun _ _ => funext fun d => d.elim0⟩

/-- A word that compares at-least against the zero word has a signed value that is not negative. -/
theorem nonneg_of_sge_zero (a : BitVec 32) (h : IntOp.cmpi .sge a 0#32 = 1#1) : 0 ≤ a.toInt := by
  have h0 : (0#32 : BitVec 32).toInt = 0 := by decide
  simp only [IntOp.cmpi, BitVec.sle, h0] at h
  by_contra hn
  rw [decide_eq_false hn] at h
  exact absurd h (by decide)

/-- A word that compares below the word 50000 has a signed value below 50000. -/
theorem lt_of_slt_height (a : BitVec 32) (h : IntOp.cmpi .slt a 50000#32 = 1#1) : a.toInt < 50000 := by
  have h0 : (50000#32 : BitVec 32).toInt = 50000 := by decide
  simp only [IntOp.cmpi, BitVec.slt, h0] at h
  by_contra hn
  rw [decide_eq_false hn] at h
  exact absurd h (by decide)

/-- Under the precondition every source index — the first row of the edge list, read as a vector of 800000 words —
    lies in [0, 50000). -/
theorem src_in_range [Cert.Pre_finite_inputs.Facts]
    (a0 : FVec Ideal ⟨2, ![50000, 128]⟩ .f32) (a1 : IVec ⟨2, ![2, 800000]⟩ 32) (a2 : IVec ⟨1, ![50000]⟩ 32)
    (a3 : FVec Ideal ⟨3, ![4, 128, 128]⟩ .f32) (a4 a5 a6 : FVec Ideal ⟨2, ![4, 128]⟩ .f32)
    (a7 : FVec Ideal ⟨3, ![4, 128, 128]⟩ .f32) (a8 : FVec Ideal ⟨2, ![4, 128]⟩ .f32)
    (hpre : Cert.Pre_finite_inputs.fn (F := Ideal) a0 a1 a2 a3 a4 a5 a6 a7 a8 = (fun _ => 1#1))
    (hsl : (⟨2, ![2, 800000]⟩ : Shape).Slices ![0, 0] ⟨2, ![1, 800000]⟩)
    (hsc : (⟨2, ![1, 800000]⟩ : Shape).ShapeCasts ⟨1, ![800000]⟩)
    (e : (⟨1, ![800000]⟩ : Shape).Idx) :
    0 ≤ (shapeCast ⟨1, ![800000]⟩ (extractStridedSlice ⟨2, ![1, 800000]⟩ ![0, 0] a1 hsl) hsc e).toInt
      ∧ (shapeCast ⟨1, ![800000]⟩ (extractStridedSlice ⟨2, ![1, 800000]⟩ ![0, 0] a1 hsl) hsc e).toInt < 50000 := by
  have h := congrFun hpre ValueIdx.ix0
  dsimp only [Cert.Pre_finite_inputs.fn, Cert.Pre_finite_inputs.fn_part1, Cert.Pre_finite_inputs.fn_part2] at h
  obtain ⟨h1, hlt⟩ := IntOp.andi_eq_one.1 (show IntOp.andi _ _ = 1#1 from h)
  obtain ⟨_, hge⟩ := IntOp.andi_eq_one.1 (show IntOp.andi _ _ = 1#1 from h1)
  have hge' := Host.reduce_andi_all _ _ _ _ _ hge e
  have hlt' := Host.reduce_andi_all _ _ _ _ _ hlt e
  exact ⟨nonneg_of_sge_zero _ hge', lt_of_slt_height _ hlt'⟩

end Cert.PreRange

end
-- ==== Proof.SimRel.lean ====
/-
  What the two programs' buffer contents share at the start of each layer (and, for the fifth relation, at the
  end of the last): the node features, the node pool and the graph pool agree; the row of source indices is one fixed
  column `src` on both sides; the destination indices, the clipped in-degrees, the graph assignment and the six
  parameter arrays agree.
-/
import proofs.«417867_j28183575396971_1_alg».proof.KernelIdeal
import proofs.«417867_j28183575396971_1_alg».proof.ReferenceIdeal
import Idealize.ShloMosaic.PureOps.Ideal
import Idealize.ShloMosaic.Lib.StableHlo.Run

noncomputable section

namespace Cert.Sim

open Idealize.ShloMosaic Idealize.ShloMosaic.TcCoe Idealize.ShloMosaic.StableHlo

/-- The two programs' contents at the start of layer 1. -/
structure RelStart0 (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  h : Vk (Proc.devRef .tc Cert.KernelIdeal.main_arg0) = Vr (Proc.devRef .tc Cert.ReferenceIdeal.main_arg0)
  np : Vk (Proc.devRef .tc Cert.KernelIdeal.main_v10) = Vr (Proc.devRef .tc Cert.ReferenceIdeal.main_v10)
  gp : Vk (Proc.devRef .tc Cert.KernelIdeal.main_v11) = Vr (Proc.devRef .tc Cert.ReferenceIdeal.main_v11)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

/-- The two programs' contents at the start of layer 2. -/
structure RelStart1 (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  h : Vk (Proc.devRef .tc Cert.KernelIdeal.main_v47_0) = Vr (Proc.devRef .tc Cert.ReferenceIdeal.main_v70)
  np : Vk (Proc.devRef .tc Cert.KernelIdeal.main_v47_1) = Vr (Proc.devRef .tc Cert.ReferenceIdeal.main_v71)
  gp : Vk (Proc.devRef .tc Cert.KernelIdeal.main_v59) = Vr (Proc.devRef .tc Cert.ReferenceIdeal.main_v83)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

/-- The two programs' contents at the start of layer 3. -/
structure RelStart2 (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  h : Vk (Proc.devRef .tc Cert.KernelIdeal.main_v95_0) = Vr (Proc.devRef .tc Cert.ReferenceIdeal.main_v142)
  np : Vk (Proc.devRef .tc Cert.KernelIdeal.main_v95_1) = Vr (Proc.devRef .tc Cert.ReferenceIdeal.main_v143)
  gp : Vk (Proc.devRef .tc Cert.KernelIdeal.main_v107) = Vr (Proc.devRef .tc Cert.ReferenceIdeal.main_v155)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

/-- The two programs' contents at the start of layer 4. -/
structure RelStart3 (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  h : Vk (Proc.devRef .tc Cert.KernelIdeal.main_v143_0) = Vr (Proc.devRef .tc Cert.ReferenceIdeal.main_v214)
  np : Vk (Proc.devRef .tc Cert.KernelIdeal.main_v143_1) = Vr (Proc.devRef .tc Cert.ReferenceIdeal.main_v215)
  gp : Vk (Proc.devRef .tc Cert.KernelIdeal.main_v155) = Vr (Proc.devRef .tc Cert.ReferenceIdeal.main_v227)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

/-- The two programs' contents after the last layer. -/
structure RelStart4 (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  h : Vk (Proc.devRef .tc Cert.KernelIdeal.main_v191_0) = Vr (Proc.devRef .tc Cert.ReferenceIdeal.main_v286)
  np : Vk (Proc.devRef .tc Cert.KernelIdeal.main_v191_1) = Vr (Proc.devRef .tc Cert.ReferenceIdeal.main_v287)
  gp : Vk (Proc.devRef .tc Cert.KernelIdeal.main_v203) = Vr (Proc.devRef .tc Cert.ReferenceIdeal.main_v299)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

end Cert.Sim

end
-- ==== Proof.SimPre.lean ====
/-
  Before the first layer both programs cut the edge list into its two rows, count and clip the in-degrees, and
  zero the two pools, with the same host operations; from launch contents that agree on the arguments they reach
  contents that share everything the first layer reads. The column of source indices is named after the
  reference's: the first row of the edge list.
-/
import proofs.«417867_j28183575396971_1_alg».proof.Proof.SimRel
import proofs.«417867_j28183575396971_1_alg».proof.Proof.Gen.KernelIdeal.Launch
import proofs.«417867_j28183575396971_1_alg».proof.Proof.RefStages

set_option maxRecDepth 16384

noncomputable section

namespace Cert.Sim.Pre

open Idealize.ShloMosaic Idealize.ShloMosaic.TcCoe Idealize.ShloMosaic.StableHlo Idealize.SL.Sem

variable (Vk : Valuation Cert.KernelIdeal.τ Cert.KernelIdeal.sig (Elt Ideal)) (Vr : Valuation Cert.ReferenceIdeal.τ Cert.ReferenceIdeal.sig (Elt Ideal))

/-- The column of source indices: the first row of the edge list, as the reference's first two operations leave it. -/
def srcOf : IVec ⟨1, ![800000]⟩ 32 := after Cert.ReferenceIdeal.RunP.opsPre Vr (Proc.devRef .tc Cert.ReferenceIdeal.main_v1)

set_option maxHeartbeats 8000000 in
/-- That column, spelled out: the first row cut out of the edge list and flattened. -/
theorem srcOf_eq : srcOf Vr = shapeCast ⟨1, ![800000]⟩ (extractStridedSlice ⟨2, ![1, 800000]⟩ ![0, 0] (Vr (Proc.devRef .tc Cert.ReferenceIdeal.main_arg1) : IVec ⟨2, ![2, 800000]⟩ 32) Cert.ReferenceIdeal.Gen.slices_S2x800000_S1x800000_0_0) Cert.ReferenceIdeal.Gen.shapeCasts_S1x800000_S800000 := by
  unfold srcOf
  conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
  rfl

set_option maxHeartbeats 8000000 in
/-- The contents both programs start the first layer from. -/
theorem start (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) (h2 : Vk (Proc.devRef .tc Cert.KernelIdeal.main_arg2) = Vr (Proc.devRef .tc Cert.ReferenceIdeal.main_arg2)) (h3 : Vk (Proc.devRef .tc Cert.KernelIdeal.main_arg3) = Vr (Proc.devRef .tc Cert.ReferenceIdeal.main_arg3)) (h4 : Vk (Proc.devRef .tc Cert.KernelIdeal.main_arg4) = Vr (Proc.devRef .tc Cert.ReferenceIdeal.main_arg4)) (h5 : Vk (Proc.devRef .tc Cert.KernelIdeal.main_arg5) = Vr (Proc.devRef .tc Cert.ReferenceIdeal.main_arg5)) (h6 : Vk (Proc.devRef .tc Cert.KernelIdeal.main_arg6) = Vr (Proc.devRef .tc Cert.ReferenceIdeal.main_arg6)) (h7 : Vk (Proc.devRef .tc Cert.KernelIdeal.main_arg7) = Vr (Proc.devRef .tc Cert.ReferenceIdeal.main_arg7)) (h8 : Vk (Proc.devRef .tc Cert.KernelIdeal.main_arg8) = Vr (Proc.devRef .tc Cert.ReferenceIdeal.main_arg8)) :
    RelStart0 (srcOf Vr) (after Cert.KernelIdeal.Gen.hostOps0_2 (after Cert.KernelIdeal.Gen.hostOps0_1 (after Cert.KernelIdeal.Gen.hostOps0 Vk))) (after Cert.ReferenceIdeal.RunP.opsPre Vr) where
  h := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact h0
  np := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
  gp := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
  srcK := by
    unfold srcOf
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [h1]
    rfl
  srcR := rfl
  dst := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [h1]
    rfl
  deg := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [h1]
    rfl
  a2 := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact h2
  a3 := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact h3
  a4 := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact h4
  a5 := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact h5
  a6 := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact h6
  a7 := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact h7
  a8 := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact h8

end Cert.Sim.Pre

end
-- ==== Proof.RegionFns.lean ====
/-
  The two dense stages of one graph-network layer, entry by entry over the extended reals.

  A layer turns node features `h` (50000 rows of 128) and their neighbourhood means `agg` into
  `z₁ = (h + agg) · W₁ + b₁` (`linA`: entry (r, j) is the sum over k of (h r k + agg r k) · W₁ k j, plus b₁ j),
  normalises every column of `z₁` with that column's mean `μ` and variance `v`, scales by `γ`, shifts by `β`,
  rectifies (`act`: max (γ k · (z₁ r k − μ k) · (v k + ε)^(−1/2) + β k) 0), and applies the second
  linear map, `h' = act · W₂ + b₂` (`linB`); the running node pool gains `h'` (`poolB`).
  Row vectors are carried as one-row matrices.
  Both programs of the certificate compute exactly these sums; they differ in how the rows are tiled and in the
  order the products are grouped, which the extended reals do not see.
-/
import Idealize.ShloMosaic.PureOps.Ideal
import Idealize.ShloMosaic.Lib.ValueIdx

noncomputable section

namespace Cert.RegionFns

open Idealize.ShloMosaic Idealize.ShloMosaic.ValueIdx

/-- 50000 nodes by 128 features. -/
abbrev ND : Shape := ⟨2, ![50000, 128]⟩
/-- A 128 by 128 weight matrix. -/
abbrev DD : Shape := ⟨2, ![128, 128]⟩
/-- A row vector of 128 features, as a one-row matrix. -/
abbrev RD : Shape := ⟨2, ![1, 128]⟩

/-- The variance offset ε of the normalisation: the binary value of the single-precision word both programs carry. -/
abbrev eps : EReal := Ideal.ofBits .f32 0x3727C5AC#32

/-- Entry (r, j) of `(h + agg) · W + b`. -/
def linA (h agg : ND.Idx → EReal) (w : DD.Idx → EReal) (b : RD.Idx → EReal) (r : Fin 50000) (j : Fin 128) : EReal :=
  (∑ k : Fin 128, (h (ix2 r k) + agg (ix2 r k)) * w (ix2 k j)) + b (ix2 0 j)

/-- Entry (r, k) of the normalised, scaled, shifted and rectified activations:
    max (γ k · (z r k − μ k) · (v k + ε)^(−1/2) + β k) 0. -/
def act (z : ND.Idx → EReal) (mu var g be : RD.Idx → EReal) (r : Fin 50000) (k : Fin 128) : EReal :=
  max (g (ix2 0 k) * (z (ix2 r k) - mu (ix2 0 k)) * Ideal.rsqrt (var (ix2 0 k) + eps) + be (ix2 0 k))
    (Ideal.ofBits .f32 0x00000000#32)

/-- Entry (r, j) of `act · W + b`. -/
def linB (z : ND.Idx → EReal) (mu var g be : RD.Idx → EReal) (w : DD.Idx → EReal) (b : RD.Idx → EReal)
    (r : Fin 50000) (j : Fin 128) : EReal :=
  (∑ k : Fin 128, act z mu var g be r k * w (ix2 k j)) + b (ix2 0 j)

/-- Entry (r, j) of the node pool after the layer: what it held plus the layer's new features. -/
def poolB (z : ND.Idx → EReal) (mu var g be : RD.Idx → EReal) (w : DD.Idx → EReal) (b : RD.Idx → EReal)
    (np : ND.Idx → EReal) (r : Fin 50000) (j : Fin 128) : EReal :=
  np (ix2 r j) + linB z mu var g be w b r j

/-! ## The same three as functions of the whole arrays -/

/-- `(h + agg) · W + b` as an array of 50000 by 128. -/
def GA (h agg : ND.Idx → EReal) (w : DD.Idx → EReal) (b : RD.Idx → EReal) : ND.Idx → EReal :=
  fun i => linA h agg w b (i 0) (i 1)

/-- The layer's new node features `act · W + b` as an array of 50000 by 128. -/
def GBh (z : ND.Idx → EReal) (mu var g be : RD.Idx → EReal) (w : DD.Idx → EReal) (b : RD.Idx → EReal) : ND.Idx → EReal :=
  fun i => linB z mu var g be w b (i 0) (i 1)

/-- The node pool after the layer as an array of 50000 by 128. -/
def GBnp (z : ND.Idx → EReal) (mu var g be : RD.Idx → EReal) (w : DD.Idx → EReal) (b : RD.Idx → EReal)
    (np : ND.Idx → EReal) : ND.Idx → EReal :=
  fun i => poolB z mu var g be w b np (i 0) (i 1)

theorem GA_apply (h agg : ND.Idx → EReal) (w : DD.Idx → EReal) (b : RD.Idx → EReal) (r : Fin 50000) (j : Fin 128) :
    GA h agg w b (ix2 r j) = linA h agg w b r j := rfl

theorem GBh_apply (z : ND.Idx → EReal) (mu var g be : RD.Idx → EReal) (w : DD.Idx → EReal) (b : RD.Idx → EReal)
    (r : Fin 50000) (j : Fin 128) : GBh z mu var g be w b (ix2 r j) = linB z mu var g be w b r j := rfl

theorem GBnp_apply (z : ND.Idx → EReal) (mu var g be : RD.Idx → EReal) (w : DD.Idx → EReal) (b : RD.Idx → EReal)
    (np : ND.Idx → EReal) (r : Fin 50000) (j : Fin 128) :
    GBnp z mu var g be w b np (ix2 r j) = poolB z mu var g be w b np r j := rfl

end Cert.RegionFns

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.KRegA0.lean ====
/-
  The first dense stage of a layer as the tiled program computes it: ten blocks of 5000 rows each, every block
  the product of (h + agg) restricted to those rows with the whole weight matrix, plus the bias row. Read entry by
  entry, block t's row p is row t * 5000 + p of the array, so the ten blocks together are the whole-array
  function `GA` of the four arrays the region finds.
-/
import proofs.«417867_j28183575396971_1_alg».proof.Proof.Gen.KernelIdeal.Frame
import proofs.«417867_j28183575396971_1_alg».proof.Proof.RegionFns
import proofs.«417867_j28183575396971_1_alg».proof.Proof.LibContract
import Idealize.ShloMosaic.Lib.Pipeline.Value
import Idealize.ShloMosaic.Lib.ValueIdx

noncomputable section

namespace Cert.KernelIdeal.RegA0

open Cert.KernelIdeal Cert.KernelIdeal.Gen Idealize.ShloMosaic Idealize.ShloMosaic.TcCoe Idealize.SL.Sem
open Idealize.ShloMosaic.ValueIdx
open Idealize.ShloMosaic.Pipeline (Dat)
open Cert.RegionFns
open scoped BigOperators

/-! ## One block: the payload at a row and a column -/

/-- The bias row, cast to its own shape and repeated down the 5000 rows, reads the bias at the column. -/
theorem bias_apply (b : Vec Ideal S1x128 .f32) (p : Fin 5000) (q : Fin 128) :
    broadcastTo S5000x128 (shapeCast S1x128 b shapeCasts_S1x128_S1x128) broadcasts_S1x128_S5000x128 (ix2 p q)
      = b (ix2 0 q) := by
  rw [shapeCast_self]
  refine broadcastTo_apply _ _ _ (ix2 0 q) (fun a => ?_)
  match a with
  | ⟨0, _⟩ => rfl
  | ⟨1, _⟩ => rfl

/-- Entry (p, q) of a block's result: the sum over k of (x0 p k + x1 p k) * w k q, plus the bias at q. The two
    format changes are the identity on extended reals and the two same-shape casts are the identity. -/
theorem payload_apply (x0 x1 : Vec Ideal S5000x128 .f32) (w : Vec Ideal S128x128 .f32) (b : Vec Ideal S1x128 .f32)
    (p : Fin 5000) (q : Fin 128) :
    Gen.k0_pay1 x0 x1 w b (ix2 p q)
      = (∑ k : Fin 128, (x0 (ix2 p k) + x1 (ix2 p k)) * w (ix2 k q)) + b (ix2 0 q) := by
  unfold Gen.k0_pay1
  rw [addf_apply, bias_apply]
  rw [Cert.LibContract.matmul_plain dot_S5000x128_S128x128_S5000x128_1_0_0_1_n_n rfl rfl rfl rfl rfl rfl]
  simp only [truncf_apply, addf_apply, shapeCast_self]

/-! ## One block against the whole array -/

/-- A block whose row p is the arrays' row T * 5000 + p, column for column (`e` places the block in the array),
    holding the whole weight matrix and the whole bias row: entry j of the block's result is entry `e j` of
    `(h + agg) · W + b`. The row of `e (p, k)` does not depend on k, so the sum over k runs along one row of
    the arrays. -/
theorem block_apply (h agg : ND.Idx → EReal) (w : DD.Idx → EReal) (b : RD.Idx → EReal)
    (x0 x1 : Vec Ideal S5000x128 .f32) (xw : Vec Ideal S128x128 .f32) (xb : Vec Ideal S1x128 .f32)
    (e : S5000x128.Idx → ND.Idx) (T : Nat)
    (he0 : ∀ y, (e y 0).val = T * 5000 + (y 0).val) (he1 : ∀ y, (e y 1).val = (y 1).val)
    (h0 : ∀ y, x0 y = h (e y)) (h1 : ∀ y, x1 y = agg (e y)) (hw : xw = w) (hb : xb = b)
    (j : S5000x128.Idx) :
    Gen.k0_pay1 x0 x1 xw xb j = GA h agg w b (e j) := by
  obtain ⟨p, q, rfl⟩ : ∃ (p : Fin 5000) (q : Fin 128), j = ix2 p q := ⟨j 0, j 1, eq_ix2 j⟩
  subst hw hb
  rw [payload_apply]
  obtain ⟨r, hr⟩ : ∃ r : Fin 50000, r.val = T * 5000 + p.val := ⟨e (ix2 p q) 0, he0 (ix2 p q)⟩
  have hrow : ∀ k : Fin 128, e (ix2 p k) = ix2 r k := fun k => funext fun a => Fin.ext (by
    match a with
    | ⟨0, _⟩ => exact (he0 (ix2 p k)).trans hr.symm
    | ⟨1, _⟩ => exact he1 (ix2 p k))
  rw [hrow q, GA_apply]
  unfold linA
  simp only [h0, h1, hrow]

/-! ## What a grid point writes back -/

section Region
variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the two row-blocked inputs move with the output, whose block index is
    the point's number on the row axis and 0 on the column axis; the weight and the bias stay at block (0, 0). -/
theorem idx_facts : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the output's block at point t is row t * 5000 + p of the array. -/
theorem out_row (t : Fin cfg0.N) (y : S5000x128.Idx) :
    (((cfg0.win 4).blk t).view.emb y 0).val = t.val * 5000 + (y 0).val := by
  obtain ⟨e00, e01, e10, e11, e20, e21, e30, e31, e40, e41⟩ := idx_facts t
  show win0_4.index t (0 : Fin 2) * 5000 + 1 * (y 0).val = t.val * 5000 + (y 0).val
  omega

/-- Its columns are the array's columns. -/
theorem out_col (t : Fin cfg0.N) (y : S5000x128.Idx) :
    (((cfg0.win 4).blk t).view.emb y 1).val = (y 1).val := by
  obtain ⟨e00, e01, e10, e11, e20, e21, e30, e31, e40, e41⟩ := idx_facts t
  show win0_4.index t (1 : Fin 2) * 128 + 1 * (y 1).val = (y 1).val
  omega

/-- The first input's block at point t sits in its array where the output's block sits in the output. -/
theorem in0_read (c : Dev nD) (t : Fin cfg0.N) (y : S5000x128.Idx) :
    Gen.iblk0 V c 0 t y = V c (Pipeline.arrRef spec0 0) (((cfg0.win 4).blk t).view.emb y) := by
  obtain ⟨e00, e01, e10, e11, e20, e21, e30, e31, e40, e41⟩ := idx_facts t
  show V c (Pipeline.arrRef spec0 0) (((cfg0.win 0).blk t).view.emb y) = V c (Pipeline.arrRef spec0 0) (((cfg0.win 4).blk t).view.emb y)
  refine congrArg _ (funext fun a => Fin.ext ?_)
  match a with
  | ⟨0, _⟩ => show win0_0.index t (0 : Fin 2) * 5000 + 1 * (y 0).val = win0_4.index t (0 : Fin 2) * 5000 + 1 * (y 0).val; omega
  | ⟨1, _⟩ => show win0_0.index t (1 : Fin 2) * 128 + 1 * (y 1).val = win0_4.index t (1 : Fin 2) * 128 + 1 * (y 1).val; omega

/-- So does the second input's. -/
theorem in1_read (c : Dev nD) (t : Fin cfg0.N) (y : S5000x128.Idx) :
    Gen.iblk0 V c 1 t y = V c (Pipeline.arrRef spec0 1) (((cfg0.win 4).blk t).view.emb y) := by
  obtain ⟨e00, e01, e10, e11, e20, e21, e30, e31, e40, e41⟩ := idx_facts t
  show V c (Pipeline.arrRef spec0 1) (((cfg0.win 1).blk t).view.emb y) = V c (Pipeline.arrRef spec0 1) (((cfg0.win 4).blk t).view.emb y)
  refine congrArg _ (funext fun a => Fin.ext ?_)
  match a with
  | ⟨0, _⟩ => show win0_1.index t (0 : Fin 2) * 5000 + 1 * (y 0).val = win0_4.index t (0 : Fin 2) * 5000 + 1 * (y 0).val; omega
  | ⟨1, _⟩ => show win0_1.index t (1 : Fin 2) * 128 + 1 * (y 1).val = win0_4.index t (1 : Fin 2) * 128 + 1 * (y 1).val; omega

/-- The weight's block at every point is the whole weight matrix. -/
theorem in2_read (c : Dev nD) (t : Fin cfg0.N) :
    Gen.iblk0 V c 2 t = (V c (Pipeline.arrRef spec0 2) : S128x128.Idx → Elt Ideal .f32) := by
  obtain ⟨e00, e01, e10, e11, e20, e21, e30, e31, e40, e41⟩ := idx_facts t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias's block at every point is the whole bias row. -/
theorem in3_read (c : Dev nD) (t : Fin cfg0.N) :
    Gen.iblk0 V c 3 t = (V c (Pipeline.arrRef spec0 3) : S1x128.Idx → Elt Ideal .f32) := by
  obtain ⟨e00, e01, e10, e11, e20, e21, e30, e31, e40, e41⟩ := idx_facts t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Point t writes back block t of `(h + agg) · W + b` of the four arrays as the region finds them. -/
theorem flushed_eq (c : Dev nD) (t : Fin cfg0.N) :
    (Gen.dat0 V c).flushed 4 t = ((cfg0.win 4).blk t).view.read (Elt Ideal)
      (GA (V c (Pipeline.arrRef spec0 0)) (V c (Pipeline.arrRef spec0 1)) (V c (Pipeline.arrRef spec0 2))
        (V c (Pipeline.arrRef spec0 3))) := by
  show (cfg0.win 4).cut (grid0.coords t) ((Gen.dat0 V c).after 4 t) = _
  rw [Gen.after0_4]
  unfold Gen.out0_4
  rw [View.canon_unit_zero hz]
  simp only [View.ld_unit_zero (S := S5000x128) hz, View.ld_unit_zero (S := S128x128) hz,
    View.ld_unit_zero (S := S1x128) hz]
  generalize hG : GA (V c (Pipeline.arrRef spec0 0)) (V c (Pipeline.arrRef spec0 1)) (V c (Pipeline.arrRef spec0 2))
    (V c (Pipeline.arrRef spec0 3)) = G
  funext j
  show Gen.k0_pay1 (Gen.iblk0 V c 0 t) (Gen.iblk0 V c 1 t) (Gen.iblk0 V c 2 t) (Gen.iblk0 V c 3 t) j
    = G (((cfg0.win 4).blk t).view.emb j)
  rw [← hG]
  exact block_apply (V c (Pipeline.arrRef spec0 0)) (V c (Pipeline.arrRef spec0 1)) (V c (Pipeline.arrRef spec0 2))
    (V c (Pipeline.arrRef spec0 3)) (Gen.iblk0 V c 0 t) (Gen.iblk0 V c 1 t) (Gen.iblk0 V c 2 t) (Gen.iblk0 V c 3 t)
    (fun y => ((cfg0.win 4).blk t).view.emb y) t.val (out_row t) (out_col t) (in0_read V c t) (in1_read V c t)
    (in2_read V c t) (in3_read V c t) j

/-! ## The ten blocks are the array -/

/-- An index of the array is in point t's block iff each coordinate is in the block's range on its axis. -/
theorem mem_blk (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole (Pipeline.arrRef spec0 4)).slice (win0_4.rect t)).set ↔ _
  rw [View.set_slice_whole, Rect.mem_set_unit]
  exact Iff.rfl

/-- Row r of the array is in the block of point r / 5000, which writes back like every point. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [Gen.N_0]; omega⟩, rfl⟩
  obtain ⟨e00, e01, e10, e11, e20, e21, e30, e31, e40, e41⟩ := idx_facts t
  refine ⟨t, Gen.flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- After the region the output array holds `(h + agg) · W + b` of the four arrays the region found. -/
theorem final (c : Dev nD) :
    (Gen.dat0 V c).arrAt 4 cfg0.N
      = GA (V c (Pipeline.arrRef spec0 0)) (V c (Pipeline.arrRef spec0 1)) (V c (Pipeline.arrRef spec0 2))
          (V c (Pipeline.arrRef spec0 3)) :=
  (Gen.dat0 V c).arrAt_eq_of_cover 4
    (GA (V c (Pipeline.arrRef spec0 0)) (V c (Pipeline.arrRef spec0 1)) (V c (Pipeline.arrRef spec0 2))
      (V c (Pipeline.arrRef spec0 3)))
    (fun t _ => flushed_eq V c t) cover

end Region

end Cert.KernelIdeal.RegA0

end
-- ==== Proof.KRegB1.lean ====
/-
  The second dense stage of a layer, as the row-blocked kernel computes it: ten blocks of 5000 rows, each block
  normalised with the given column means and variances, scaled, shifted, rectified, multiplied by the second weight
  matrix and offset by its bias; the node pool's block gains the result. Read entry by entry, every block is the
  matching rows of ONE pair of whole-array functions of the region's inputs (the new features and the updated pool),
  the ten blocks tile the 50000 rows, and so the two output arrays end holding exactly those two functions.
-/
import proofs.«417867_j28183575396971_1_alg».proof.Proof.Gen.KernelIdeal.Frame
import proofs.«417867_j28183575396971_1_alg».proof.Proof.RegionFns
import proofs.«417867_j28183575396971_1_alg».proof.Proof.LibContract
import Idealize.ShloMosaic.Lib.Pipeline.Value
import Idealize.ShloMosaic.Lib.ValueIdx
import Idealize.ShloMosaic.Lib.ValueLayout

set_option maxRecDepth 16384

noncomputable section

namespace Cert.KernelIdeal.RegB1

open Idealize.ShloMosaic Idealize.ShloMosaic.TcCoe Idealize.ShloMosaic.ValueIdx Idealize.SL.Sem
open Idealize.ShloMosaic.Pipeline (Dat)
open Cert.KernelIdeal Cert.RegionFns
open scoped BigOperators

/-! ## One block, entry by entry -/

/-- The new features of one block of 5000 rows at row p and column q of the block: the rectified normalised
    activations of that row, contracted with column q of the weights, plus the bias at q. The format changes are
    the identity on the extended reals, the row vectors are read at their one row, and the matrix product into
    zeros is the plain sum over the 128 contracted positions. -/
theorem feat_apply (x0 : Vec Ideal S5000x128 .f32) (x1 x2 x3 x4 : Vec Ideal S1x128 .f32) (x5 : Vec Ideal S128x128 .f32)
    (x6 : Vec Ideal S1x128 .f32) (p : Fin 5000) (q : Fin 128) :
    Gen.k1_pay1 x0 x1 x2 x3 x4 x5 x6 (ix2 p q)
      = (∑ k : Fin 128, max (x3 (ix2 0 k) * (x0 (ix2 p k) - x1 (ix2 0 k)) * Ideal.rsqrt (x2 (ix2 0 k) + eps) + x4 (ix2 0 k))
          (Ideal.ofBits .f32 0x00000000#32) * x5 (ix2 k q)) + x6 (ix2 0 q) := by
  unfold Gen.k1_pay1
  simp only [shapeCast_self]
  rw [addf_apply, broadcastTo_1b_ab_apply]
  rw [Cert.LibContract.matmul_plain dot_S5000x128_S128x128_S5000x128_1_0_0_1_n_n rfl rfl rfl rfl rfl rfl]
  refine congrArg (· + x6 (ix2 0 q)) (Finset.sum_congr rfl fun k _ => ?_)
  rw [truncf_apply, truncf_apply, maximumf_apply, addf_apply, mulf_apply, mulf_apply, subf_apply,
    broadcastTo_1b_ab_apply, broadcastTo_1b_ab_apply, broadcastTo_1b_ab_apply, broadcastTo_1b_ab_apply, broadcast_apply]
  rfl

/-- The pool's block after the update, at the same entry: what it held plus the new feature. -/
theorem pool_apply (x0 : Vec Ideal S5000x128 .f32) (x1 x2 x3 x4 : Vec Ideal S1x128 .f32) (x5 : Vec Ideal S128x128 .f32)
    (x6 : Vec Ideal S1x128 .f32) (x7 : Vec Ideal S5000x128 .f32) (p : Fin 5000) (q : Fin 128) :
    Gen.k1_pay2 x0 x1 x2 x3 x4 x5 x6 x7 (ix2 p q) = x7 (ix2 p q) + Gen.k1_pay1 x0 x1 x2 x3 x4 x5 x6 (ix2 p q) := by
  unfold Gen.k1_pay2
  simp only [shapeCast_self]
  rw [addf_apply]

/-- A block whose rows are rows of the whole activations array (block row p is array row r), computed with the
    whole row vectors and weights, gives at (p, q) the whole-array new features at (r, q). -/
theorem feat_rows (Z : ND.Idx → EReal) (MU VA GM BE : RD.Idx → EReal) (W : DD.Idx → EReal) (B : RD.Idx → EReal)
    (x0 : Vec Ideal S5000x128 .f32) (x1 x2 x3 x4 : Vec Ideal S1x128 .f32) (x5 : Vec Ideal S128x128 .f32)
    (x6 : Vec Ideal S1x128 .f32) (p : Fin 5000) (q : Fin 128) (r : Fin 50000)
    (h0 : ∀ k : Fin 128, x0 (ix2 p k) = Z (ix2 r k)) (h1 : x1 = MU) (h2 : x2 = VA) (h3 : x3 = GM) (h4 : x4 = BE)
    (h5 : x5 = W) (h6 : x6 = B) :
    Gen.k1_pay1 x0 x1 x2 x3 x4 x5 x6 (ix2 p q) = GBh Z MU VA GM BE W B (ix2 r q) := by
  subst h1 h2 h3 h4 h5 h6
  rw [feat_apply, GBh_apply]
  unfold linB act
  simp only [h0]

/-- The same for the pool, the pool's block row p being row r of the whole pool. -/
theorem pool_rows (Z : ND.Idx → EReal) (MU VA GM BE : RD.Idx → EReal) (W : DD.Idx → EReal) (B : RD.Idx → EReal)
    (NP : ND.Idx → EReal)
    (x0 : Vec Ideal S5000x128 .f32) (x1 x2 x3 x4 : Vec Ideal S1x128 .f32) (x5 : Vec Ideal S128x128 .f32)
    (x6 : Vec Ideal S1x128 .f32) (x7 : Vec Ideal S5000x128 .f32) (p : Fin 5000) (q : Fin 128) (r : Fin 50000)
    (h0 : ∀ k : Fin 128, x0 (ix2 p k) = Z (ix2 r k)) (h1 : x1 = MU) (h2 : x2 = VA) (h3 : x3 = GM) (h4 : x4 = BE)
    (h5 : x5 = W) (h6 : x6 = B) (h7 : x7 (ix2 p q) = NP (ix2 r q)) :
    Gen.k1_pay2 x0 x1 x2 x3 x4 x5 x6 x7 (ix2 p q) = GBnp Z MU VA GM BE W B NP (ix2 r q) := by
  rw [pool_apply, h7, feat_rows Z MU VA GM BE W B x0 x1 x2 x3 x4 x5 x6 p q r h0 h1 h2 h3 h4 h5 h6, GBnp_apply, GBh_apply]
  rfl

/-! ## The region's arrays and its blocks -/

variable (V : (c : Dev nD) → (b : Ref sig .tc) → Buf (Elt Ideal) ((c : Thread nD τ).loc b))

/-- The eight input arrays as the region finds them, at their literal shapes: the first stage's output, the column
    means and variances, the scale and shift rows, the second weights and bias, the node pool. -/
noncomputable def inZ (c : Dev nD) : ND.Idx → EReal := V c (Pipeline.arrRef spec1 0)
noncomputable def inMean (c : Dev nD) : RD.Idx → EReal := V c (Pipeline.arrRef spec1 1)
noncomputable def inVar (c : Dev nD) : RD.Idx → EReal := V c (Pipeline.arrRef spec1 2)
noncomputable def inScale (c : Dev nD) : RD.Idx → EReal := V c (Pipeline.arrRef spec1 3)
noncomputable def inShift (c : Dev nD) : RD.Idx → EReal := V c (Pipeline.arrRef spec1 4)
noncomputable def inW (c : Dev nD) : DD.Idx → EReal := V c (Pipeline.arrRef spec1 5)
noncomputable def inBias (c : Dev nD) : RD.Idx → EReal := V c (Pipeline.arrRef spec1 6)
noncomputable def inPool (c : Dev nD) : ND.Idx → EReal := V c (Pipeline.arrRef spec1 7)

theorem offs_zero : (![0, 0] : Fin 2 → Nat) = fun _ => 0 := funext fun a => by fin_cases a <;> rfl

/-- The block index maps over the grid: the row-blocked windows are at block (t, 0) at point t, the whole windows at
    block (0, 0) at every point. -/
theorem idx_facts : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 ∧ True :=
  (by decide +kernel : ∀ t : Fin grid1.N, _)

/-- The activations' block at point t holds rows 5000·t … 5000·t + 4999 of the array. -/
theorem Z_apply (c : Dev nD) (t : Fin cfg1.N) (p : Fin 5000) (k : Fin 128) (h : t.val * 5000 + p.val < 50000) :
    (Gen.iblk1 V c 0 t : Vec Ideal S5000x128 .f32) (ix2 p k) = inZ V c (ix2 ⟨t.val * 5000 + p.val, h⟩ k) := by
  obtain ⟨e0, e1, -⟩ := idx_facts t
  unfold Gen.iblk1 inZ
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The means' block is the whole row at every point. -/
theorem Mean_eq (c : Dev nD) (t : Fin cfg1.N) :
    (Gen.iblk1 V c 1 t : Vec Ideal S1x128 .f32) = inMean V c := by
  obtain ⟨-, -, e0, e1, -⟩ := idx_facts t
  funext j
  unfold Gen.iblk1 inMean
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * (j 0).val = (j 0).val; rw [e0]; omega
  | ⟨1, _⟩ => show win1_1.index t (1 : Fin 2) * 128 + 1 * (j 1).val = (j 1).val; rw [e1]; omega

/-- The variances' block is the whole row at every point. -/
theorem Var_eq (c : Dev nD) (t : Fin cfg1.N) :
    (Gen.iblk1 V c 2 t : Vec Ideal S1x128 .f32) = inVar V c := by
  obtain ⟨-, -, -, -, e0, e1, -⟩ := idx_facts t
  funext j
  unfold Gen.iblk1 inVar
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega

/-- The scale's block is the whole row at every point. -/
theorem Scale_eq (c : Dev nD) (t : Fin cfg1.N) :
    (Gen.iblk1 V c 3 t : Vec Ideal S1x128 .f32) = inScale V c := by
  obtain ⟨-, -, -, -, -, -, e0, e1, -⟩ := idx_facts t
  funext j
  unfold Gen.iblk1 inScale
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 128 + 1 * (j 1).val = (j 1).val; rw [e1]; omega

/-- The shift's block is the whole row at every point. -/
theorem Shift_eq (c : Dev nD) (t : Fin cfg1.N) :
    (Gen.iblk1 V c 4 t : Vec Ideal S1x128 .f32) = inShift V c := by
  obtain ⟨-, -, -, -, -, -, -, -, e0, e1, -⟩ := idx_facts t
  funext j
  unfold Gen.iblk1 inShift
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

/-- The weights' block is the whole matrix at every point. -/
theorem W_eq (c : Dev nD) (t : Fin cfg1.N) :
    (Gen.iblk1 V c 5 t : Vec Ideal S128x128 .f32) = inW V c := by
  obtain ⟨-, -, -, -, -, -, -, -, -, -, e0, e1, -⟩ := idx_facts t
  funext j
  unfold Gen.iblk1 inW
  rw [View.read_apply]
  show V c (Pipeline.arrRef spec1 5) _ = V c (Pipeline.arrRef spec1 5) _
  congr 1
  funext a
  apply Fin.ext
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

/-- The bias's block is the whole row at every point. -/
theorem Bias_eq (c : Dev nD) (t : Fin cfg1.N) :
    (Gen.iblk1 V c 6 t : Vec Ideal S1x128 .f32) = inBias V c := by
  obtain ⟨-, -, -, -, -, -, -, -, -, -, -, -, e0, e1, -⟩ := idx_facts t
  funext j
  unfold Gen.iblk1 inBias
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega

/-- The pool's block at point t holds rows 5000·t … 5000·t + 4999 of the pool. -/
theorem Pool_apply (c : Dev nD) (t : Fin cfg1.N) (p : Fin 5000) (k : Fin 128) (h : t.val * 5000 + p.val < 50000) :
    (Gen.iblk1 V c 7 t : Vec Ideal S5000x128 .f32) (ix2 p k) = inPool V c (ix2 ⟨t.val * 5000 + p.val, h⟩ k) := by
  obtain ⟨-, -, -, -, -, -, -, -, -, -, -, -, -, -, e0, e1, -⟩ := idx_facts t
  unfold Gen.iblk1 inPool
  rw [View.read_apply]
  show V c (Pipeline.arrRef spec1 7) _ = V c (Pipeline.arrRef spec1 7) _
  congr 1
  funext a
  apply Fin.ext
  match a with
  | ⟨0, _⟩ => show win1_7.index t (0 : Fin 2) * 5000 + 1 * p.val = t.val * 5000 + p.val; rw [e0]; omega
  | ⟨1, _⟩ => show win1_7.index t (1 : Fin 2) * 128 + 1 * k.val = k.val; rw [e1]; omega

/-! ## What each point writes back -/

/-- POINT t WRITES BACK, into the new features, rows 5000·t … 5000·t + 4999 of the whole-array new features. -/
theorem flushed_feat (c : Dev nD) (t : Fin cfg1.N) :
    (Gen.dat1 V c).flushed 8 t = ((cfg1.win 8).blk t).view.read (Elt Ideal)
      (GBh (inZ V c) (inMean V c) (inVar V c) (inScale V c) (inShift V c) (inW V c) (inBias V c)) := by
  show (cfg1.win 8).cut (grid1.coords t) ((Gen.dat1 V c).after 8 t) = _
  rw [Gen.after1_8]
  unfold Gen.out1_8
  rw [View.canon_unit_zero offs_zero]
  simp only [View.ld_unit_zero (S := S5000x128) offs_zero, View.ld_unit_zero (S := S1x128) offs_zero,
    View.ld_unit_zero (S := S128x128) offs_zero]
  funext j
  have ht : t.val < 10 := t.isLt
  have hp : (j 0).val < 5000 := (j 0).isLt
  have hq : (j 1).val < 128 := (j 1).isLt
  have hr : t.val * 5000 + (j 0).val < 50000 := by omega
  have hj : (win1 8).xinj (grid1.coords t) j = ix2 (⟨(j 0).val, hp⟩ : Fin 5000) (⟨(j 1).val, hq⟩ : Fin 128) :=
    funext fun a => match a with | ⟨0, _⟩ => rfl | ⟨1, _⟩ => rfl
  have hemb : ((cfg1.win 8).blk t).view.emb j
      = ix2 (⟨t.val * 5000 + (j 0).val, hr⟩ : Fin 50000) (⟨(j 1).val, hq⟩ : Fin 128) := by
    obtain ⟨-, -, -, -, -, -, -, -, -, -, -, -, -, -, -, -, e0, e1, -⟩ := idx_facts t
    funext a
    apply Fin.ext
    match a with
    | ⟨0, _⟩ => show win1_8.index t (0 : Fin 2) * 5000 + 1 * (j 0).val = t.val * 5000 + (j 0).val; rw [e0]; omega
    | ⟨1, _⟩ => show win1_8.index t (1 : Fin 2) * 128 + 1 * (j 1).val = (j 1).val; rw [e1]; omega
  rw [View.read_apply, hemb, cast_eq]
  refine (congrArg (Gen.k1_pay1 (Gen.iblk1 V c 0 t) (Gen.iblk1 V c 1 t) (Gen.iblk1 V c 2 t) (Gen.iblk1 V c 3 t)
    (Gen.iblk1 V c 4 t) (Gen.iblk1 V c 5 t) (Gen.iblk1 V c 6 t)) hj).trans ?_
  exact feat_rows _ _ _ _ _ _ _ _ _ _ _ _ _ _ _ _ _ (fun k => Z_apply V c t ⟨(j 0).val, hp⟩ k hr) (Mean_eq V c t)
    (Var_eq V c t) (Scale_eq V c t) (Shift_eq V c t) (W_eq V c t) (Bias_eq V c t)

/-- POINT t WRITES BACK, into the pool, the same rows of the whole-array updated pool. -/
theorem flushed_pool (c : Dev nD) (t : Fin cfg1.N) :
    (Gen.dat1 V c).flushed 9 t = ((cfg1.win 9).blk t).view.read (Elt Ideal)
      (GBnp (inZ V c) (inMean V c) (inVar V c) (inScale V c) (inShift V c) (inW V c) (inBias V c) (inPool V c)) := by
  show (cfg1.win 9).cut (grid1.coords t) ((Gen.dat1 V c).after 9 t) = _
  rw [Gen.after1_9]
  unfold Gen.out1_9
  rw [View.canon_unit_zero offs_zero]
  simp only [View.ld_unit_zero (S := S5000x128) offs_zero, View.ld_unit_zero (S := S1x128) offs_zero,
    View.ld_unit_zero (S := S128x128) offs_zero]
  funext j
  have ht : t.val < 10 := t.isLt
  have hp : (j 0).val < 5000 := (j 0).isLt
  have hq : (j 1).val < 128 := (j 1).isLt
  have hr : t.val * 5000 + (j 0).val < 50000 := by omega
  have hj : (win1 9).xinj (grid1.coords t) j = ix2 (⟨(j 0).val, hp⟩ : Fin 5000) (⟨(j 1).val, hq⟩ : Fin 128) :=
    funext fun a => match a with | ⟨0, _⟩ => rfl | ⟨1, _⟩ => rfl
  have hemb : ((cfg1.win 9).blk t).view.emb j
      = ix2 (⟨t.val * 5000 + (j 0).val, hr⟩ : Fin 50000) (⟨(j 1).val, hq⟩ : Fin 128) := by
    obtain ⟨-, -, -, -, -, -, -, -, -, -, -, -, -, -, -, -, -, -, e0, e1, -⟩ := idx_facts t
    funext a
    apply Fin.ext
    match a with
    | ⟨0, _⟩ => show win1_9.index t (0 : Fin 2) * 5000 + 1 * (j 0).val = t.val * 5000 + (j 0).val; rw [e0]; omega
    | ⟨1, _⟩ => show win1_9.index t (1 : Fin 2) * 128 + 1 * (j 1).val = (j 1).val; rw [e1]; omega
  rw [View.read_apply, hemb, cast_eq]
  refine (congrArg (Gen.k1_pay2 (Gen.iblk1 V c 0 t) (Gen.iblk1 V c 1 t) (Gen.iblk1 V c 2 t) (Gen.iblk1 V c 3 t)
    (Gen.iblk1 V c 4 t) (Gen.iblk1 V c 5 t) (Gen.iblk1 V c 6 t) (Gen.iblk1 V c 7 t)) hj).trans ?_
  exact pool_rows _ _ _ _ _ _ _ _ _ _ _ _ _ _ _ _ _ _ _ (fun k => Z_apply V c t ⟨(j 0).val, hp⟩ k hr) (Mean_eq V c t)
    (Var_eq V c t) (Scale_eq V c t) (Shift_eq V c t) (W_eq V c t) (Bias_eq V c t)
    (Pool_apply V c t ⟨(j 0).val, hp⟩ ⟨(j 1).val, hq⟩ hr)

/-! ## The ten blocks tile the 50000 rows -/

/-- Row r of the feat array lies in the block of point r / 5000. -/
theorem covered_feat (i : S50000x128.Idx) :
    ∃ t : Fin cfg1.N, (cfg1.win 8).flush t = true ∧ i ∈ ((cfg1.win 8).blk t).view.set := by
  have h0 : (i 0).val < 50000 := (i 0).isLt
  have h1 : (i 1).val < 128 := (i 1).isLt
  obtain ⟨t, ht⟩ : ∃ t : Fin cfg1.N, t.val = (i 0).val / 5000 :=
    ⟨⟨(i 0).val / 5000, by show _ < 10; omega⟩, rfl⟩
  obtain ⟨-, -, -, -, -, -, -, -, -, -, -, -, -, -, -, -, e0, e1, -⟩ := idx_facts t
  refine ⟨t, Gen.flush1_8 t, ?_⟩
  simp only [View.set_slice_whole, Rect.mem_set_unit]
  intro a
  match a with
  | ⟨0, _⟩ =>
    show win1_8.index t (0 : Fin 2) * 5000 ≤ (i 0).val ∧ (i 0).val < win1_8.index t (0 : Fin 2) * 5000 + 5000
    rw [e0, ht]; omega
  | ⟨1, _⟩ =>
    show win1_8.index t (1 : Fin 2) * 128 ≤ (i 1).val ∧ (i 1).val < win1_8.index t (1 : Fin 2) * 128 + 128
    rw [e1]; omega

/-- Row r of the pool array lies in the block of point r / 5000. -/
theorem covered_pool (i : S50000x128.Idx) :
    ∃ t : Fin cfg1.N, (cfg1.win 9).flush t = true ∧ i ∈ ((cfg1.win 9).blk t).view.set := by
  have h0 : (i 0).val < 50000 := (i 0).isLt
  have h1 : (i 1).val < 128 := (i 1).isLt
  obtain ⟨t, ht⟩ : ∃ t : Fin cfg1.N, t.val = (i 0).val / 5000 :=
    ⟨⟨(i 0).val / 5000, by show _ < 10; omega⟩, rfl⟩
  obtain ⟨-, -, -, -, -, -, -, -, -, -, -, -, -, -, -, -, -, -, e0, e1, -⟩ := idx_facts t
  refine ⟨t, Gen.flush1_9 t, ?_⟩
  simp only [View.set_slice_whole, Rect.mem_set_unit]
  intro a
  match a with
  | ⟨0, _⟩ =>
    show win1_9.index t (0 : Fin 2) * 5000 ≤ (i 0).val ∧ (i 0).val < win1_9.index t (0 : Fin 2) * 5000 + 5000
    rw [e0, ht]; omega
  | ⟨1, _⟩ =>
    show win1_9.index t (1 : Fin 2) * 128 ≤ (i 1).val ∧ (i 1).val < win1_9.index t (1 : Fin 2) * 128 + 128
    rw [e1]; omega

/-! ## The two output arrays after the region -/

/-- The new-features array ends holding the layer's new features of the region's inputs. -/
theorem final_h (c : Dev nD) : (Gen.dat1 V c).arrAt 8 cfg1.N
    = GBh (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) :=
  (Gen.dat1 V c).arrAt_eq_of_cover 8
    (GBh (inZ V c) (inMean V c) (inVar V c) (inScale V c) (inShift V c) (inW V c) (inBias V c))
    (fun t _ => flushed_feat V c t) covered_feat

/-- The node pool ends holding what it held plus those new features. -/
theorem final_np (c : Dev nD) : (Gen.dat1 V c).arrAt 9 cfg1.N
    = GBnp (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) :=
  (Gen.dat1 V c).arrAt_eq_of_cover 9
    (GBnp (inZ V c) (inMean V c) (inVar V c) (inScale V c) (inShift V c) (inW V c) (inBias V c) (inPool V c))
    (fun t _ => flushed_pool V c t) covered_pool

end Cert.KernelIdeal.RegB1

end
-- ==== Proof.KRegA2.lean ====
/-
  The first dense stage of a layer as the tiled program computes it: ten blocks of 5000 rows each, every block
  the product of (h + agg) restricted to those rows with the whole weight matrix, plus the bias row. Read entry by
  entry, block t's row p is row t * 5000 + p of the array, so the ten blocks together are the whole-array
  function `GA` of the four arrays the region finds.
-/
import proofs.«417867_j28183575396971_1_alg».proof.Proof.Gen.KernelIdeal.Frame
import proofs.«417867_j28183575396971_1_alg».proof.Proof.RegionFns
import proofs.«417867_j28183575396971_1_alg».proof.Proof.LibContract
import Idealize.ShloMosaic.Lib.Pipeline.Value
import Idealize.ShloMosaic.Lib.ValueIdx

noncomputable section

namespace Cert.KernelIdeal.RegA2

open Cert.KernelIdeal Cert.KernelIdeal.Gen Idealize.ShloMosaic Idealize.ShloMosaic.TcCoe Idealize.SL.Sem
open Idealize.ShloMosaic.ValueIdx
open Idealize.ShloMosaic.Pipeline (Dat)
open Cert.RegionFns
open scoped BigOperators

/-! ## One block: the payload at a row and a column -/

/-- The bias row, cast to its own shape and repeated down the 5000 rows, reads the bias at the column. -/
theorem bias_apply (b : Vec Ideal S1x128 .f32) (p : Fin 5000) (q : Fin 128) :
    broadcastTo S5000x128 (shapeCast S1x128 b shapeCasts_S1x128_S1x128) broadcasts_S1x128_S5000x128 (ix2 p q)
      = b (ix2 0 q) := by
  rw [shapeCast_self]
  refine broadcastTo_apply _ _ _ (ix2 0 q) (fun a => ?_)
  match a with
  | ⟨0, _⟩ => rfl
  | ⟨1, _⟩ => rfl

/-- Entry (p, q) of a block's result: the sum over k of (x0 p k + x1 p k) * w k q, plus the bias at q. The two
    format changes are the identity on extended reals and the two same-shape casts are the identity. -/
theorem payload_apply (x0 x1 : Vec Ideal S5000x128 .f32) (w : Vec Ideal S128x128 .f32) (b : Vec Ideal S1x128 .f32)
    (p : Fin 5000) (q : Fin 128) :
    Gen.k2_pay1 x0 x1 w b (ix2 p q)
      = (∑ k : Fin 128, (x0 (ix2 p k) + x1 (ix2 p k)) * w (ix2 k q)) + b (ix2 0 q) := by
  unfold Gen.k2_pay1
  rw [addf_apply, bias_apply]
  rw [Cert.LibContract.matmul_plain dot_S5000x128_S128x128_S5000x128_1_0_0_1_n_n rfl rfl rfl rfl rfl rfl]
  simp only [truncf_apply, addf_apply, shapeCast_self]

/-! ## One block against the whole array -/

/-- A block whose row p is the arrays' row T * 5000 + p, column for column (`e` places the block in the array),
    holding the whole weight matrix and the whole bias row: entry j of the block's result is entry `e j` of
    `(h + agg) · W + b`. The row of `e (p, k)` does not depend on k, so the sum over k runs along one row of
    the arrays. -/
theorem block_apply (h agg : ND.Idx → EReal) (w : DD.Idx → EReal) (b : RD.Idx → EReal)
    (x0 x1 : Vec Ideal S5000x128 .f32) (xw : Vec Ideal S128x128 .f32) (xb : Vec Ideal S1x128 .f32)
    (e : S5000x128.Idx → ND.Idx) (T : Nat)
    (he0 : ∀ y, (e y 0).val = T * 5000 + (y 0).val) (he1 : ∀ y, (e y 1).val = (y 1).val)
    (h0 : ∀ y, x0 y = h (e y)) (h1 : ∀ y, x1 y = agg (e y)) (hw : xw = w) (hb : xb = b)
    (j : S5000x128.Idx) :
    Gen.k2_pay1 x0 x1 xw xb j = GA h agg w b (e j) := by
  obtain ⟨p, q, rfl⟩ : ∃ (p : Fin 5000) (q : Fin 128), j = ix2 p q := ⟨j 0, j 1, eq_ix2 j⟩
  subst hw hb
  rw [payload_apply]
  obtain ⟨r, hr⟩ : ∃ r : Fin 50000, r.val = T * 5000 + p.val := ⟨e (ix2 p q) 0, he0 (ix2 p q)⟩
  have hrow : ∀ k : Fin 128, e (ix2 p k) = ix2 r k := fun k => funext fun a => Fin.ext (by
    match a with
    | ⟨0, _⟩ => exact (he0 (ix2 p k)).trans hr.symm
    | ⟨1, _⟩ => exact he1 (ix2 p k))
  rw [hrow q, GA_apply]
  unfold linA
  simp only [h0, h1, hrow]

/-! ## What a grid point writes back -/

section Region
variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the two row-blocked inputs move with the output, whose block index is
    the point's number on the row axis and 0 on the column axis; the weight and the bias stay at block (0, 0). -/
theorem idx_facts : ∀ t : Fin cfg2.N,
    win2_0.index t (0 : Fin 2) = win2_4.index t (0 : Fin 2) ∧ win2_0.index t (1 : Fin 2) = win2_4.index t (1 : Fin 2)
    ∧ win2_1.index t (0 : Fin 2) = win2_4.index t (0 : Fin 2) ∧ win2_1.index t (1 : Fin 2) = win2_4.index t (1 : Fin 2)
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the output's block at point t is row t * 5000 + p of the array. -/
theorem out_row (t : Fin cfg2.N) (y : S5000x128.Idx) :
    (((cfg2.win 4).blk t).view.emb y 0).val = t.val * 5000 + (y 0).val := by
  obtain ⟨e00, e01, e10, e11, e20, e21, e30, e31, e40, e41⟩ := idx_facts t
  show win2_4.index t (0 : Fin 2) * 5000 + 1 * (y 0).val = t.val * 5000 + (y 0).val
  omega

/-- Its columns are the array's columns. -/
theorem out_col (t : Fin cfg2.N) (y : S5000x128.Idx) :
    (((cfg2.win 4).blk t).view.emb y 1).val = (y 1).val := by
  obtain ⟨e00, e01, e10, e11, e20, e21, e30, e31, e40, e41⟩ := idx_facts t
  show win2_4.index t (1 : Fin 2) * 128 + 1 * (y 1).val = (y 1).val
  omega

/-- The first input's block at point t sits in its array where the output's block sits in the output. -/
theorem in0_read (c : Dev nD) (t : Fin cfg2.N) (y : S5000x128.Idx) :
    Gen.iblk2 V c 0 t y = V c (Pipeline.arrRef spec2 0) (((cfg2.win 4).blk t).view.emb y) := by
  obtain ⟨e00, e01, e10, e11, e20, e21, e30, e31, e40, e41⟩ := idx_facts t
  show V c (Pipeline.arrRef spec2 0) (((cfg2.win 0).blk t).view.emb y) = V c (Pipeline.arrRef spec2 0) (((cfg2.win 4).blk t).view.emb y)
  refine congrArg _ (funext fun a => Fin.ext ?_)
  match a with
  | ⟨0, _⟩ => show win2_0.index t (0 : Fin 2) * 5000 + 1 * (y 0).val = win2_4.index t (0 : Fin 2) * 5000 + 1 * (y 0).val; omega
  | ⟨1, _⟩ => show win2_0.index t (1 : Fin 2) * 128 + 1 * (y 1).val = win2_4.index t (1 : Fin 2) * 128 + 1 * (y 1).val; omega

/-- So does the second input's. -/
theorem in1_read (c : Dev nD) (t : Fin cfg2.N) (y : S5000x128.Idx) :
    Gen.iblk2 V c 1 t y = V c (Pipeline.arrRef spec2 1) (((cfg2.win 4).blk t).view.emb y) := by
  obtain ⟨e00, e01, e10, e11, e20, e21, e30, e31, e40, e41⟩ := idx_facts t
  show V c (Pipeline.arrRef spec2 1) (((cfg2.win 1).blk t).view.emb y) = V c (Pipeline.arrRef spec2 1) (((cfg2.win 4).blk t).view.emb y)
  refine congrArg _ (funext fun a => Fin.ext ?_)
  match a with
  | ⟨0, _⟩ => show win2_1.index t (0 : Fin 2) * 5000 + 1 * (y 0).val = win2_4.index t (0 : Fin 2) * 5000 + 1 * (y 0).val; omega
  | ⟨1, _⟩ => show win2_1.index t (1 : Fin 2) * 128 + 1 * (y 1).val = win2_4.index t (1 : Fin 2) * 128 + 1 * (y 1).val; omega

/-- The weight's block at every point is the whole weight matrix. -/
theorem in2_read (c : Dev nD) (t : Fin cfg2.N) :
    Gen.iblk2 V c 2 t = (V c (Pipeline.arrRef spec2 2) : S128x128.Idx → Elt Ideal .f32) := by
  obtain ⟨e00, e01, e10, e11, e20, e21, e30, e31, e40, e41⟩ := idx_facts t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The bias's block at every point is the whole bias row. -/
theorem in3_read (c : Dev nD) (t : Fin cfg2.N) :
    Gen.iblk2 V c 3 t = (V c (Pipeline.arrRef spec2 3) : S1x128.Idx → Elt Ideal .f32) := by
  obtain ⟨e00, e01, e10, e11, e20, e21, e30, e31, e40, e41⟩ := idx_facts t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Point t writes back block t of `(h + agg) · W + b` of the four arrays as the region finds them. -/
theorem flushed_eq (c : Dev nD) (t : Fin cfg2.N) :
    (Gen.dat2 V c).flushed 4 t = ((cfg2.win 4).blk t).view.read (Elt Ideal)
      (GA (V c (Pipeline.arrRef spec2 0)) (V c (Pipeline.arrRef spec2 1)) (V c (Pipeline.arrRef spec2 2))
        (V c (Pipeline.arrRef spec2 3))) := by
  show (cfg2.win 4).cut (grid2.coords t) ((Gen.dat2 V c).after 4 t) = _
  rw [Gen.after2_4]
  unfold Gen.out2_4
  rw [View.canon_unit_zero hz]
  simp only [View.ld_unit_zero (S := S5000x128) hz, View.ld_unit_zero (S := S128x128) hz,
    View.ld_unit_zero (S := S1x128) hz]
  generalize hG : GA (V c (Pipeline.arrRef spec2 0)) (V c (Pipeline.arrRef spec2 1)) (V c (Pipeline.arrRef spec2 2))
    (V c (Pipeline.arrRef spec2 3)) = G
  funext j
  show Gen.k2_pay1 (Gen.iblk2 V c 0 t) (Gen.iblk2 V c 1 t) (Gen.iblk2 V c 2 t) (Gen.iblk2 V c 3 t) j
    = G (((cfg2.win 4).blk t).view.emb j)
  rw [← hG]
  exact block_apply (V c (Pipeline.arrRef spec2 0)) (V c (Pipeline.arrRef spec2 1)) (V c (Pipeline.arrRef spec2 2))
    (V c (Pipeline.arrRef spec2 3)) (Gen.iblk2 V c 0 t) (Gen.iblk2 V c 1 t) (Gen.iblk2 V c 2 t) (Gen.iblk2 V c 3 t)
    (fun y => ((cfg2.win 4).blk t).view.emb y) t.val (out_row t) (out_col t) (in0_read V c t) (in1_read V c t)
    (in2_read V c t) (in3_read V c t) j

/-! ## The ten blocks are the array -/

/-- An index of the array is in point t's block iff each coordinate is in the block's range on its axis. -/
theorem mem_blk (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole (Pipeline.arrRef spec2 4)).slice (win2_4.rect t)).set ↔ _
  rw [View.set_slice_whole, Rect.mem_set_unit]
  exact Iff.rfl

/-- Row r of the array is in the block of point r / 5000, which writes back like every point. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show (i 0).val / 5000 < grid2.N; rw [Gen.N_2]; omega⟩, rfl⟩
  obtain ⟨e00, e01, e10, e11, e20, e21, e30, e31, e40, e41⟩ := idx_facts t
  refine ⟨t, Gen.flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

/-- After the region the output array holds `(h + agg) · W + b` of the four arrays the region found. -/
theorem final (c : Dev nD) :
    (Gen.dat2 V c).arrAt 4 cfg2.N
      = GA (V c (Pipeline.arrRef spec2 0)) (V c (Pipeline.arrRef spec2 1)) (V c (Pipeline.arrRef spec2 2))
          (V c (Pipeline.arrRef spec2 3)) :=
  (Gen.dat2 V c).arrAt_eq_of_cover 4
    (GA (V c (Pipeline.arrRef spec2 0)) (V c (Pipeline.arrRef spec2 1)) (V c (Pipeline.arrRef spec2 2))
      (V c (Pipeline.arrRef spec2 3)))
    (fun t _ => flushed_eq V c t) cover

end Region

end Cert.KernelIdeal.RegA2

end
-- ==== Proof.KRegB3.lean ====
/-
  The second dense stage of a layer, as the row-blocked kernel computes it: ten blocks of 5000 rows, each block
  normalised with the given column means and variances, scaled, shifted, rectified, multiplied by the second weight
  matrix and offset by its bias; the node pool's block gains the result. Read entry by entry, every block is the
  matching rows of ONE pair of whole-array functions of the region's inputs (the new features and the updated pool),
  the ten blocks tile the 50000 rows, and so the two output arrays end holding exactly those two functions.
-/
import proofs.«417867_j28183575396971_1_alg».proof.Proof.Gen.KernelIdeal.Frame
import proofs.«417867_j28183575396971_1_alg».proof.Proof.RegionFns
import proofs.«417867_j28183575396971_1_alg».proof.Proof.LibContract
import Idealize.ShloMosaic.Lib.Pipeline.Value
import Idealize.ShloMosaic.Lib.ValueIdx
import Idealize.ShloMosaic.Lib.ValueLayout

set_option maxRecDepth 16384

noncomputable section

namespace Cert.KernelIdeal.RegB3

open Idealize.ShloMosaic Idealize.ShloMosaic.TcCoe Idealize.ShloMosaic.ValueIdx Idealize.SL.Sem
open Idealize.ShloMosaic.Pipeline (Dat)
open Cert.KernelIdeal Cert.RegionFns
open scoped BigOperators

/-! ## One block, entry by entry -/

/-- The new features of one block of 5000 rows at row p and column q of the block: the rectified normalised
    activations of that row, contracted with column q of the weights, plus the bias at q. The format changes are
    the identity on the extended reals, the row vectors are read at their one row, and the matrix product into
    zeros is the plain sum over the 128 contracted positions. -/
theorem feat_apply (x0 : Vec Ideal S5000x128 .f32) (x1 x2 x3 x4 : Vec Ideal S1x128 .f32) (x5 : Vec Ideal S128x128 .f32)
    (x6 : Vec Ideal S1x128 .f32) (p : Fin 5000) (q : Fin 128) :
    Gen.k3_pay1 x0 x1 x2 x3 x4 x5 x6 (ix2 p q)
      = (∑ k : Fin 128, max (x3 (ix2 0 k) * (x0 (ix2 p k) - x1 (ix2 0 k)) * Ideal.rsqrt (x2 (ix2 0 k) + eps) + x4 (ix2 0 k))
          (Ideal.ofBits .f32 0x00000000#32) * x5 (ix2 k q)) + x6 (ix2 0 q) := by
  unfold Gen.k3_pay1
  simp only [shapeCast_self]
  rw [addf_apply, broadcastTo_1b_ab_apply]
  rw [Cert.LibContract.matmul_plain dot_S5000x128_S128x128_S5000x128_1_0_0_1_n_n rfl rfl rfl rfl rfl rfl]
  refine congrArg (· + x6 (ix2 0 q)) (Finset.sum_congr rfl fun k _ => ?_)
  rw [truncf_apply, truncf_apply, maximumf_apply, addf_apply, mulf_apply, mulf_apply, subf_apply,
    broadcastTo_1b_ab_apply, broadcastTo_1b_ab_apply, broadcastTo_1b_ab_apply, broadcastTo_1b_ab_apply, broadcast_apply]
  rfl

/-- The pool's block after the update, at the same entry: what it held plus the new feature. -/
theorem pool_apply (x0 : Vec Ideal S5000x128 .f32) (x1 x2 x3 x4 : Vec Ideal S1x128 .f32) (x5 : Vec Ideal S128x128 .f32)
    (x6 : Vec Ideal S1x128 .f32) (x7 : Vec Ideal S5000x128 .f32) (p : Fin 5000) (q : Fin 128) :
    Gen.k3_pay2 x0 x1 x2 x3 x4 x5 x6 x7 (ix2 p q) = x7 (ix2 p q) + Gen.k3_pay1 x0 x1 x2 x3 x4 x5 x6 (ix2 p q) := by
  unfold Gen.k3_pay2
  simp only [shapeCast_self]
  rw [addf_apply]

/-- A block whose rows are rows of the whole activations array (block row p is array row r), computed with the
    whole row vectors and weights, gives at (p, q) the whole-array new features at (r, q). -/
theorem feat_rows (Z : ND.Idx → EReal) (MU VA GM BE : RD.Idx → EReal) (W : DD.Idx → EReal) (B : RD.Idx → EReal)
    (x0 : Vec Ideal S5000x128 .f32) (x1 x2 x3 x4 : Vec Ideal S1x128 .f32) (x5 : Vec Ideal S128x128 .f32)
    (x6 : Vec Ideal S1x128 .f32) (p : Fin 5000) (q : Fin 128) (r : Fin 50000)
    (h0 : ∀ k : Fin 128, x0 (ix2 p k) = Z (ix2 r k)) (h1 : x1 = MU) (h2 : x2 = VA) (h3 : x3 = GM) (h4 : x4 = BE)
    (h5 : x5 = W) (h6 : x6 = B) :
    Gen.k3_pay1 x0 x1 x2 x3 x4 x5 x6 (ix2 p q) = GBh Z MU VA GM BE W B (ix2 r q) := by
  subst h1 h2 h3 h4 h5 h6
  rw [feat_apply, GBh_apply]
  unfold linB act
  simp only [h0]

/-- The same for the pool, the pool's block row p being row r of the whole pool. -/
theorem pool_rows (Z : ND.Idx → EReal) (MU VA GM BE : RD.Idx → EReal) (W : DD.Idx → EReal) (B : RD.Idx → EReal)
    (NP : ND.Idx → EReal)
    (x0 : Vec Ideal S5000x128 .f32) (x1 x2 x3 x4 : Vec Ideal S1x128 .f32) (x5 : Vec Ideal S128x128 .f32)
    (x6 : Vec Ideal S1x128 .f32) (x7 : Vec Ideal S5000x128 .f32) (p : Fin 5000) (q : Fin 128) (r : Fin 50000)
    (h0 : ∀ k : Fin 128, x0 (ix2 p k) = Z (ix2 r k)) (h1 : x1 = MU) (h2 : x2 = VA) (h3 : x3 = GM) (h4 : x4 = BE)
    (h5 : x5 = W) (h6 : x6 = B) (h7 : x7 (ix2 p q) = NP (ix2 r q)) :
    Gen.k3_pay2 x0 x1 x2 x3 x4 x5 x6 x7 (ix2 p q) = GBnp Z MU VA GM BE W B NP (ix2 r q) := by
  rw [pool_apply, h7, feat_rows Z MU VA GM BE W B x0 x1 x2 x3 x4 x5 x6 p q r h0 h1 h2 h3 h4 h5 h6, GBnp_apply, GBh_apply]
  rfl

/-! ## The region's arrays and its blocks -/

variable (V : (c : Dev nD) → (b : Ref sig .tc) → Buf (Elt Ideal) ((c : Thread nD τ).loc b))

/-- The eight input arrays as the region finds them, at their literal shapes: the first stage's output, the column
    means and variances, the scale and shift rows, the second weights and bias, the node pool. -/
noncomputable def inZ (c : Dev nD) : ND.Idx → EReal := V c (Pipeline.arrRef spec3 0)
noncomputable def inMean (c : Dev nD) : RD.Idx → EReal := V c (Pipeline.arrRef spec3 1)
noncomputable def inVar (c : Dev nD) : RD.Idx → EReal := V c (Pipeline.arrRef spec3 2)
noncomputable def inScale (c : Dev nD) : RD.Idx → EReal := V c (Pipeline.arrRef spec3 3)
noncomputable def inShift (c : Dev nD) : RD.Idx → EReal := V c (Pipeline.arrRef spec3 4)
noncomputable def inW (c : Dev nD) : DD.Idx → EReal := V c (Pipeline.arrRef spec3 5)
noncomputable def inBias (c : Dev nD) : RD.Idx → EReal := V c (Pipeline.arrRef spec3 6)
noncomputable def inPool (c : Dev nD) : ND.Idx → EReal := V c (Pipeline.arrRef spec3 7)

theorem offs_zero : (![0, 0] : Fin 2 → Nat) = fun _ => 0 := funext fun a => by fin_cases a <;> rfl

/-- The block index maps over the grid: the row-blocked windows are at block (t, 0) at point t, the whole windows at
    block (0, 0) at every point. -/
theorem idx_facts : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0
    ∧ win3_9.index t (0 : Fin 2) = t.val ∧ win3_9.index t (1 : Fin 2) = 0 ∧ True :=
  (by decide +kernel : ∀ t : Fin grid3.N, _)

/-- The activations' block at point t holds rows 5000·t … 5000·t + 4999 of the array. -/
theorem Z_apply (c : Dev nD) (t : Fin cfg3.N) (p : Fin 5000) (k : Fin 128) (h : t.val * 5000 + p.val < 50000) :
    (Gen.iblk3 V c 0 t : Vec Ideal S5000x128 .f32) (ix2 p k) = inZ V c (ix2 ⟨t.val * 5000 + p.val, h⟩ k) := by
  obtain ⟨e0, e1, -⟩ := idx_facts t
  unfold Gen.iblk3 inZ
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = t.val * 5000 + p.val; rw [e0]; omega
  | ⟨1, _⟩ => show win3_0.index t (1 : Fin 2) * 128 + 1 * k.val = k.val; rw [e1]; omega

/-- The means' block is the whole row at every point. -/
theorem Mean_eq (c : Dev nD) (t : Fin cfg3.N) :
    (Gen.iblk3 V c 1 t : Vec Ideal S1x128 .f32) = inMean V c := by
  obtain ⟨-, -, e0, e1, -⟩ := idx_facts t
  funext j
  unfold Gen.iblk3 inMean
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * (j 0).val = (j 0).val; rw [e0]; omega
  | ⟨1, _⟩ => show win3_1.index t (1 : Fin 2) * 128 + 1 * (j 1).val = (j 1).val; rw [e1]; omega

/-- The variances' block is the whole row at every point. -/
theorem Var_eq (c : Dev nD) (t : Fin cfg3.N) :
    (Gen.iblk3 V c 2 t : Vec Ideal S1x128 .f32) = inVar V c := by
  obtain ⟨-, -, -, -, e0, e1, -⟩ := idx_facts t
  funext j
  unfold Gen.iblk3 inVar
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * (j 0).val = (j 0).val; rw [e0]; omega
  | ⟨1, _⟩ => show win3_2.index t (1 : Fin 2) * 128 + 1 * (j 1).val = (j 1).val; rw [e1]; omega

/-- The scale's block is the whole row at every point. -/
theorem Scale_eq (c : Dev nD) (t : Fin cfg3.N) :
    (Gen.iblk3 V c 3 t : Vec Ideal S1x128 .f32) = inScale V c := by
  obtain ⟨-, -, -, -, -, -, e0, e1, -⟩ := idx_facts t
  funext j
  unfold Gen.iblk3 inScale
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * (j 0).val = (j 0).val; rw [e0]; omega
  | ⟨1, _⟩ => show win3_3.index t (1 : Fin 2) * 128 + 1 * (j 1).val = (j 1).val; rw [e1]; omega

/-- The shift's block is the whole row at every point. -/
theorem Shift_eq (c : Dev nD) (t : Fin cfg3.N) :
    (Gen.iblk3 V c 4 t : Vec Ideal S1x128 .f32) = inShift V c := by
  obtain ⟨-, -, -, -, -, -, -, -, e0, e1, -⟩ := idx_facts t
  funext j
  unfold Gen.iblk3 inShift
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (j 0).val = (j 0).val; rw [e0]; omega
  | ⟨1, _⟩ => show win3_4.index t (1 : Fin 2) * 128 + 1 * (j 1).val = (j 1).val; rw [e1]; omega

/-- The weights' block is the whole matrix at every point. -/
theorem W_eq (c : Dev nD) (t : Fin cfg3.N) :
    (Gen.iblk3 V c 5 t : Vec Ideal S128x128 .f32) = inW V c := by
  obtain ⟨-, -, -, -, -, -, -, -, -, -, e0, e1, -⟩ := idx_facts t
  funext j
  unfold Gen.iblk3 inW
  rw [View.read_apply]
  show V c (Pipeline.arrRef spec3 5) _ = V c (Pipeline.arrRef spec3 5) _
  congr 1
  funext a
  apply Fin.ext
  match a with
  | ⟨0, _⟩ => show win3_5.index t (0 : Fin 2) * 128 + 1 * (j 0).val = (j 0).val; rw [e0]; omega
  | ⟨1, _⟩ => show win3_5.index t (1 : Fin 2) * 128 + 1 * (j 1).val = (j 1).val; rw [e1]; omega

/-- The bias's block is the whole row at every point. -/
theorem Bias_eq (c : Dev nD) (t : Fin cfg3.N) :
    (Gen.iblk3 V c 6 t : Vec Ideal S1x128 .f32) = inBias V c := by
  obtain ⟨-, -, -, -, -, -, -, -, -, -, -, -, e0, e1, -⟩ := idx_facts t
  funext j
  unfold Gen.iblk3 inBias
  rw [View.read_apply]
  show V c (Pipeline.arrRef spec3 6) _ = V c (Pipeline.arrRef spec3 6) _
  congr 1
  funext a
  apply Fin.ext
  match a with
  | ⟨0, _⟩ => show win3_6.index t (0 : Fin 2) * 1 + 1 * (j 0).val = (j 0).val; rw [e0]; omega
  | ⟨1, _⟩ => show win3_6.index t (1 : Fin 2) * 128 + 1 * (j 1).val = (j 1).val; rw [e1]; omega

/-- The pool's block at point t holds rows 5000·t … 5000·t + 4999 of the pool. -/
theorem Pool_apply (c : Dev nD) (t : Fin cfg3.N) (p : Fin 5000) (k : Fin 128) (h : t.val * 5000 + p.val < 50000) :
    (Gen.iblk3 V c 7 t : Vec Ideal S5000x128 .f32) (ix2 p k) = inPool V c (ix2 ⟨t.val * 5000 + p.val, h⟩ k) := by
  obtain ⟨-, -, -, -, -, -, -, -, -, -, -, -, -, -, e0, e1, -⟩ := idx_facts t
  unfold Gen.iblk3 inPool
  rw [View.read_apply]
  show V c (Pipeline.arrRef spec3 7) _ = V c (Pipeline.arrRef spec3 7) _
  congr 1
  funext a
  apply Fin.ext
  match a with
  | ⟨0, _⟩ => show win3_7.index t (0 : Fin 2) * 5000 + 1 * p.val = t.val * 5000 + p.val; rw [e0]; omega
  | ⟨1, _⟩ => show win3_7.index t (1 : Fin 2) * 128 + 1 * k.val = k.val; rw [e1]; omega

/-! ## What each point writes back -/

/-- POINT t WRITES BACK, into the new features, rows 5000·t … 5000·t + 4999 of the whole-array new features. -/
theorem flushed_feat (c : Dev nD) (t : Fin cfg3.N) :
    (Gen.dat3 V c).flushed 8 t = ((cfg3.win 8).blk t).view.read (Elt Ideal)
      (GBh (inZ V c) (inMean V c) (inVar V c) (inScale V c) (inShift V c) (inW V c) (inBias V c)) := by
  show (cfg3.win 8).cut (grid3.coords t) ((Gen.dat3 V c).after 8 t) = _
  rw [Gen.after3_8]
  unfold Gen.out3_8
  rw [View.canon_unit_zero offs_zero]
  simp only [View.ld_unit_zero (S := S5000x128) offs_zero, View.ld_unit_zero (S := S1x128) offs_zero,
    View.ld_unit_zero (S := S128x128) offs_zero]
  funext j
  have ht : t.val < 10 := t.isLt
  have hp : (j 0).val < 5000 := (j 0).isLt
  have hq : (j 1).val < 128 := (j 1).isLt
  have hr : t.val * 5000 + (j 0).val < 50000 := by omega
  have hj : (win3 8).xinj (grid3.coords t) j = ix2 (⟨(j 0).val, hp⟩ : Fin 5000) (⟨(j 1).val, hq⟩ : Fin 128) :=
    funext fun a => match a with | ⟨0, _⟩ => rfl | ⟨1, _⟩ => rfl
  have hemb : ((cfg3.win 8).blk t).view.emb j
      = ix2 (⟨t.val * 5000 + (j 0).val, hr⟩ : Fin 50000) (⟨(j 1).val, hq⟩ : Fin 128) := by
    obtain ⟨-, -, -, -, -, -, -, -, -, -, -, -, -, -, -, -, e0, e1, -⟩ := idx_facts t
    funext a
    apply Fin.ext
    match a with
    | ⟨0, _⟩ => show win3_8.index t (0 : Fin 2) * 5000 + 1 * (j 0).val = t.val * 5000 + (j 0).val; rw [e0]; omega
    | ⟨1, _⟩ => show win3_8.index t (1 : Fin 2) * 128 + 1 * (j 1).val = (j 1).val; rw [e1]; omega
  rw [View.read_apply, hemb, cast_eq]
  refine (congrArg (Gen.k3_pay1 (Gen.iblk3 V c 0 t) (Gen.iblk3 V c 1 t) (Gen.iblk3 V c 2 t) (Gen.iblk3 V c 3 t)
    (Gen.iblk3 V c 4 t) (Gen.iblk3 V c 5 t) (Gen.iblk3 V c 6 t)) hj).trans ?_
  exact feat_rows _ _ _ _ _ _ _ _ _ _ _ _ _ _ _ _ _ (fun k => Z_apply V c t ⟨(j 0).val, hp⟩ k hr) (Mean_eq V c t)
    (Var_eq V c t) (Scale_eq V c t) (Shift_eq V c t) (W_eq V c t) (Bias_eq V c t)

/-- POINT t WRITES BACK, into the pool, the same rows of the whole-array updated pool. -/
theorem flushed_pool (c : Dev nD) (t : Fin cfg3.N) :
    (Gen.dat3 V c).flushed 9 t = ((cfg3.win 9).blk t).view.read (Elt Ideal)
      (GBnp (inZ V c) (inMean V c) (inVar V c) (inScale V c) (inShift V c) (inW V c) (inBias V c) (inPool V c)) := by
  show (cfg3.win 9).cut (grid3.coords t) ((Gen.dat3 V c).after 9 t) = _
  rw [Gen.after3_9]
  unfold Gen.out3_9
  rw [View.canon_unit_zero offs_zero]
  simp only [View.ld_unit_zero (S := S5000x128) offs_zero, View.ld_unit_zero (S := S1x128) offs_zero,
    View.ld_unit_zero (S := S128x128) offs_zero]
  funext j
  have ht : t.val < 10 := t.isLt
  have hp : (j 0).val < 5000 := (j 0).isLt
  have hq : (j 1).val < 128 := (j 1).isLt
  have hr : t.val * 5000 + (j 0).val < 50000 := by omega
  have hj : (win3 9).xinj (grid3.coords t) j = ix2 (⟨(j 0).val, hp⟩ : Fin 5000) (⟨(j 1).val, hq⟩ : Fin 128) :=
    funext fun a => match a with | ⟨0, _⟩ => rfl | ⟨1, _⟩ => rfl
  have hemb : ((cfg3.win 9).blk t).view.emb j
      = ix2 (⟨t.val * 5000 + (j 0).val, hr⟩ : Fin 50000) (⟨(j 1).val, hq⟩ : Fin 128) := by
    obtain ⟨-, -, -, -, -, -, -, -, -, -, -, -, -, -, -, -, -, -, e0, e1, -⟩ := idx_facts t
    funext a
    apply Fin.ext
    match a with
    | ⟨0, _⟩ => show win3_9.index t (0 : Fin 2) * 5000 + 1 * (j 0).val = t.val * 5000 + (j 0).val; rw [e0]; omega
    | ⟨1, _⟩ => show win3_9.index t (1 : Fin 2) * 128 + 1 * (j 1).val = (j 1).val; rw [e1]; omega
  rw [View.read_apply, hemb, cast_eq]
  refine (congrArg (Gen.k3_pay2 (Gen.iblk3 V c 0 t) (Gen.iblk3 V c 1 t) (Gen.iblk3 V c 2 t) (Gen.iblk3 V c 3 t)
    (Gen.iblk3 V c 4 t) (Gen.iblk3 V c 5 t) (Gen.iblk3 V c 6 t) (Gen.iblk3 V c 7 t)) hj).trans ?_
  exact pool_rows _ _ _ _ _ _ _ _ _ _ _ _ _ _ _ _ _ _ _ (fun k => Z_apply V c t ⟨(j 0).val, hp⟩ k hr) (Mean_eq V c t)
    (Var_eq V c t) (Scale_eq V c t) (Shift_eq V c t) (W_eq V c t) (Bias_eq V c t)
    (Pool_apply V c t ⟨(j 0).val, hp⟩ ⟨(j 1).val, hq⟩ hr)

/-! ## The ten blocks tile the 50000 rows -/

/-- Row r of the feat array lies in the block of point r / 5000. -/
theorem covered_feat (i : S50000x128.Idx) :
    ∃ t : Fin cfg3.N, (cfg3.win 8).flush t = true ∧ i ∈ ((cfg3.win 8).blk t).view.set := by
  have h0 : (i 0).val < 50000 := (i 0).isLt
  have h1 : (i 1).val < 128 := (i 1).isLt
  obtain ⟨t, ht⟩ : ∃ t : Fin cfg3.N, t.val = (i 0).val / 5000 :=
    ⟨⟨(i 0).val / 5000, by show _ < 10; omega⟩, rfl⟩
  obtain ⟨-, -, -, -, -, -, -, -, -, -, -, -, -, -, -, -, e0, e1, -⟩ := idx_facts t
  refine ⟨t, Gen.flush3_8 t, ?_⟩
  simp only [View.set_slice_whole, Rect.mem_set_unit]
  intro a
  match a with
  | ⟨0, _⟩ =>
    show win3_8.index t (0 : Fin 2) * 5000 ≤ (i 0).val ∧ (i 0).val < win3_8.index t (0 : Fin 2) * 5000 + 5000
    rw [e0, ht]; omega
  | ⟨1, _⟩ =>
    show win3_8.index t (1 : Fin 2) * 128 ≤ (i 1).val ∧ (i 1).val < win3_8.index t (1 : Fin 2) * 128 + 128
    rw [e1]; omega

/-- Row r of the pool array lies in the block of point r / 5000. -/
theorem covered_pool (i : S50000x128.Idx) :
    ∃ t : Fin cfg3.N, (cfg3.win 9).flush t = true ∧ i ∈ ((cfg3.win 9).blk t).view.set := by
  have h0 : (i 0).val < 50000 := (i 0).isLt
  have h1 : (i 1).val < 128 := (i 1).isLt
  obtain ⟨t, ht⟩ : ∃ t : Fin cfg3.N, t.val = (i 0).val / 5000 :=
    ⟨⟨(i 0).val / 5000, by show _ < 10; omega⟩, rfl⟩
  obtain ⟨-, -, -, -, -, -, -, -, -, -, -, -, -, -, -, -, -, -, e0, e1, -⟩ := idx_facts t
  refine ⟨t, Gen.flush3_9 t, ?_⟩
  simp only [View.set_slice_whole, Rect.mem_set_unit]
  intro a
  match a with
  | ⟨0, _⟩ =>
    show win3_9.index t (0 : Fin 2) * 5000 ≤ (i 0).val ∧ (i 0).val < win3_9.index t (0 : Fin 2) * 5000 + 5000
    rw [e0, ht]; omega
  | ⟨1, _⟩ =>
    show win3_9.index t (1 : Fin 2) * 128 ≤ (i 1).val ∧ (i 1).val < win3_9.index t (1 : Fin 2) * 128 + 128
    rw [e1]; omega

/-! ## The two output arrays after the region -/

/-- The new-features array ends holding the layer's new features of the region's inputs. -/
theorem final_h (c : Dev nD) : (Gen.dat3 V c).arrAt 8 cfg3.N
    = GBh (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) :=
  (Gen.dat3 V c).arrAt_eq_of_cover 8
    (GBh (inZ V c) (inMean V c) (inVar V c) (inScale V c) (inShift V c) (inW V c) (inBias V c))
    (fun t _ => flushed_feat V c t) covered_feat

/-- The node pool ends holding what it held plus those new features. -/
theorem final_np (c : Dev nD) : (Gen.dat3 V c).arrAt 9 cfg3.N
    = GBnp (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) (V c (Pipeline.arrRef spec3 7)) :=
  (Gen.dat3 V c).arrAt_eq_of_cover 9
    (GBnp (inZ V c) (inMean V c) (inVar V c) (inScale V c) (inShift V c) (inW V c) (inBias V c) (inPool V c))
    (fun t _ => flushed_pool V c t) covered_pool

end Cert.KernelIdeal.RegB3

end
-- ==== Proof.KRegA4.lean ====
/-
  The first dense stage of a layer as the tiled program computes it: ten blocks of 5000 rows each, every block
  the product of (h + agg) restricted to those rows with the whole weight matrix, plus the bias row. Read entry by
  entry, block t's row p is row t * 5000 + p of the array, so the ten blocks together are the whole-array
  function `GA` of the four arrays the region finds.
-/
import proofs.«417867_j28183575396971_1_alg».proof.Proof.Gen.KernelIdeal.Frame
import proofs.«417867_j28183575396971_1_alg».proof.Proof.RegionFns
import proofs.«417867_j28183575396971_1_alg».proof.Proof.LibContract
import Idealize.ShloMosaic.Lib.Pipeline.Value
import Idealize.ShloMosaic.Lib.ValueIdx

noncomputable section

namespace Cert.KernelIdeal.RegA4

open Cert.KernelIdeal Cert.KernelIdeal.Gen Idealize.ShloMosaic Idealize.ShloMosaic.TcCoe Idealize.SL.Sem
open Idealize.ShloMosaic.ValueIdx
open Idealize.ShloMosaic.Pipeline (Dat)
open Cert.RegionFns
open scoped BigOperators

/-! ## One block: the payload at a row and a column -/

/-- The bias row, cast to its own shape and repeated down the 5000 rows, reads the bias at the column. -/
theorem bias_apply (b : Vec Ideal S1x128 .f32) (p : Fin 5000) (q : Fin 128) :
    broadcastTo S5000x128 (shapeCast S1x128 b shapeCasts_S1x128_S1x128) broadcasts_S1x128_S5000x128 (ix2 p q)
      = b (ix2 0 q) := by
  rw [shapeCast_self]
  refine broadcastTo_apply _ _ _ (ix2 0 q) (fun a => ?_)
  match a with
  | ⟨0, _⟩ => rfl
  | ⟨1, _⟩ => rfl

/-- Entry (p, q) of a block's result: the sum over k of (x0 p k + x1 p k) * w k q, plus the bias at q. The two
    format changes are the identity on extended reals and the two same-shape casts are the identity. -/
theorem payload_apply (x0 x1 : Vec Ideal S5000x128 .f32) (w : Vec Ideal S128x128 .f32) (b : Vec Ideal S1x128 .f32)
    (p : Fin 5000) (q : Fin 128) :
    Gen.k4_pay1 x0 x1 w b (ix2 p q)
      = (∑ k : Fin 128, (x0 (ix2 p k) + x1 (ix2 p k)) * w (ix2 k q)) + b (ix2 0 q) := by
  unfold Gen.k4_pay1
  rw [addf_apply, bias_apply]
  rw [Cert.LibContract.matmul_plain dot_S5000x128_S128x128_S5000x128_1_0_0_1_n_n rfl rfl rfl rfl rfl rfl]
  simp only [truncf_apply, addf_apply, shapeCast_self]

/-! ## One block against the whole array -/

/-- A block whose row p is the arrays' row T * 5000 + p, column for column (`e` places the block in the array),
    holding the whole weight matrix and the whole bias row: entry j of the block's result is entry `e j` of
    `(h + agg) · W + b`. The row of `e (p, k)` does not depend on k, so the sum over k runs along one row of
    the arrays. -/
theorem block_apply (h agg : ND.Idx → EReal) (w : DD.Idx → EReal) (b : RD.Idx → EReal)
    (x0 x1 : Vec Ideal S5000x128 .f32) (xw : Vec Ideal S128x128 .f32) (xb : Vec Ideal S1x128 .f32)
    (e : S5000x128.Idx → ND.Idx) (T : Nat)
    (he0 : ∀ y, (e y 0).val = T * 5000 + (y 0).val) (he1 : ∀ y, (e y 1).val = (y 1).val)
    (h0 : ∀ y, x0 y = h (e y)) (h1 : ∀ y, x1 y = agg (e y)) (hw : xw = w) (hb : xb = b)
    (j : S5000x128.Idx) :
    Gen.k4_pay1 x0 x1 xw xb j = GA h agg w b (e j) := by
  obtain ⟨p, q, rfl⟩ : ∃ (p : Fin 5000) (q : Fin 128), j = ix2 p q := ⟨j 0, j 1, eq_ix2 j⟩
  subst hw hb
  rw [payload_apply]
  obtain ⟨r, hr⟩ : ∃ r : Fin 50000, r.val = T * 5000 + p.val := ⟨e (ix2 p q) 0, he0 (ix2 p q)⟩
  have hrow : ∀ k : Fin 128, e (ix2 p k) = ix2 r k := fun k => funext fun a => Fin.ext (by
    match a with
    | ⟨0, _⟩ => exact (he0 (ix2 p k)).trans hr.symm
    | ⟨1, _⟩ => exact he1 (ix2 p k))
  rw [hrow q, GA_apply]
  unfold linA
  simp only [h0, h1, hrow]

/-! ## What a grid point writes back -/

section Region
variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the two row-blocked inputs move with the output, whose block index is
    the point's number on the row axis and 0 on the column axis; the weight and the bias stay at block (0, 0). -/
theorem idx_facts : ∀ t : Fin cfg4.N,
    win4_0.index t (0 : Fin 2) = win4_4.index t (0 : Fin 2) ∧ win4_0.index t (1 : Fin 2) = win4_4.index t (1 : Fin 2)
    ∧ win4_1.index t (0 : Fin 2) = win4_4.index t (0 : Fin 2) ∧ win4_1.index t (1 : Fin 2) = win4_4.index t (1 : Fin 2)
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row p of the output's block at point t is row t * 5000 + p of the array. -/
theorem out_row (t : Fin cfg4.N) (y : S5000x128.Idx) :
    (((cfg4.win 4).blk t).view.emb y 0).val = t.val * 5000 + (y 0).val := by
  obtain ⟨e00, e01, e10, e11, e20, e21, e30, e31, e40, e41⟩ := idx_facts t
  show win4_4.index t (0 : Fin 2) * 5000 + 1 * (y 0).val = t.val * 5000 + (y 0).val
  omega

/-- Its columns are the array's columns. -/
theorem out_col (t : Fin cfg4.N) (y : S5000x128.Idx) :
    (((cfg4.win 4).blk t).view.emb y 1).val = (y 1).val := by
  obtain ⟨e00, e01, e10, e11, e20, e21, e30, e31, e40, e41⟩ := idx_facts t
  show win4_4.index t (1 : Fin 2) * 128 + 1 * (y 1).val = (y 1).val
  omega

/-- The first input's block at point t sits in its array where the output's block sits in the output. -/
theorem in0_read (c : Dev nD) (t : Fin cfg4.N) (y : S5000x128.Idx) :
    Gen.iblk4 V c 0 t y = V c (Pipeline.arrRef spec4 0) (((cfg4.win 4).blk t).view.emb y) := by
  obtain ⟨e00, e01, e10, e11, e20, e21, e30, e31, e40, e41⟩ := idx_facts t
  show V c (Pipeline.arrRef spec4 0) (((cfg4.win 0).blk t).view.emb y) = V c (Pipeline.arrRef spec4 0) (((cfg4.win 4).blk t).view.emb y)
  refine congrArg _ (funext fun a => Fin.ext ?_)
  match a with
  | ⟨0, _⟩ => show win4_0.index t (0 : Fin 2) * 5000 + 1 * (y 0).val = win4_4.index t (0 : Fin 2) * 5000 + 1 * (y 0).val; omega
  | ⟨1, _⟩ => show win4_0.index t (1 : Fin 2) * 128 + 1 * (y 1).val = win4_4.index t (1 : Fin 2) * 128 + 1 * (y 1).val; omega

/-- So does the second input's. -/
theorem in1_read (c : Dev nD) (t : Fin cfg4.N) (y : S5000x128.Idx) :
    Gen.iblk4 V c 1 t y = V c (Pipeline.arrRef spec4 1) (((cfg4.win 4).blk t).view.emb y) := by
  obtain ⟨e00, e01, e10, e11, e20, e21, e30, e31, e40, e41⟩ := idx_facts t
  show V c (Pipeline.arrRef spec4 1) (((cfg4.win 1).blk t).view.emb y) = V c (Pipeline.arrRef spec4 1) (((cfg4.win 4).blk t).view.emb y)
  refine congrArg _ (funext fun a => Fin.ext ?_)
  match a with
  | ⟨0, _⟩ => show win4_1.index t (0 : Fin 2) * 5000 + 1 * (y 0).val = win4_4.index t (0 : Fin 2) * 5000 + 1 * (y 0).val; omega
  | ⟨1, _⟩ => show win4_1.index t (1 : Fin 2) * 128 + 1 * (y 1).val = win4_4.index t (1 : Fin 2) * 128 + 1 * (y 1).val; omega

/-- The weight's block at every point is the whole weight matrix. -/
theorem in2_read (c : Dev nD) (t : Fin cfg4.N) :
    Gen.iblk4 V c 2 t = (V c (Pipeline.arrRef spec4 2) : S128x128.Idx → Elt Ideal .f32) := by
  obtain ⟨e00, e01, e10, e11, e20, e21, e30, e31, e40, e41⟩ := idx_facts t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The bias's block at every point is the whole bias row. -/
theorem in3_read (c : Dev nD) (t : Fin cfg4.N) :
    Gen.iblk4 V c 3 t = (V c (Pipeline.arrRef spec4 3) : S1x128.Idx → Elt Ideal .f32) := by
  obtain ⟨e00, e01, e10, e11, e20, e21, e30, e31, e40, e41⟩ := idx_facts t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- Point t writes back block t of `(h + agg) · W + b` of the four arrays as the region finds them. -/
theorem flushed_eq (c : Dev nD) (t : Fin cfg4.N) :
    (Gen.dat4 V c).flushed 4 t = ((cfg4.win 4).blk t).view.read (Elt Ideal)
      (GA (V c (Pipeline.arrRef spec4 0)) (V c (Pipeline.arrRef spec4 1)) (V c (Pipeline.arrRef spec4 2))
        (V c (Pipeline.arrRef spec4 3))) := by
  show (cfg4.win 4).cut (grid4.coords t) ((Gen.dat4 V c).after 4 t) = _
  rw [Gen.after4_4]
  unfold Gen.out4_4
  rw [View.canon_unit_zero hz]
  simp only [View.ld_unit_zero (S := S5000x128) hz, View.ld_unit_zero (S := S128x128) hz,
    View.ld_unit_zero (S := S1x128) hz]
  generalize hG : GA (V c (Pipeline.arrRef spec4 0)) (V c (Pipeline.arrRef spec4 1)) (V c (Pipeline.arrRef spec4 2))
    (V c (Pipeline.arrRef spec4 3)) = G
  funext j
  show Gen.k4_pay1 (Gen.iblk4 V c 0 t) (Gen.iblk4 V c 1 t) (Gen.iblk4 V c 2 t) (Gen.iblk4 V c 3 t) j
    = G (((cfg4.win 4).blk t).view.emb j)
  rw [← hG]
  exact block_apply (V c (Pipeline.arrRef spec4 0)) (V c (Pipeline.arrRef spec4 1)) (V c (Pipeline.arrRef spec4 2))
    (V c (Pipeline.arrRef spec4 3)) (Gen.iblk4 V c 0 t) (Gen.iblk4 V c 1 t) (Gen.iblk4 V c 2 t) (Gen.iblk4 V c 3 t)
    (fun y => ((cfg4.win 4).blk t).view.emb y) t.val (out_row t) (out_col t) (in0_read V c t) (in1_read V c t)
    (in2_read V c t) (in3_read V c t) j

/-! ## The ten blocks are the array -/

/-- An index of the array is in point t's block iff each coordinate is in the block's range on its axis. -/
theorem mem_blk (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole (Pipeline.arrRef spec4 4)).slice (win4_4.rect t)).set ↔ _
  rw [View.set_slice_whole, Rect.mem_set_unit]
  exact Iff.rfl

/-- Row r of the array is in the block of point r / 5000, which writes back like every point. -/
theorem cover (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, by show (i 0).val / 5000 < grid4.N; rw [Gen.N_4]; omega⟩, rfl⟩
  obtain ⟨e00, e01, e10, e11, e20, e21, e30, e31, e40, e41⟩ := idx_facts t
  refine ⟨t, Gen.flush4_4 t, ?_⟩
  rw [mem_blk]
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 128 ≤ (i 1).val ∧ (i 1).val < win4_4.index t (1 : Fin 2) * 128 + 128
    omega

/-- After the region the output array holds `(h + agg) · W + b` of the four arrays the region found. -/
theorem final (c : Dev nD) :
    (Gen.dat4 V c).arrAt 4 cfg4.N
      = GA (V c (Pipeline.arrRef spec4 0)) (V c (Pipeline.arrRef spec4 1)) (V c (Pipeline.arrRef spec4 2))
          (V c (Pipeline.arrRef spec4 3)) :=
  (Gen.dat4 V c).arrAt_eq_of_cover 4
    (GA (V c (Pipeline.arrRef spec4 0)) (V c (Pipeline.arrRef spec4 1)) (V c (Pipeline.arrRef spec4 2))
      (V c (Pipeline.arrRef spec4 3)))
    (fun t _ => flushed_eq V c t) cover

end Region

end Cert.KernelIdeal.RegA4

end
-- ==== Proof.KRegB5.lean ====
/-
  The second dense stage of a layer, as the row-blocked kernel computes it: ten blocks of 5000 rows, each block
  normalised with the given column means and variances, scaled, shifted, rectified, multiplied by the second weight
  matrix and offset by its bias; the node pool's block gains the result. Read entry by entry, every block is the
  matching rows of ONE pair of whole-array functions of the region's inputs (the new features and the updated pool),
  the ten blocks tile the 50000 rows, and so the two output arrays end holding exactly those two functions.
-/
import proofs.«417867_j28183575396971_1_alg».proof.Proof.Gen.KernelIdeal.Frame
import proofs.«417867_j28183575396971_1_alg».proof.Proof.RegionFns
import proofs.«417867_j28183575396971_1_alg».proof.Proof.LibContract
import Idealize.ShloMosaic.Lib.Pipeline.Value
import Idealize.ShloMosaic.Lib.ValueIdx
import Idealize.ShloMosaic.Lib.ValueLayout

set_option maxRecDepth 16384

noncomputable section

namespace Cert.KernelIdeal.RegB5

open Idealize.ShloMosaic Idealize.ShloMosaic.TcCoe Idealize.ShloMosaic.ValueIdx Idealize.SL.Sem
open Idealize.ShloMosaic.Pipeline (Dat)
open Cert.KernelIdeal Cert.RegionFns
open scoped BigOperators

/-! ## One block, entry by entry -/

/-- The new features of one block of 5000 rows at row p and column q of the block: the rectified normalised
    activations of that row, contracted with column q of the weights, plus the bias at q. The format changes are
    the identity on the extended reals, the row vectors are read at their one row, and the matrix product into
    zeros is the plain sum over the 128 contracted positions. -/
theorem feat_apply (x0 : Vec Ideal S5000x128 .f32) (x1 x2 x3 x4 : Vec Ideal S1x128 .f32) (x5 : Vec Ideal S128x128 .f32)
    (x6 : Vec Ideal S1x128 .f32) (p : Fin 5000) (q : Fin 128) :
    Gen.k5_pay1 x0 x1 x2 x3 x4 x5 x6 (ix2 p q)
      = (∑ k : Fin 128, max (x3 (ix2 0 k) * (x0 (ix2 p k) - x1 (ix2 0 k)) * Ideal.rsqrt (x2 (ix2 0 k) + eps) + x4 (ix2 0 k))
          (Ideal.ofBits .f32 0x00000000#32) * x5 (ix2 k q)) + x6 (ix2 0 q) := by
  unfold Gen.k5_pay1
  simp only [shapeCast_self]
  rw [addf_apply, broadcastTo_1b_ab_apply]
  rw [Cert.LibContract.matmul_plain dot_S5000x128_S128x128_S5000x128_1_0_0_1_n_n rfl rfl rfl rfl rfl rfl]
  refine congrArg (· + x6 (ix2 0 q)) (Finset.sum_congr rfl fun k _ => ?_)
  rw [truncf_apply, truncf_apply, maximumf_apply, addf_apply, mulf_apply, mulf_apply, subf_apply,
    broadcastTo_1b_ab_apply, broadcastTo_1b_ab_apply, broadcastTo_1b_ab_apply, broadcastTo_1b_ab_apply, broadcast_apply]
  rfl

/-- The pool's block after the update, at the same entry: what it held plus the new feature. -/
theorem pool_apply (x0 : Vec Ideal S5000x128 .f32) (x1 x2 x3 x4 : Vec Ideal S1x128 .f32) (x5 : Vec Ideal S128x128 .f32)
    (x6 : Vec Ideal S1x128 .f32) (x7 : Vec Ideal S5000x128 .f32) (p : Fin 5000) (q : Fin 128) :
    Gen.k5_pay2 x0 x1 x2 x3 x4 x5 x6 x7 (ix2 p q) = x7 (ix2 p q) + Gen.k5_pay1 x0 x1 x2 x3 x4 x5 x6 (ix2 p q) := by
  unfold Gen.k5_pay2
  simp only [shapeCast_self]
  rw [addf_apply]

/-- A block whose rows are rows of the whole activations array (block row p is array row r), computed with the
    whole row vectors and weights, gives at (p, q) the whole-array new features at (r, q). -/
theorem feat_rows (Z : ND.Idx → EReal) (MU VA GM BE : RD.Idx → EReal) (W : DD.Idx → EReal) (B : RD.Idx → EReal)
    (x0 : Vec Ideal S5000x128 .f32) (x1 x2 x3 x4 : Vec Ideal S1x128 .f32) (x5 : Vec Ideal S128x128 .f32)
    (x6 : Vec Ideal S1x128 .f32) (p : Fin 5000) (q : Fin 128) (r : Fin 50000)
    (h0 : ∀ k : Fin 128, x0 (ix2 p k) = Z (ix2 r k)) (h1 : x1 = MU) (h2 : x2 = VA) (h3 : x3 = GM) (h4 : x4 = BE)
    (h5 : x5 = W) (h6 : x6 = B) :
    Gen.k5_pay1 x0 x1 x2 x3 x4 x5 x6 (ix2 p q) = GBh Z MU VA GM BE W B (ix2 r q) := by
  subst h1 h2 h3 h4 h5 h6
  rw [feat_apply, GBh_apply]
  unfold linB act
  simp only [h0]

/-- The same for the pool, the pool's block row p being row r of the whole pool. -/
theorem pool_rows (Z : ND.Idx → EReal) (MU VA GM BE : RD.Idx → EReal) (W : DD.Idx → EReal) (B : RD.Idx → EReal)
    (NP : ND.Idx → EReal)
    (x0 : Vec Ideal S5000x128 .f32) (x1 x2 x3 x4 : Vec Ideal S1x128 .f32) (x5 : Vec Ideal S128x128 .f32)
    (x6 : Vec Ideal S1x128 .f32) (x7 : Vec Ideal S5000x128 .f32) (p : Fin 5000) (q : Fin 128) (r : Fin 50000)
    (h0 : ∀ k : Fin 128, x0 (ix2 p k) = Z (ix2 r k)) (h1 : x1 = MU) (h2 : x2 = VA) (h3 : x3 = GM) (h4 : x4 = BE)
    (h5 : x5 = W) (h6 : x6 = B) (h7 : x7 (ix2 p q) = NP (ix2 r q)) :
    Gen.k5_pay2 x0 x1 x2 x3 x4 x5 x6 x7 (ix2 p q) = GBnp Z MU VA GM BE W B NP (ix2 r q) := by
  rw [pool_apply, h7, feat_rows Z MU VA GM BE W B x0 x1 x2 x3 x4 x5 x6 p q r h0 h1 h2 h3 h4 h5 h6, GBnp_apply, GBh_apply]
  rfl

/-! ## The region's arrays and its blocks -/

variable (V : (c : Dev nD) → (b : Ref sig .tc) → Buf (Elt Ideal) ((c : Thread nD τ).loc b))

/-- The eight input arrays as the region finds them, at their literal shapes: the first stage's output, the column
    means and variances, the scale and shift rows, the second weights and bias, the node pool. -/
noncomputable def inZ (c : Dev nD) : ND.Idx → EReal := V c (Pipeline.arrRef spec5 0)
noncomputable def inMean (c : Dev nD) : RD.Idx → EReal := V c (Pipeline.arrRef spec5 1)
noncomputable def inVar (c : Dev nD) : RD.Idx → EReal := V c (Pipeline.arrRef spec5 2)
noncomputable def inScale (c : Dev nD) : RD.Idx → EReal := V c (Pipeline.arrRef spec5 3)
noncomputable def inShift (c : Dev nD) : RD.Idx → EReal := V c (Pipeline.arrRef spec5 4)
noncomputable def inW (c : Dev nD) : DD.Idx → EReal := V c (Pipeline.arrRef spec5 5)
noncomputable def inBias (c : Dev nD) : RD.Idx → EReal := V c (Pipeline.arrRef spec5 6)
noncomputable def inPool (c : Dev nD) : ND.Idx → EReal := V c (Pipeline.arrRef spec5 7)

theorem offs_zero : (![0, 0] : Fin 2 → Nat) = fun _ => 0 := funext fun a => by fin_cases a <;> rfl

/-- The block index maps over the grid: the row-blocked windows are at block (t, 0) at point t, the whole windows at
    block (0, 0) at every point. -/
theorem idx_facts : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0
    ∧ win5_8.index t (0 : Fin 2) = t.val ∧ win5_8.index t (1 : Fin 2) = 0
    ∧ win5_9.index t (0 : Fin 2) = t.val ∧ win5_9.index t (1 : Fin 2) = 0 ∧ True :=
  (by decide +kernel : ∀ t : Fin grid5.N, _)

/-- The activations' block at point t holds rows 5000·t … 5000·t + 4999 of the array. -/
theorem Z_apply (c : Dev nD) (t : Fin cfg5.N) (p : Fin 5000) (k : Fin 128) (h : t.val * 5000 + p.val < 50000) :
    (Gen.iblk5 V c 0 t : Vec Ideal S5000x128 .f32) (ix2 p k) = inZ V c (ix2 ⟨t.val * 5000 + p.val, h⟩ k) := by
  obtain ⟨e0, e1, -⟩ := idx_facts t
  unfold Gen.iblk5 inZ
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * p.val = t.val * 5000 + p.val; rw [e0]; omega
  | ⟨1, _⟩ => show win5_0.index t (1 : Fin 2) * 128 + 1 * k.val = k.val; rw [e1]; omega

/-- The means' block is the whole row at every point. -/
theorem Mean_eq (c : Dev nD) (t : Fin cfg5.N) :
    (Gen.iblk5 V c 1 t : Vec Ideal S1x128 .f32) = inMean V c := by
  obtain ⟨-, -, e0, e1, -⟩ := idx_facts t
  funext j
  unfold Gen.iblk5 inMean
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * (j 0).val = (j 0).val; rw [e0]; omega
  | ⟨1, _⟩ => show win5_1.index t (1 : Fin 2) * 128 + 1 * (j 1).val = (j 1).val; rw [e1]; omega

/-- The variances' block is the whole row at every point. -/
theorem Var_eq (c : Dev nD) (t : Fin cfg5.N) :
    (Gen.iblk5 V c 2 t : Vec Ideal S1x128 .f32) = inVar V c := by
  obtain ⟨-, -, -, -, e0, e1, -⟩ := idx_facts t
  funext j
  unfold Gen.iblk5 inVar
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * (j 0).val = (j 0).val; rw [e0]; omega
  | ⟨1, _⟩ => show win5_2.index t (1 : Fin 2) * 128 + 1 * (j 1).val = (j 1).val; rw [e1]; omega

/-- The scale's block is the whole row at every point. -/
theorem Scale_eq (c : Dev nD) (t : Fin cfg5.N) :
    (Gen.iblk5 V c 3 t : Vec Ideal S1x128 .f32) = inScale V c := by
  obtain ⟨-, -, -, -, -, -, e0, e1, -⟩ := idx_facts t
  funext j
  unfold Gen.iblk5 inScale
  rw [View.read_apply]
  show V c (Pipeline.arrRef spec5 3) _ = V c (Pipeline.arrRef spec5 3) _
  congr 1
  funext a
  apply Fin.ext
  match a with
  | ⟨0, _⟩ => show win5_3.index t (0 : Fin 2) * 1 + 1 * (j 0).val = (j 0).val; rw [e0]; omega
  | ⟨1, _⟩ => show win5_3.index t (1 : Fin 2) * 128 + 1 * (j 1).val = (j 1).val; rw [e1]; omega

/-- The shift's block is the whole row at every point. -/
theorem Shift_eq (c : Dev nD) (t : Fin cfg5.N) :
    (Gen.iblk5 V c 4 t : Vec Ideal S1x128 .f32) = inShift V c := by
  obtain ⟨-, -, -, -, -, -, -, -, e0, e1, -⟩ := idx_facts t
  funext j
  unfold Gen.iblk5 inShift
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * (j 0).val = (j 0).val; rw [e0]; omega
  | ⟨1, _⟩ => show win5_4.index t (1 : Fin 2) * 128 + 1 * (j 1).val = (j 1).val; rw [e1]; omega

/-- The weights' block is the whole matrix at every point. -/
theorem W_eq (c : Dev nD) (t : Fin cfg5.N) :
    (Gen.iblk5 V c 5 t : Vec Ideal S128x128 .f32) = inW V c := by
  obtain ⟨-, -, -, -, -, -, -, -, -, -, e0, e1, -⟩ := idx_facts t
  funext j
  unfold Gen.iblk5 inW
  rw [View.read_apply]
  show V c (Pipeline.arrRef spec5 5) _ = V c (Pipeline.arrRef spec5 5) _
  congr 1
  funext a
  apply Fin.ext
  match a with
  | ⟨0, _⟩ => show win5_5.index t (0 : Fin 2) * 128 + 1 * (j 0).val = (j 0).val; rw [e0]; omega
  | ⟨1, _⟩ => show win5_5.index t (1 : Fin 2) * 128 + 1 * (j 1).val = (j 1).val; rw [e1]; omega

/-- The bias's block is the whole row at every point. -/
theorem Bias_eq (c : Dev nD) (t : Fin cfg5.N) :
    (Gen.iblk5 V c 6 t : Vec Ideal S1x128 .f32) = inBias V c := by
  obtain ⟨-, -, -, -, -, -, -, -, -, -, -, -, e0, e1, -⟩ := idx_facts t
  funext j
  unfold Gen.iblk5 inBias
  rw [View.read_apply]
  show V c (Pipeline.arrRef spec5 6) _ = V c (Pipeline.arrRef spec5 6) _
  congr 1
  funext a
  apply Fin.ext
  match a with
  | ⟨0, _⟩ => show win5_6.index t (0 : Fin 2) * 1 + 1 * (j 0).val = (j 0).val; rw [e0]; omega
  | ⟨1, _⟩ => show win5_6.index t (1 : Fin 2) * 128 + 1 * (j 1).val = (j 1).val; rw [e1]; omega

/-- The pool's block at point t holds rows 5000·t … 5000·t + 4999 of the pool. -/
theorem Pool_apply (c : Dev nD) (t : Fin cfg5.N) (p : Fin 5000) (k : Fin 128) (h : t.val * 5000 + p.val < 50000) :
    (Gen.iblk5 V c 7 t : Vec Ideal S5000x128 .f32) (ix2 p k) = inPool V c (ix2 ⟨t.val * 5000 + p.val, h⟩ k) := by
  obtain ⟨-, -, -, -, -, -, -, -, -, -, -, -, -, -, e0, e1, -⟩ := idx_facts t
  unfold Gen.iblk5 inPool
  rw [View.read_apply]
  show V c (Pipeline.arrRef spec5 7) _ = V c (Pipeline.arrRef spec5 7) _
  congr 1
  funext a
  apply Fin.ext
  match a with
  | ⟨0, _⟩ => show win5_7.index t (0 : Fin 2) * 5000 + 1 * p.val = t.val * 5000 + p.val; rw [e0]; omega
  | ⟨1, _⟩ => show win5_7.index t (1 : Fin 2) * 128 + 1 * k.val = k.val; rw [e1]; omega

/-! ## What each point writes back -/

/-- POINT t WRITES BACK, into the new features, rows 5000·t … 5000·t + 4999 of the whole-array new features. -/
theorem flushed_feat (c : Dev nD) (t : Fin cfg5.N) :
    (Gen.dat5 V c).flushed 8 t = ((cfg5.win 8).blk t).view.read (Elt Ideal)
      (GBh (inZ V c) (inMean V c) (inVar V c) (inScale V c) (inShift V c) (inW V c) (inBias V c)) := by
  show (cfg5.win 8).cut (grid5.coords t) ((Gen.dat5 V c).after 8 t) = _
  rw [Gen.after5_8]
  unfold Gen.out5_8
  rw [View.canon_unit_zero offs_zero]
  simp only [View.ld_unit_zero (S := S5000x128) offs_zero, View.ld_unit_zero (S := S1x128) offs_zero,
    View.ld_unit_zero (S := S128x128) offs_zero]
  funext j
  have ht : t.val < 10 := t.isLt
  have hp : (j 0).val < 5000 := (j 0).isLt
  have hq : (j 1).val < 128 := (j 1).isLt
  have hr : t.val * 5000 + (j 0).val < 50000 := by omega
  have hj : (win5 8).xinj (grid5.coords t) j = ix2 (⟨(j 0).val, hp⟩ : Fin 5000) (⟨(j 1).val, hq⟩ : Fin 128) :=
    funext fun a => match a with | ⟨0, _⟩ => rfl | ⟨1, _⟩ => rfl
  have hemb : ((cfg5.win 8).blk t).view.emb j
      = ix2 (⟨t.val * 5000 + (j 0).val, hr⟩ : Fin 50000) (⟨(j 1).val, hq⟩ : Fin 128) := by
    obtain ⟨-, -, -, -, -, -, -, -, -, -, -, -, -, -, -, -, e0, e1, -⟩ := idx_facts t
    funext a
    apply Fin.ext
    match a with
    | ⟨0, _⟩ => show win5_8.index t (0 : Fin 2) * 5000 + 1 * (j 0).val = t.val * 5000 + (j 0).val; rw [e0]; omega
    | ⟨1, _⟩ => show win5_8.index t (1 : Fin 2) * 128 + 1 * (j 1).val = (j 1).val; rw [e1]; omega
  rw [View.read_apply, hemb, cast_eq]
  refine (congrArg (Gen.k5_pay1 (Gen.iblk5 V c 0 t) (Gen.iblk5 V c 1 t) (Gen.iblk5 V c 2 t) (Gen.iblk5 V c 3 t)
    (Gen.iblk5 V c 4 t) (Gen.iblk5 V c 5 t) (Gen.iblk5 V c 6 t)) hj).trans ?_
  exact feat_rows _ _ _ _ _ _ _ _ _ _ _ _ _ _ _ _ _ (fun k => Z_apply V c t ⟨(j 0).val, hp⟩ k hr) (Mean_eq V c t)
    (Var_eq V c t) (Scale_eq V c t) (Shift_eq V c t) (W_eq V c t) (Bias_eq V c t)

/-- POINT t WRITES BACK, into the pool, the same rows of the whole-array updated pool. -/
theorem flushed_pool (c : Dev nD) (t : Fin cfg5.N) :
    (Gen.dat5 V c).flushed 9 t = ((cfg5.win 9).blk t).view.read (Elt Ideal)
      (GBnp (inZ V c) (inMean V c) (inVar V c) (inScale V c) (inShift V c) (inW V c) (inBias V c) (inPool V c)) := by
  show (cfg5.win 9).cut (grid5.coords t) ((Gen.dat5 V c).after 9 t) = _
  rw [Gen.after5_9]
  unfold Gen.out5_9
  rw [View.canon_unit_zero offs_zero]
  simp only [View.ld_unit_zero (S := S5000x128) offs_zero, View.ld_unit_zero (S := S1x128) offs_zero,
    View.ld_unit_zero (S := S128x128) offs_zero]
  funext j
  have ht : t.val < 10 := t.isLt
  have hp : (j 0).val < 5000 := (j 0).isLt
  have hq : (j 1).val < 128 := (j 1).isLt
  have hr : t.val * 5000 + (j 0).val < 50000 := by omega
  have hj : (win5 9).xinj (grid5.coords t) j = ix2 (⟨(j 0).val, hp⟩ : Fin 5000) (⟨(j 1).val, hq⟩ : Fin 128) :=
    funext fun a => match a with | ⟨0, _⟩ => rfl | ⟨1, _⟩ => rfl
  have hemb : ((cfg5.win 9).blk t).view.emb j
      = ix2 (⟨t.val * 5000 + (j 0).val, hr⟩ : Fin 50000) (⟨(j 1).val, hq⟩ : Fin 128) := by
    obtain ⟨-, -, -, -, -, -, -, -, -, -, -, -, -, -, -, -, -, -, e0, e1, -⟩ := idx_facts t
    funext a
    apply Fin.ext
    match a with
    | ⟨0, _⟩ => show win5_9.index t (0 : Fin 2) * 5000 + 1 * (j 0).val = t.val * 5000 + (j 0).val; rw [e0]; omega
    | ⟨1, _⟩ => show win5_9.index t (1 : Fin 2) * 128 + 1 * (j 1).val = (j 1).val; rw [e1]; omega
  rw [View.read_apply, hemb, cast_eq]
  refine (congrArg (Gen.k5_pay2 (Gen.iblk5 V c 0 t) (Gen.iblk5 V c 1 t) (Gen.iblk5 V c 2 t) (Gen.iblk5 V c 3 t)
    (Gen.iblk5 V c 4 t) (Gen.iblk5 V c 5 t) (Gen.iblk5 V c 6 t) (Gen.iblk5 V c 7 t)) hj).trans ?_
  exact pool_rows _ _ _ _ _ _ _ _ _ _ _ _ _ _ _ _ _ _ _ (fun k => Z_apply V c t ⟨(j 0).val, hp⟩ k hr) (Mean_eq V c t)
    (Var_eq V c t) (Scale_eq V c t) (Shift_eq V c t) (W_eq V c t) (Bias_eq V c t)
    (Pool_apply V c t ⟨(j 0).val, hp⟩ ⟨(j 1).val, hq⟩ hr)

/-! ## The ten blocks tile the 50000 rows -/

/-- Row r of the feat array lies in the block of point r / 5000. -/
theorem covered_feat (i : S50000x128.Idx) :
    ∃ t : Fin cfg5.N, (cfg5.win 8).flush t = true ∧ i ∈ ((cfg5.win 8).blk t).view.set := by
  have h0 : (i 0).val < 50000 := (i 0).isLt
  have h1 : (i 1).val < 128 := (i 1).isLt
  obtain ⟨t, ht⟩ : ∃ t : Fin cfg5.N, t.val = (i 0).val / 5000 :=
    ⟨⟨(i 0).val / 5000, by show _ < 10; omega⟩, rfl⟩
  obtain ⟨-, -, -, -, -, -, -, -, -, -, -, -, -, -, -, -, e0, e1, -⟩ := idx_facts t
  refine ⟨t, Gen.flush5_8 t, ?_⟩
  simp only [View.set_slice_whole, Rect.mem_set_unit]
  intro a
  match a with
  | ⟨0, _⟩ =>
    show win5_8.index t (0 : Fin 2) * 5000 ≤ (i 0).val ∧ (i 0).val < win5_8.index t (0 : Fin 2) * 5000 + 5000
    rw [e0, ht]; omega
  | ⟨1, _⟩ =>
    show win5_8.index t (1 : Fin 2) * 128 ≤ (i 1).val ∧ (i 1).val < win5_8.index t (1 : Fin 2) * 128 + 128
    rw [e1]; omega

/-- Row r of the pool array lies in the block of point r / 5000. -/
theorem covered_pool (i : S50000x128.Idx) :
    ∃ t : Fin cfg5.N, (cfg5.win 9).flush t = true ∧ i ∈ ((cfg5.win 9).blk t).view.set := by
  have h0 : (i 0).val < 50000 := (i 0).isLt
  have h1 : (i 1).val < 128 := (i 1).isLt
  obtain ⟨t, ht⟩ : ∃ t : Fin cfg5.N, t.val = (i 0).val / 5000 :=
    ⟨⟨(i 0).val / 5000, by show _ < 10; omega⟩, rfl⟩
  obtain ⟨-, -, -, -, -, -, -, -, -, -, -, -, -, -, -, -, -, -, e0, e1, -⟩ := idx_facts t
  refine ⟨t, Gen.flush5_9 t, ?_⟩
  simp only [View.set_slice_whole, Rect.mem_set_unit]
  intro a
  match a with
  | ⟨0, _⟩ =>
    show win5_9.index t (0 : Fin 2) * 5000 ≤ (i 0).val ∧ (i 0).val < win5_9.index t (0 : Fin 2) * 5000 + 5000
    rw [e0, ht]; omega
  | ⟨1, _⟩ =>
    show win5_9.index t (1 : Fin 2) * 128 ≤ (i 1).val ∧ (i 1).val < win5_9.index t (1 : Fin 2) * 128 + 128
    rw [e1]; omega

/-! ## The two output arrays after the region -/

/-- The new-features array ends holding the layer's new features of the region's inputs. -/
theorem final_h (c : Dev nD) : (Gen.dat5 V c).arrAt 8 cfg5.N
    = GBh (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (V c (Pipeline.arrRef spec5 6)) :=
  (Gen.dat5 V c).arrAt_eq_of_cover 8
    (GBh (inZ V c) (inMean V c) (inVar V c) (inScale V c) (inShift V c) (inW V c) (inBias V c))
    (fun t _ => flushed_feat V c t) covered_feat

/-- The node pool ends holding what it held plus those new features. -/
theorem final_np (c : Dev nD) : (Gen.dat5 V c).arrAt 9 cfg5.N
    = GBnp (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (V c (Pipeline.arrRef spec5 6)) (V c (Pipeline.arrRef spec5 7)) :=
  (Gen.dat5 V c).arrAt_eq_of_cover 9
    (GBnp (inZ V c) (inMean V c) (inVar V c) (inScale V c) (inShift V c) (inW V c) (inBias V c) (inPool V c))
    (fun t _ => flushed_pool V c t) covered_pool

end Cert.KernelIdeal.RegB5

end
-- ==== Proof.KRegA6.lean ====
/-
  The first dense stage of a layer as the tiled program computes it: ten blocks of 5000 rows each, every block
  the product of (h + agg) restricted to those rows with the whole weight matrix, plus the bias row. Read entry by
  entry, block t's row p is row t * 5000 + p of the array, so the ten blocks together are the whole-array
  function `GA` of the four arrays the region finds.
-/
import proofs.«417867_j28183575396971_1_alg».proof.Proof.Gen.KernelIdeal.Frame
import proofs.«417867_j28183575396971_1_alg».proof.Proof.RegionFns
import proofs.«417867_j28183575396971_1_alg».proof.Proof.LibContract
import Idealize.ShloMosaic.Lib.Pipeline.Value
import Idealize.ShloMosaic.Lib.ValueIdx

noncomputable section

namespace Cert.KernelIdeal.RegA6

open Cert.KernelIdeal Cert.KernelIdeal.Gen Idealize.ShloMosaic Idealize.ShloMosaic.TcCoe Idealize.SL.Sem
open Idealize.ShloMosaic.ValueIdx
open Idealize.ShloMosaic.Pipeline (Dat)
open Cert.RegionFns
open scoped BigOperators

/-! ## One block: the payload at a row and a column -/

/-- The bias row, cast to its own shape and repeated down the 5000 rows, reads the bias at the column. -/
theorem bias_apply (b : Vec Ideal S1x128 .f32) (p : Fin 5000) (q : Fin 128) :
    broadcastTo S5000x128 (shapeCast S1x128 b shapeCasts_S1x128_S1x128) broadcasts_S1x128_S5000x128 (ix2 p q)
      = b (ix2 0 q) := by
  rw [shapeCast_self]
  refine broadcastTo_apply _ _ _ (ix2 0 q) (fun a => ?_)
  match a with
  | ⟨0, _⟩ => rfl
  | ⟨1, _⟩ => rfl

/-- Entry (p, q) of a block's result: the sum over k of (x0 p k + x1 p k) * w k q, plus the bias at q. The two
    format changes are the identity on extended reals and the two same-shape casts are the identity. -/
theorem payload_apply (x0 x1 : Vec Ideal S5000x128 .f32) (w : Vec Ideal S128x128 .f32) (b : Vec Ideal S1x128 .f32)
    (p : Fin 5000) (q : Fin 128) :
    Gen.k6_pay1 x0 x1 w b (ix2 p q)
      = (∑ k : Fin 128, (x0 (ix2 p k) + x1 (ix2 p k)) * w (ix2 k q)) + b (ix2 0 q) := by
  unfold Gen.k6_pay1
  rw [addf_apply, bias_apply]
  rw [Cert.LibContract.matmul_plain dot_S5000x128_S128x128_S5000x128_1_0_0_1_n_n rfl rfl rfl rfl rfl rfl]
  simp only [truncf_apply, addf_apply, shapeCast_self]

/-! ## One block against the whole array -/

/-- A block whose row p is the arrays' row T * 5000 + p, column for column (`e` places the block in the array),
    holding the whole weight matrix and the whole bias row: entry j of the block's result is entry `e j` of
    `(h + agg) · W + b`. The row of `e (p, k)` does not depend on k, so the sum over k runs along one row of
    the arrays. -/
theorem block_apply (h agg : ND.Idx → EReal) (w : DD.Idx → EReal) (b : RD.Idx → EReal)
    (x0 x1 : Vec Ideal S5000x128 .f32) (xw : Vec Ideal S128x128 .f32) (xb : Vec Ideal S1x128 .f32)
    (e : S5000x128.Idx → ND.Idx) (T : Nat)
    (he0 : ∀ y, (e y 0).val = T * 5000 + (y 0).val) (he1 : ∀ y, (e y 1).val = (y 1).val)
    (h0 : ∀ y, x0 y = h (e y)) (h1 : ∀ y, x1 y = agg (e y)) (hw : xw = w) (hb : xb = b)
    (j : S5000x128.Idx) :
    Gen.k6_pay1 x0 x1 xw xb j = GA h agg w b (e j) := by
  obtain ⟨p, q, rfl⟩ : ∃ (p : Fin 5000) (q : Fin 128), j = ix2 p q := ⟨j 0, j 1, eq_ix2 j⟩
  subst hw hb
  rw [payload_apply]
  obtain ⟨r, hr⟩ : ∃ r : Fin 50000, r.val = T * 5000 + p.val := ⟨e (ix2 p q) 0, he0 (ix2 p q)⟩
  have hrow : ∀ k : Fin 128, e (ix2 p k) = ix2 r k := fun k => funext fun a => Fin.ext (by
    match a with
    | ⟨0, _⟩ => exact (he0 (ix2 p k)).trans hr.symm
    | ⟨1, _⟩ => exact he1 (ix2 p k))
  rw [hrow q, GA_apply]
  unfold linA
  simp only [h0, h1, hrow]

/-! ## What a grid point writes back -/

section Region
variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the two row-blocked inputs move with the output, whose block index is
    the point's number on the row axis and 0 on the column axis; the weight and the bias stay at block (0, 0). -/
theorem idx_facts : ∀ t : Fin cfg6.N,
    win6_0.index t (0 : Fin 2) = win6_4.index t (0 : Fin 2) ∧ win6_0.index t (1 : Fin 2) = win6_4.index t (1 : Fin 2)
    ∧ win6_1.index t (0 : Fin 2) = win6_4.index t (0 : Fin 2) ∧ win6_1.index t (1 : Fin 2) = win6_4.index t (1 : Fin 2)
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Row p of the output's block at point t is row t * 5000 + p of the array. -/
theorem out_row (t : Fin cfg6.N) (y : S5000x128.Idx) :
    (((cfg6.win 4).blk t).view.emb y 0).val = t.val * 5000 + (y 0).val := by
  obtain ⟨e00, e01, e10, e11, e20, e21, e30, e31, e40, e41⟩ := idx_facts t
  show win6_4.index t (0 : Fin 2) * 5000 + 1 * (y 0).val = t.val * 5000 + (y 0).val
  omega

/-- Its columns are the array's columns. -/
theorem out_col (t : Fin cfg6.N) (y : S5000x128.Idx) :
    (((cfg6.win 4).blk t).view.emb y 1).val = (y 1).val := by
  obtain ⟨e00, e01, e10, e11, e20, e21, e30, e31, e40, e41⟩ := idx_facts t
  show win6_4.index t (1 : Fin 2) * 128 + 1 * (y 1).val = (y 1).val
  omega

/-- The first input's block at point t sits in its array where the output's block sits in the output. -/
theorem in0_read (c : Dev nD) (t : Fin cfg6.N) (y : S5000x128.Idx) :
    Gen.iblk6 V c 0 t y = V c (Pipeline.arrRef spec6 0) (((cfg6.win 4).blk t).view.emb y) := by
  obtain ⟨e00, e01, e10, e11, e20, e21, e30, e31, e40, e41⟩ := idx_facts t
  show V c (Pipeline.arrRef spec6 0) (((cfg6.win 0).blk t).view.emb y) = V c (Pipeline.arrRef spec6 0) (((cfg6.win 4).blk t).view.emb y)
  refine congrArg _ (funext fun a => Fin.ext ?_)
  match a with
  | ⟨0, _⟩ => show win6_0.index t (0 : Fin 2) * 5000 + 1 * (y 0).val = win6_4.index t (0 : Fin 2) * 5000 + 1 * (y 0).val; omega
  | ⟨1, _⟩ => show win6_0.index t (1 : Fin 2) * 128 + 1 * (y 1).val = win6_4.index t (1 : Fin 2) * 128 + 1 * (y 1).val; omega

/-- So does the second input's. -/
theorem in1_read (c : Dev nD) (t : Fin cfg6.N) (y : S5000x128.Idx) :
    Gen.iblk6 V c 1 t y = V c (Pipeline.arrRef spec6 1) (((cfg6.win 4).blk t).view.emb y) := by
  obtain ⟨e00, e01, e10, e11, e20, e21, e30, e31, e40, e41⟩ := idx_facts t
  show V c (Pipeline.arrRef spec6 1) (((cfg6.win 1).blk t).view.emb y) = V c (Pipeline.arrRef spec6 1) (((cfg6.win 4).blk t).view.emb y)
  refine congrArg _ (funext fun a => Fin.ext ?_)
  match a with
  | ⟨0, _⟩ => show win6_1.index t (0 : Fin 2) * 5000 + 1 * (y 0).val = win6_4.index t (0 : Fin 2) * 5000 + 1 * (y 0).val; omega
  | ⟨1, _⟩ => show win6_1.index t (1 : Fin 2) * 128 + 1 * (y 1).val = win6_4.index t (1 : Fin 2) * 128 + 1 * (y 1).val; omega

/-- The weight's block at every point is the whole weight matrix. -/
theorem in2_read (c : Dev nD) (t : Fin cfg6.N) :
    Gen.iblk6 V c 2 t = (V c (Pipeline.arrRef spec6 2) : S128x128.Idx → Elt Ideal .f32) := by
  obtain ⟨e00, e01, e10, e11, e20, e21, e30, e31, e40, e41⟩ := idx_facts t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 128 + 1 * (y 0).val = (y 0).val; omega
  | ⟨1, _⟩ => show win6_2.index t (1 : Fin 2) * 128 + 1 * (y 1).val = (y 1).val; omega

/-- The bias's block at every point is the whole bias row. -/
theorem in3_read (c : Dev nD) (t : Fin cfg6.N) :
    Gen.iblk6 V c 3 t = (V c (Pipeline.arrRef spec6 3) : S1x128.Idx → Elt Ideal .f32) := by
  obtain ⟨e00, e01, e10, e11, e20, e21, e30, e31, e40, e41⟩ := idx_facts t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- Point t writes back block t of `(h + agg) · W + b` of the four arrays as the region finds them. -/
theorem flushed_eq (c : Dev nD) (t : Fin cfg6.N) :
    (Gen.dat6 V c).flushed 4 t = ((cfg6.win 4).blk t).view.read (Elt Ideal)
      (GA (V c (Pipeline.arrRef spec6 0)) (V c (Pipeline.arrRef spec6 1)) (V c (Pipeline.arrRef spec6 2))
        (V c (Pipeline.arrRef spec6 3))) := by
  show (cfg6.win 4).cut (grid6.coords t) ((Gen.dat6 V c).after 4 t) = _
  rw [Gen.after6_4]
  unfold Gen.out6_4
  rw [View.canon_unit_zero hz]
  simp only [View.ld_unit_zero (S := S5000x128) hz, View.ld_unit_zero (S := S128x128) hz,
    View.ld_unit_zero (S := S1x128) hz]
  generalize hG : GA (V c (Pipeline.arrRef spec6 0)) (V c (Pipeline.arrRef spec6 1)) (V c (Pipeline.arrRef spec6 2))
    (V c (Pipeline.arrRef spec6 3)) = G
  funext j
  show Gen.k6_pay1 (Gen.iblk6 V c 0 t) (Gen.iblk6 V c 1 t) (Gen.iblk6 V c 2 t) (Gen.iblk6 V c 3 t) j
    = G (((cfg6.win 4).blk t).view.emb j)
  rw [← hG]
  exact block_apply (V c (Pipeline.arrRef spec6 0)) (V c (Pipeline.arrRef spec6 1)) (V c (Pipeline.arrRef spec6 2))
    (V c (Pipeline.arrRef spec6 3)) (Gen.iblk6 V c 0 t) (Gen.iblk6 V c 1 t) (Gen.iblk6 V c 2 t) (Gen.iblk6 V c 3 t)
    (fun y => ((cfg6.win 4).blk t).view.emb y) t.val (out_row t) (out_col t) (in0_read V c t) (in1_read V c t)
    (in2_read V c t) (in3_read V c t) j

/-! ## The ten blocks are the array -/

/-- An index of the array is in point t's block iff each coordinate is in the block's range on its axis. -/
theorem mem_blk (t : Fin cfg6.N) (i : S50000x128.Idx) :
    i ∈ ((cfg6.win 4).blk t).view.set ↔ ∀ a : Fin 2, win6_4.index t a * S5000x128.size a ≤ (i a).val
      ∧ (i a).val < win6_4.index t a * S5000x128.size a + S5000x128.size a := by
  show i ∈ ((View.whole (Pipeline.arrRef spec6 4)).slice (win6_4.rect t)).set ↔ _
  rw [View.set_slice_whole, Rect.mem_set_unit]
  exact Iff.rfl

/-- Row r of the array is in the block of point r / 5000, which writes back like every point. -/
theorem cover (i : S50000x128.Idx) :
    ∃ t : Fin cfg6.N, (cfg6.win 4).flush t = true ∧ i ∈ ((cfg6.win 4).blk t).view.set := by
  have hi0 : (i 0).val < 50000 := (i 0).isLt
  have hi1 : (i 1).val < 128 := (i 1).isLt
  obtain ⟨t, ht⟩ : ∃ t : Fin cfg6.N, t.val = (i 0).val / 5000 :=
    ⟨⟨(i 0).val / 5000, by show (i 0).val / 5000 < grid6.N; rw [Gen.N_6]; omega⟩, rfl⟩
  obtain ⟨e00, e01, e10, e11, e20, e21, e30, e31, e40, e41⟩ := idx_facts t
  refine ⟨t, Gen.flush6_4 t, ?_⟩
  rw [mem_blk]
  intro a
  match a with
  | ⟨0, _⟩ =>
    show win6_4.index t (0 : Fin 2) * 5000 ≤ (i 0).val ∧ (i 0).val < win6_4.index t (0 : Fin 2) * 5000 + 5000
    omega
  | ⟨1, _⟩ =>
    show win6_4.index t (1 : Fin 2) * 128 ≤ (i 1).val ∧ (i 1).val < win6_4.index t (1 : Fin 2) * 128 + 128
    omega

/-- After the region the output array holds `(h + agg) · W + b` of the four arrays the region found. -/
theorem final (c : Dev nD) :
    (Gen.dat6 V c).arrAt 4 cfg6.N
      = GA (V c (Pipeline.arrRef spec6 0)) (V c (Pipeline.arrRef spec6 1)) (V c (Pipeline.arrRef spec6 2))
          (V c (Pipeline.arrRef spec6 3)) :=
  (Gen.dat6 V c).arrAt_eq_of_cover 4
    (GA (V c (Pipeline.arrRef spec6 0)) (V c (Pipeline.arrRef spec6 1)) (V c (Pipeline.arrRef spec6 2))
      (V c (Pipeline.arrRef spec6 3)))
    (fun t _ => flushed_eq V c t) cover

end Region

end Cert.KernelIdeal.RegA6

end
-- ==== Proof.KRegB7.lean ====
/-
  The second dense stage of a layer, as the row-blocked kernel computes it: ten blocks of 5000 rows, each block
  normalised with the given column means and variances, scaled, shifted, rectified, multiplied by the second weight
  matrix and offset by its bias; the node pool's block gains the result. Read entry by entry, every block is the
  matching rows of ONE pair of whole-array functions of the region's inputs (the new features and the updated pool),
  the ten blocks tile the 50000 rows, and so the two output arrays end holding exactly those two functions.
-/
import proofs.«417867_j28183575396971_1_alg».proof.Proof.Gen.KernelIdeal.Frame
import proofs.«417867_j28183575396971_1_alg».proof.Proof.RegionFns
import proofs.«417867_j28183575396971_1_alg».proof.Proof.LibContract
import Idealize.ShloMosaic.Lib.Pipeline.Value
import Idealize.ShloMosaic.Lib.ValueIdx
import Idealize.ShloMosaic.Lib.ValueLayout

set_option maxRecDepth 16384

noncomputable section

namespace Cert.KernelIdeal.RegB7

open Idealize.ShloMosaic Idealize.ShloMosaic.TcCoe Idealize.ShloMosaic.ValueIdx Idealize.SL.Sem
open Idealize.ShloMosaic.Pipeline (Dat)
open Cert.KernelIdeal Cert.RegionFns
open scoped BigOperators

/-! ## One block, entry by entry -/

/-- The new features of one block of 5000 rows at row p and column q of the block: the rectified normalised
    activations of that row, contracted with column q of the weights, plus the bias at q. The format changes are
    the identity on the extended reals, the row vectors are read at their one row, and the matrix product into
    zeros is the plain sum over the 128 contracted positions. -/
theorem feat_apply (x0 : Vec Ideal S5000x128 .f32) (x1 x2 x3 x4 : Vec Ideal S1x128 .f32) (x5 : Vec Ideal S128x128 .f32)
    (x6 : Vec Ideal S1x128 .f32) (p : Fin 5000) (q : Fin 128) :
    Gen.k7_pay1 x0 x1 x2 x3 x4 x5 x6 (ix2 p q)
      = (∑ k : Fin 128, max (x3 (ix2 0 k) * (x0 (ix2 p k) - x1 (ix2 0 k)) * Ideal.rsqrt (x2 (ix2 0 k) + eps) + x4 (ix2 0 k))
          (Ideal.ofBits .f32 0x00000000#32) * x5 (ix2 k q)) + x6 (ix2 0 q) := by
  unfold Gen.k7_pay1
  simp only [shapeCast_self]
  rw [addf_apply, broadcastTo_1b_ab_apply]
  rw [Cert.LibContract.matmul_plain dot_S5000x128_S128x128_S5000x128_1_0_0_1_n_n rfl rfl rfl rfl rfl rfl]
  refine congrArg (· + x6 (ix2 0 q)) (Finset.sum_congr rfl fun k _ => ?_)
  rw [truncf_apply, truncf_apply, maximumf_apply, addf_apply, mulf_apply, mulf_apply, subf_apply,
    broadcastTo_1b_ab_apply, broadcastTo_1b_ab_apply, broadcastTo_1b_ab_apply, broadcastTo_1b_ab_apply, broadcast_apply]
  rfl

/-- The pool's block after the update, at the same entry: what it held plus the new feature. -/
theorem pool_apply (x0 : Vec Ideal S5000x128 .f32) (x1 x2 x3 x4 : Vec Ideal S1x128 .f32) (x5 : Vec Ideal S128x128 .f32)
    (x6 : Vec Ideal S1x128 .f32) (x7 : Vec Ideal S5000x128 .f32) (p : Fin 5000) (q : Fin 128) :
    Gen.k7_pay2 x0 x1 x2 x3 x4 x5 x6 x7 (ix2 p q) = x7 (ix2 p q) + Gen.k7_pay1 x0 x1 x2 x3 x4 x5 x6 (ix2 p q) := by
  unfold Gen.k7_pay2
  simp only [shapeCast_self]
  rw [addf_apply]

/-- A block whose rows are rows of the whole activations array (block row p is array row r), computed with the
    whole row vectors and weights, gives at (p, q) the whole-array new features at (r, q). -/
theorem feat_rows (Z : ND.Idx → EReal) (MU VA GM BE : RD.Idx → EReal) (W : DD.Idx → EReal) (B : RD.Idx → EReal)
    (x0 : Vec Ideal S5000x128 .f32) (x1 x2 x3 x4 : Vec Ideal S1x128 .f32) (x5 : Vec Ideal S128x128 .f32)
    (x6 : Vec Ideal S1x128 .f32) (p : Fin 5000) (q : Fin 128) (r : Fin 50000)
    (h0 : ∀ k : Fin 128, x0 (ix2 p k) = Z (ix2 r k)) (h1 : x1 = MU) (h2 : x2 = VA) (h3 : x3 = GM) (h4 : x4 = BE)
    (h5 : x5 = W) (h6 : x6 = B) :
    Gen.k7_pay1 x0 x1 x2 x3 x4 x5 x6 (ix2 p q) = GBh Z MU VA GM BE W B (ix2 r q) := by
  subst h1 h2 h3 h4 h5 h6
  rw [feat_apply, GBh_apply]
  unfold linB act
  simp only [h0]

/-- The same for the pool, the pool's block row p being row r of the whole pool. -/
theorem pool_rows (Z : ND.Idx → EReal) (MU VA GM BE : RD.Idx → EReal) (W : DD.Idx → EReal) (B : RD.Idx → EReal)
    (NP : ND.Idx → EReal)
    (x0 : Vec Ideal S5000x128 .f32) (x1 x2 x3 x4 : Vec Ideal S1x128 .f32) (x5 : Vec Ideal S128x128 .f32)
    (x6 : Vec Ideal S1x128 .f32) (x7 : Vec Ideal S5000x128 .f32) (p : Fin 5000) (q : Fin 128) (r : Fin 50000)
    (h0 : ∀ k : Fin 128, x0 (ix2 p k) = Z (ix2 r k)) (h1 : x1 = MU) (h2 : x2 = VA) (h3 : x3 = GM) (h4 : x4 = BE)
    (h5 : x5 = W) (h6 : x6 = B) (h7 : x7 (ix2 p q) = NP (ix2 r q)) :
    Gen.k7_pay2 x0 x1 x2 x3 x4 x5 x6 x7 (ix2 p q) = GBnp Z MU VA GM BE W B NP (ix2 r q) := by
  rw [pool_apply, h7, feat_rows Z MU VA GM BE W B x0 x1 x2 x3 x4 x5 x6 p q r h0 h1 h2 h3 h4 h5 h6, GBnp_apply, GBh_apply]
  rfl

/-! ## The region's arrays and its blocks -/

variable (V : (c : Dev nD) → (b : Ref sig .tc) → Buf (Elt Ideal) ((c : Thread nD τ).loc b))

/-- The eight input arrays as the region finds them, at their literal shapes: the first stage's output, the column
    means and variances, the scale and shift rows, the second weights and bias, the node pool. -/
noncomputable def inZ (c : Dev nD) : ND.Idx → EReal := V c (Pipeline.arrRef spec7 0)
noncomputable def inMean (c : Dev nD) : RD.Idx → EReal := V c (Pipeline.arrRef spec7 1)
noncomputable def inVar (c : Dev nD) : RD.Idx → EReal := V c (Pipeline.arrRef spec7 2)
noncomputable def inScale (c : Dev nD) : RD.Idx → EReal := V c (Pipeline.arrRef spec7 3)
noncomputable def inShift (c : Dev nD) : RD.Idx → EReal := V c (Pipeline.arrRef spec7 4)
noncomputable def inW (c : Dev nD) : DD.Idx → EReal := V c (Pipeline.arrRef spec7 5)
noncomputable def inBias (c : Dev nD) : RD.Idx → EReal := V c (Pipeline.arrRef spec7 6)
noncomputable def inPool (c : Dev nD) : ND.Idx → EReal := V c (Pipeline.arrRef spec7 7)

theorem offs_zero : (![0, 0] : Fin 2 → Nat) = fun _ => 0 := funext fun a => by fin_cases a <;> rfl

/-- The block index maps over the grid: the row-blocked windows are at block (t, 0) at point t, the whole windows at
    block (0, 0) at every point. -/
theorem idx_facts : ∀ t : Fin cfg7.N,
      win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0
    ∧ win7_8.index t (0 : Fin 2) = t.val ∧ win7_8.index t (1 : Fin 2) = 0
    ∧ win7_9.index t (0 : Fin 2) = t.val ∧ win7_9.index t (1 : Fin 2) = 0 ∧ True :=
  (by decide +kernel : ∀ t : Fin grid7.N, _)

/-- The activations' block at point t holds rows 5000·t … 5000·t + 4999 of the array. -/
theorem Z_apply (c : Dev nD) (t : Fin cfg7.N) (p : Fin 5000) (k : Fin 128) (h : t.val * 5000 + p.val < 50000) :
    (Gen.iblk7 V c 0 t : Vec Ideal S5000x128 .f32) (ix2 p k) = inZ V c (ix2 ⟨t.val * 5000 + p.val, h⟩ k) := by
  obtain ⟨e0, e1, -⟩ := idx_facts t
  unfold Gen.iblk7 inZ
  rw [View.read_apply]
  show V c (Pipeline.arrRef spec7 0) _ = V c (Pipeline.arrRef spec7 0) _
  congr 1
  funext a
  apply Fin.ext
  match a with
  | ⟨0, _⟩ => show win7_0.index t (0 : Fin 2) * 5000 + 1 * p.val = t.val * 5000 + p.val; rw [e0]; omega
  | ⟨1, _⟩ => show win7_0.index t (1 : Fin 2) * 128 + 1 * k.val = k.val; rw [e1]; omega

/-- The means' block is the whole row at every point. -/
theorem Mean_eq (c : Dev nD) (t : Fin cfg7.N) :
    (Gen.iblk7 V c 1 t : Vec Ideal S1x128 .f32) = inMean V c := by
  obtain ⟨-, -, e0, e1, -⟩ := idx_facts t
  funext j
  unfold Gen.iblk7 inMean
  rw [View.read_apply]
  show V c (Pipeline.arrRef spec7 1) _ = V c (Pipeline.arrRef spec7 1) _
  congr 1
  funext a
  apply Fin.ext
  match a with
  | ⟨0, _⟩ => show win7_1.index t (0 : Fin 2) * 1 + 1 * (j 0).val = (j 0).val; rw [e0]; omega
  | ⟨1, _⟩ => show win7_1.index t (1 : Fin 2) * 128 + 1 * (j 1).val = (j 1).val; rw [e1]; omega

/-- The variances' block is the whole row at every point. -/
theorem Var_eq (c : Dev nD) (t : Fin cfg7.N) :
    (Gen.iblk7 V c 2 t : Vec Ideal S1x128 .f32) = inVar V c := by
  obtain ⟨-, -, -, -, e0, e1, -⟩ := idx_facts t
  funext j
  unfold Gen.iblk7 inVar
  rw [View.read_apply]
  show V c (Pipeline.arrRef spec7 2) _ = V c (Pipeline.arrRef spec7 2) _
  congr 1
  funext a
  apply Fin.ext
  match a with
  | ⟨0, _⟩ => show win7_2.index t (0 : Fin 2) * 1 + 1 * (j 0).val = (j 0).val; rw [e0]; omega
  | ⟨1, _⟩ => show win7_2.index t (1 : Fin 2) * 128 + 1 * (j 1).val = (j 1).val; rw [e1]; omega

/-- The scale's block is the whole row at every point. -/
theorem Scale_eq (c : Dev nD) (t : Fin cfg7.N) :
    (Gen.iblk7 V c 3 t : Vec Ideal S1x128 .f32) = inScale V c := by
  obtain ⟨-, -, -, -, -, -, e0, e1, -⟩ := idx_facts t
  funext j
  unfold Gen.iblk7 inScale
  rw [View.read_apply]
  show V c (Pipeline.arrRef spec7 3) _ = V c (Pipeline.arrRef spec7 3) _
  congr 1
  funext a
  apply Fin.ext
  match a with
  | ⟨0, _⟩ => show win7_3.index t (0 : Fin 2) * 1 + 1 * (j 0).val = (j 0).val; rw [e0]; omega
  | ⟨1, _⟩ => show win7_3.index t (1 : Fin 2) * 128 + 1 * (j 1).val = (j 1).val; rw [e1]; omega

/-- The shift's block is the whole row at every point. -/
theorem Shift_eq (c : Dev nD) (t : Fin cfg7.N) :
    (Gen.iblk7 V c 4 t : Vec Ideal S1x128 .f32) = inShift V c := by
  obtain ⟨-, -, -, -, -, -, -, -, e0, e1, -⟩ := idx_facts t
  funext j
  unfold Gen.iblk7 inShift
  rw [View.read_apply]
  show V c (Pipeline.arrRef spec7 4) _ = V c (Pipeline.arrRef spec7 4) _
  congr 1
  funext a
  apply Fin.ext
  match a with
  | ⟨0, _⟩ => show win7_4.index t (0 : Fin 2) * 1 + 1 * (j 0).val = (j 0).val; rw [e0]; omega
  | ⟨1, _⟩ => show win7_4.index t (1 : Fin 2) * 128 + 1 * (j 1).val = (j 1).val; rw [e1]; omega

/-- The weights' block is the whole matrix at every point. -/
theorem W_eq (c : Dev nD) (t : Fin cfg7.N) :
    (Gen.iblk7 V c 5 t : Vec Ideal S128x128 .f32) = inW V c := by
  obtain ⟨-, -, -, -, -, -, -, -, -, -, e0, e1, -⟩ := idx_facts t
  funext j
  unfold Gen.iblk7 inW
  rw [View.read_apply]
  show V c (Pipeline.arrRef spec7 5) _ = V c (Pipeline.arrRef spec7 5) _
  congr 1
  funext a
  apply Fin.ext
  match a with
  | ⟨0, _⟩ => show win7_5.index t (0 : Fin 2) * 128 + 1 * (j 0).val = (j 0).val; rw [e0]; omega
  | ⟨1, _⟩ => show win7_5.index t (1 : Fin 2) * 128 + 1 * (j 1).val = (j 1).val; rw [e1]; omega

/-- The bias's block is the whole row at every point. -/
theorem Bias_eq (c : Dev nD) (t : Fin cfg7.N) :
    (Gen.iblk7 V c 6 t : Vec Ideal S1x128 .f32) = inBias V c := by
  obtain ⟨-, -, -, -, -, -, -, -, -, -, -, -, e0, e1, -⟩ := idx_facts t
  funext j
  unfold Gen.iblk7 inBias
  rw [View.read_apply]
  show V c (Pipeline.arrRef spec7 6) _ = V c (Pipeline.arrRef spec7 6) _
  congr 1
  funext a
  apply Fin.ext
  match a with
  | ⟨0, _⟩ => show win7_6.index t (0 : Fin 2) * 1 + 1 * (j 0).val = (j 0).val; rw [e0]; omega
  | ⟨1, _⟩ => show win7_6.index t (1 : Fin 2) * 128 + 1 * (j 1).val = (j 1).val; rw [e1]; omega

/-- The pool's block at point t holds rows 5000·t … 5000·t + 4999 of the pool. -/
theorem Pool_apply (c : Dev nD) (t : Fin cfg7.N) (p : Fin 5000) (k : Fin 128) (h : t.val * 5000 + p.val < 50000) :
    (Gen.iblk7 V c 7 t : Vec Ideal S5000x128 .f32) (ix2 p k) = inPool V c (ix2 ⟨t.val * 5000 + p.val, h⟩ k) := by
  obtain ⟨-, -, -, -, -, -, -, -, -, -, -, -, -, -, e0, e1, -⟩ := idx_facts t
  unfold Gen.iblk7 inPool
  rw [View.read_apply]
  show V c (Pipeline.arrRef spec7 7) _ = V c (Pipeline.arrRef spec7 7) _
  congr 1
  funext a
  apply Fin.ext
  match a with
  | ⟨0, _⟩ => show win7_7.index t (0 : Fin 2) * 5000 + 1 * p.val = t.val * 5000 + p.val; rw [e0]; omega
  | ⟨1, _⟩ => show win7_7.index t (1 : Fin 2) * 128 + 1 * k.val = k.val; rw [e1]; omega

/-! ## What each point writes back -/

/-- POINT t WRITES BACK, into the new features, rows 5000·t … 5000·t + 4999 of the whole-array new features. -/
theorem flushed_feat (c : Dev nD) (t : Fin cfg7.N) :
    (Gen.dat7 V c).flushed 8 t = ((cfg7.win 8).blk t).view.read (Elt Ideal)
      (GBh (inZ V c) (inMean V c) (inVar V c) (inScale V c) (inShift V c) (inW V c) (inBias V c)) := by
  show (cfg7.win 8).cut (grid7.coords t) ((Gen.dat7 V c).after 8 t) = _
  rw [Gen.after7_8]
  unfold Gen.out7_8
  rw [View.canon_unit_zero offs_zero]
  simp only [View.ld_unit_zero (S := S5000x128) offs_zero, View.ld_unit_zero (S := S1x128) offs_zero,
    View.ld_unit_zero (S := S128x128) offs_zero]
  funext j
  have ht : t.val < 10 := t.isLt
  have hp : (j 0).val < 5000 := (j 0).isLt
  have hq : (j 1).val < 128 := (j 1).isLt
  have hr : t.val * 5000 + (j 0).val < 50000 := by omega
  have hj : (win7 8).xinj (grid7.coords t) j = ix2 (⟨(j 0).val, hp⟩ : Fin 5000) (⟨(j 1).val, hq⟩ : Fin 128) :=
    funext fun a => match a with | ⟨0, _⟩ => rfl | ⟨1, _⟩ => rfl
  have hemb : ((cfg7.win 8).blk t).view.emb j
      = ix2 (⟨t.val * 5000 + (j 0).val, hr⟩ : Fin 50000) (⟨(j 1).val, hq⟩ : Fin 128) := by
    obtain ⟨-, -, -, -, -, -, -, -, -, -, -, -, -, -, -, -, e0, e1, -⟩ := idx_facts t
    funext a
    apply Fin.ext
    match a with
    | ⟨0, _⟩ => show win7_8.index t (0 : Fin 2) * 5000 + 1 * (j 0).val = t.val * 5000 + (j 0).val; rw [e0]; omega
    | ⟨1, _⟩ => show win7_8.index t (1 : Fin 2) * 128 + 1 * (j 1).val = (j 1).val; rw [e1]; omega
  rw [View.read_apply, hemb, cast_eq]
  refine (congrArg (Gen.k7_pay1 (Gen.iblk7 V c 0 t) (Gen.iblk7 V c 1 t) (Gen.iblk7 V c 2 t) (Gen.iblk7 V c 3 t)
    (Gen.iblk7 V c 4 t) (Gen.iblk7 V c 5 t) (Gen.iblk7 V c 6 t)) hj).trans ?_
  exact feat_rows _ _ _ _ _ _ _ _ _ _ _ _ _ _ _ _ _ (fun k => Z_apply V c t ⟨(j 0).val, hp⟩ k hr) (Mean_eq V c t)
    (Var_eq V c t) (Scale_eq V c t) (Shift_eq V c t) (W_eq V c t) (Bias_eq V c t)

/-- POINT t WRITES BACK, into the pool, the same rows of the whole-array updated pool. -/
theorem flushed_pool (c : Dev nD) (t : Fin cfg7.N) :
    (Gen.dat7 V c).flushed 9 t = ((cfg7.win 9).blk t).view.read (Elt Ideal)
      (GBnp (inZ V c) (inMean V c) (inVar V c) (inScale V c) (inShift V c) (inW V c) (inBias V c) (inPool V c)) := by
  show (cfg7.win 9).cut (grid7.coords t) ((Gen.dat7 V c).after 9 t) = _
  rw [Gen.after7_9]
  unfold Gen.out7_9
  rw [View.canon_unit_zero offs_zero]
  simp only [View.ld_unit_zero (S := S5000x128) offs_zero, View.ld_unit_zero (S := S1x128) offs_zero,
    View.ld_unit_zero (S := S128x128) offs_zero]
  funext j
  have ht : t.val < 10 := t.isLt
  have hp : (j 0).val < 5000 := (j 0).isLt
  have hq : (j 1).val < 128 := (j 1).isLt
  have hr : t.val * 5000 + (j 0).val < 50000 := by omega
  have hj : (win7 9).xinj (grid7.coords t) j = ix2 (⟨(j 0).val, hp⟩ : Fin 5000) (⟨(j 1).val, hq⟩ : Fin 128) :=
    funext fun a => match a with | ⟨0, _⟩ => rfl | ⟨1, _⟩ => rfl
  have hemb : ((cfg7.win 9).blk t).view.emb j
      = ix2 (⟨t.val * 5000 + (j 0).val, hr⟩ : Fin 50000) (⟨(j 1).val, hq⟩ : Fin 128) := by
    obtain ⟨-, -, -, -, -, -, -, -, -, -, -, -, -, -, -, -, -, -, e0, e1, -⟩ := idx_facts t
    funext a
    apply Fin.ext
    match a with
    | ⟨0, _⟩ => show win7_9.index t (0 : Fin 2) * 5000 + 1 * (j 0).val = t.val * 5000 + (j 0).val; rw [e0]; omega
    | ⟨1, _⟩ => show win7_9.index t (1 : Fin 2) * 128 + 1 * (j 1).val = (j 1).val; rw [e1]; omega
  rw [View.read_apply, hemb, cast_eq]
  refine (congrArg (Gen.k7_pay2 (Gen.iblk7 V c 0 t) (Gen.iblk7 V c 1 t) (Gen.iblk7 V c 2 t) (Gen.iblk7 V c 3 t)
    (Gen.iblk7 V c 4 t) (Gen.iblk7 V c 5 t) (Gen.iblk7 V c 6 t) (Gen.iblk7 V c 7 t)) hj).trans ?_
  exact pool_rows _ _ _ _ _ _ _ _ _ _ _ _ _ _ _ _ _ _ _ (fun k => Z_apply V c t ⟨(j 0).val, hp⟩ k hr) (Mean_eq V c t)
    (Var_eq V c t) (Scale_eq V c t) (Shift_eq V c t) (W_eq V c t) (Bias_eq V c t)
    (Pool_apply V c t ⟨(j 0).val, hp⟩ ⟨(j 1).val, hq⟩ hr)

/-! ## The ten blocks tile the 50000 rows -/

/-- Row r of the feat array lies in the block of point r / 5000. -/
theorem covered_feat (i : S50000x128.Idx) :
    ∃ t : Fin cfg7.N, (cfg7.win 8).flush t = true ∧ i ∈ ((cfg7.win 8).blk t).view.set := by
  have h0 : (i 0).val < 50000 := (i 0).isLt
  have h1 : (i 1).val < 128 := (i 1).isLt
  obtain ⟨t, ht⟩ : ∃ t : Fin cfg7.N, t.val = (i 0).val / 5000 :=
    ⟨⟨(i 0).val / 5000, by show _ < 10; omega⟩, rfl⟩
  obtain ⟨-, -, -, -, -, -, -, -, -, -, -, -, -, -, -, -, e0, e1, -⟩ := idx_facts t
  refine ⟨t, Gen.flush7_8 t, ?_⟩
  simp only [View.set_slice_whole, Rect.mem_set_unit]
  intro a
  match a with
  | ⟨0, _⟩ =>
    show win7_8.index t (0 : Fin 2) * 5000 ≤ (i 0).val ∧ (i 0).val < win7_8.index t (0 : Fin 2) * 5000 + 5000
    rw [e0, ht]; omega
  | ⟨1, _⟩ =>
    show win7_8.index t (1 : Fin 2) * 128 ≤ (i 1).val ∧ (i 1).val < win7_8.index t (1 : Fin 2) * 128 + 128
    rw [e1]; omega

/-- Row r of the pool array lies in the block of point r / 5000. -/
theorem covered_pool (i : S50000x128.Idx) :
    ∃ t : Fin cfg7.N, (cfg7.win 9).flush t = true ∧ i ∈ ((cfg7.win 9).blk t).view.set := by
  have h0 : (i 0).val < 50000 := (i 0).isLt
  have h1 : (i 1).val < 128 := (i 1).isLt
  obtain ⟨t, ht⟩ : ∃ t : Fin cfg7.N, t.val = (i 0).val / 5000 :=
    ⟨⟨(i 0).val / 5000, by show _ < 10; omega⟩, rfl⟩
  obtain ⟨-, -, -, -, -, -, -, -, -, -, -, -, -, -, -, -, -, -, e0, e1, -⟩ := idx_facts t
  refine ⟨t, Gen.flush7_9 t, ?_⟩
  simp only [View.set_slice_whole, Rect.mem_set_unit]
  intro a
  match a with
  | ⟨0, _⟩ =>
    show win7_9.index t (0 : Fin 2) * 5000 ≤ (i 0).val ∧ (i 0).val < win7_9.index t (0 : Fin 2) * 5000 + 5000
    rw [e0, ht]; omega
  | ⟨1, _⟩ =>
    show win7_9.index t (1 : Fin 2) * 128 ≤ (i 1).val ∧ (i 1).val < win7_9.index t (1 : Fin 2) * 128 + 128
    rw [e1]; omega

/-! ## The two output arrays after the region -/

/-- The new-features array ends holding the layer's new features of the region's inputs. -/
theorem final_h (c : Dev nD) : (Gen.dat7 V c).arrAt 8 cfg7.N
    = GBh (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5))
        (V c (Pipeline.arrRef spec7 6)) :=
  (Gen.dat7 V c).arrAt_eq_of_cover 8
    (GBh (inZ V c) (inMean V c) (inVar V c) (inScale V c) (inShift V c) (inW V c) (inBias V c))
    (fun t _ => flushed_feat V c t) covered_feat

/-- The node pool ends holding what it held plus those new features. -/
theorem final_np (c : Dev nD) : (Gen.dat7 V c).arrAt 9 cfg7.N
    = GBnp (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5))
        (V c (Pipeline.arrRef spec7 6)) (V c (Pipeline.arrRef spec7 7)) :=
  (Gen.dat7 V c).arrAt_eq_of_cover 9
    (GBnp (inZ V c) (inMean V c) (inVar V c) (inScale V c) (inShift V c) (inW V c) (inBias V c) (inPool V c))
    (fun t _ => flushed_pool V c t) covered_pool

end Cert.KernelIdeal.RegB7

end
-- ==== Proof.KRegStep.lean ====
/-
  Each pallas_call as a step on the buffer contents at its entry: the arrays of its windows end at what the
  pipeline's write-backs leave, every other buffer as it was. Read at an output array, the step gives the whole-array
  function of the input arrays that the region computes (the first dense stage for the even regions, the second dense
  stage and the node pool's update for the odd ones); read at a buffer that is no window's array, it gives the entry
  contents.
-/
import proofs.«417867_j28183575396971_1_alg».proof.Proof.Gen.KernelIdeal.Frame
import proofs.«417867_j28183575396971_1_alg».proof.Proof.RegionFns
import proofs.«417867_j28183575396971_1_alg».proof.Proof.KRegA0
import proofs.«417867_j28183575396971_1_alg».proof.Proof.KRegB1
import proofs.«417867_j28183575396971_1_alg».proof.Proof.KRegA2
import proofs.«417867_j28183575396971_1_alg».proof.Proof.KRegB3
import proofs.«417867_j28183575396971_1_alg».proof.Proof.KRegA4
import proofs.«417867_j28183575396971_1_alg».proof.Proof.KRegB5
import proofs.«417867_j28183575396971_1_alg».proof.Proof.KRegA6
import proofs.«417867_j28183575396971_1_alg».proof.Proof.KRegB7

set_option maxRecDepth 16384

noncomputable section

namespace Cert.KernelIdeal.Step

open Cert.KernelIdeal Cert.KernelIdeal.Gen Cert.RegionFns
open Idealize.ShloMosaic Idealize.ShloMosaic.TcCoe Idealize.SL.Sem

variable (Vs : Dev nD → Valuation τ sig (Elt Ideal))

/-- The contents of every core, read at the TensorCore's references. -/
abbrev toV : (c : Dev nD) → (b : Ref sig .tc) → Buf (Elt Ideal) ((c : Thread nD τ).loc b) := fun c b => Vs c b

/-- Region 0's step. -/
def step0 (c : Dev nD) : Valuation τ sig (Elt Ideal) :=
  Pipeline.withArrays spec0 c (Vs c) fun w => (dat0 (toV Vs) c).arrAt w cfg0.N

theorem step0_ne (c : Dev nD) (b : Ref sig .tc) (hb : ∀ w, Pipeline.arrRef spec0 w ≠ b) :
    step0 Vs c (no_index (Proc.devRef .tc b)) = Vs c (Proc.devRef .tc b) :=
  Pipeline.withArrays_of_ne spec0 c _ _ b hb

theorem step0_out (c : Dev nD) :
    step0 Vs c (no_index (Proc.devRef .tc main_v23))
      = GA (Vs c (Proc.devRef .tc main_arg0)) (Vs c (Proc.devRef .tc main_v17)) (Vs c (Proc.devRef .tc main_v19)) (Vs c (Proc.devRef .tc main_v22)) :=
  (Pipeline.withArrays_arr spec0 launch0.win.arr_inj c _ _ 4).trans (RegA0.final (toV Vs) c)

/-- Region 1's step. -/
def step1 (c : Dev nD) : Valuation τ sig (Elt Ideal) :=
  Pipeline.withArrays spec1 c (Vs c) fun w => (dat1 (toV Vs) c).arrAt w cfg1.N

theorem step1_ne (c : Dev nD) (b : Ref sig .tc) (hb : ∀ w, Pipeline.arrRef spec1 w ≠ b) :
    step1 Vs c (no_index (Proc.devRef .tc b)) = Vs c (Proc.devRef .tc b) :=
  Pipeline.withArrays_of_ne spec1 c _ _ b hb

theorem step1_out_h (c : Dev nD) :
    step1 Vs c (no_index (Proc.devRef .tc main_v47_0))
      = GBh (Vs c (Proc.devRef .tc main_v23)) (Vs c (Proc.devRef .tc main_v42)) (Vs c (Proc.devRef .tc main_v43)) (Vs c (Proc.devRef .tc main_v44)) (Vs c (Proc.devRef .tc main_v45)) (Vs c (Proc.devRef .tc main_v39)) (Vs c (Proc.devRef .tc main_v46)) :=
  (Pipeline.withArrays_arr spec1 launch1.win.arr_inj c _ _ 8).trans (RegB1.final_h (toV Vs) c)

theorem step1_out_np (c : Dev nD) :
    step1 Vs c (no_index (Proc.devRef .tc main_v47_1))
      = GBnp (Vs c (Proc.devRef .tc main_v23)) (Vs c (Proc.devRef .tc main_v42)) (Vs c (Proc.devRef .tc main_v43)) (Vs c (Proc.devRef .tc main_v44)) (Vs c (Proc.devRef .tc main_v45)) (Vs c (Proc.devRef .tc main_v39)) (Vs c (Proc.devRef .tc main_v46)) (Vs c (Proc.devRef .tc main_v10)) :=
  (Pipeline.withArrays_arr spec1 launch1.win.arr_inj c _ _ 9).trans (RegB1.final_np (toV Vs) c)

/-- Region 2's step. -/
def step2 (c : Dev nD) : Valuation τ sig (Elt Ideal) :=
  Pipeline.withArrays spec2 c (Vs c) fun w => (dat2 (toV Vs) c).arrAt w cfg2.N

theorem step2_ne (c : Dev nD) (b : Ref sig .tc) (hb : ∀ w, Pipeline.arrRef spec2 w ≠ b) :
    step2 Vs c (no_index (Proc.devRef .tc b)) = Vs c (Proc.devRef .tc b) :=
  Pipeline.withArrays_of_ne spec2 c _ _ b hb

theorem step2_out (c : Dev nD) :
    step2 Vs c (no_index (Proc.devRef .tc main_v71))
      = GA (Vs c (Proc.devRef .tc main_v47_0)) (Vs c (Proc.devRef .tc main_v65)) (Vs c (Proc.devRef .tc main_v67)) (Vs c (Proc.devRef .tc main_v70)) :=
  (Pipeline.withArrays_arr spec2 launch2.win.arr_inj c _ _ 4).trans (RegA2.final (toV Vs) c)

/-- Region 3's step. -/
def step3 (c : Dev nD) : Valuation τ sig (Elt Ideal) :=
  Pipeline.withArrays spec3 c (Vs c) fun w => (dat3 (toV Vs) c).arrAt w cfg3.N

theorem step3_ne (c : Dev nD) (b : Ref sig .tc) (hb : ∀ w, Pipeline.arrRef spec3 w ≠ b) :
    step3 Vs c (no_index (Proc.devRef .tc b)) = Vs c (Proc.devRef .tc b) :=
  Pipeline.withArrays_of_ne spec3 c _ _ b hb

theorem step3_out_h (c : Dev nD) :
    step3 Vs c (no_index (Proc.devRef .tc main_v95_0))
      = GBh (Vs c (Proc.devRef .tc main_v71)) (Vs c (Proc.devRef .tc main_v90)) (Vs c (Proc.devRef .tc main_v91)) (Vs c (Proc.devRef .tc main_v92)) (Vs c (Proc.devRef .tc main_v93)) (Vs c (Proc.devRef .tc main_v87)) (Vs c (Proc.devRef .tc main_v94)) :=
  (Pipeline.withArrays_arr spec3 launch3.win.arr_inj c _ _ 8).trans (RegB3.final_h (toV Vs) c)

theorem step3_out_np (c : Dev nD) :
    step3 Vs c (no_index (Proc.devRef .tc main_v95_1))
      = GBnp (Vs c (Proc.devRef .tc main_v71)) (Vs c (Proc.devRef .tc main_v90)) (Vs c (Proc.devRef .tc main_v91)) (Vs c (Proc.devRef .tc main_v92)) (Vs c (Proc.devRef .tc main_v93)) (Vs c (Proc.devRef .tc main_v87)) (Vs c (Proc.devRef .tc main_v94)) (Vs c (Proc.devRef .tc main_v47_1)) :=
  (Pipeline.withArrays_arr spec3 launch3.win.arr_inj c _ _ 9).trans (RegB3.final_np (toV Vs) c)

/-- Region 4's step. -/
def step4 (c : Dev nD) : Valuation τ sig (Elt Ideal) :=
  Pipeline.withArrays spec4 c (Vs c) fun w => (dat4 (toV Vs) c).arrAt w cfg4.N

theorem step4_ne (c : Dev nD) (b : Ref sig .tc) (hb : ∀ w, Pipeline.arrRef spec4 w ≠ b) :
    step4 Vs c (no_index (Proc.devRef .tc b)) = Vs c (Proc.devRef .tc b) :=
  Pipeline.withArrays_of_ne spec4 c _ _ b hb

theorem step4_out (c : Dev nD) :
    step4 Vs c (no_index (Proc.devRef .tc main_v119))
      = GA (Vs c (Proc.devRef .tc main_v95_0)) (Vs c (Proc.devRef .tc main_v113)) (Vs c (Proc.devRef .tc main_v115)) (Vs c (Proc.devRef .tc main_v118)) :=
  (Pipeline.withArrays_arr spec4 launch4.win.arr_inj c _ _ 4).trans (RegA4.final (toV Vs) c)

/-- Region 5's step. -/
def step5 (c : Dev nD) : Valuation τ sig (Elt Ideal) :=
  Pipeline.withArrays spec5 c (Vs c) fun w => (dat5 (toV Vs) c).arrAt w cfg5.N

theorem step5_ne (c : Dev nD) (b : Ref sig .tc) (hb : ∀ w, Pipeline.arrRef spec5 w ≠ b) :
    step5 Vs c (no_index (Proc.devRef .tc b)) = Vs c (Proc.devRef .tc b) :=
  Pipeline.withArrays_of_ne spec5 c _ _ b hb

theorem step5_out_h (c : Dev nD) :
    step5 Vs c (no_index (Proc.devRef .tc main_v143_0))
      = GBh (Vs c (Proc.devRef .tc main_v119)) (Vs c (Proc.devRef .tc main_v138)) (Vs c (Proc.devRef .tc main_v139)) (Vs c (Proc.devRef .tc main_v140)) (Vs c (Proc.devRef .tc main_v141)) (Vs c (Proc.devRef .tc main_v135)) (Vs c (Proc.devRef .tc main_v142)) :=
  (Pipeline.withArrays_arr spec5 launch5.win.arr_inj c _ _ 8).trans (RegB5.final_h (toV Vs) c)

theorem step5_out_np (c : Dev nD) :
    step5 Vs c (no_index (Proc.devRef .tc main_v143_1))
      = GBnp (Vs c (Proc.devRef .tc main_v119)) (Vs c (Proc.devRef .tc main_v138)) (Vs c (Proc.devRef .tc main_v139)) (Vs c (Proc.devRef .tc main_v140)) (Vs c (Proc.devRef .tc main_v141)) (Vs c (Proc.devRef .tc main_v135)) (Vs c (Proc.devRef .tc main_v142)) (Vs c (Proc.devRef .tc main_v95_1)) :=
  (Pipeline.withArrays_arr spec5 launch5.win.arr_inj c _ _ 9).trans (RegB5.final_np (toV Vs) c)

/-- Region 6's step. -/
def step6 (c : Dev nD) : Valuation τ sig (Elt Ideal) :=
  Pipeline.withArrays spec6 c (Vs c) fun w => (dat6 (toV Vs) c).arrAt w cfg6.N

theorem step6_ne (c : Dev nD) (b : Ref sig .tc) (hb : ∀ w, Pipeline.arrRef spec6 w ≠ b) :
    step6 Vs c (no_index (Proc.devRef .tc b)) = Vs c (Proc.devRef .tc b) :=
  Pipeline.withArrays_of_ne spec6 c _ _ b hb

theorem step6_out (c : Dev nD) :
    step6 Vs c (no_index (Proc.devRef .tc main_v167))
      = GA (Vs c (Proc.devRef .tc main_v143_0)) (Vs c (Proc.devRef .tc main_v161)) (Vs c (Proc.devRef .tc main_v163)) (Vs c (Proc.devRef .tc main_v166)) :=
  (Pipeline.withArrays_arr spec6 launch6.win.arr_inj c _ _ 4).trans (RegA6.final (toV Vs) c)

/-- Region 7's step. -/
def step7 (c : Dev nD) : Valuation τ sig (Elt Ideal) :=
  Pipeline.withArrays spec7 c (Vs c) fun w => (dat7 (toV Vs) c).arrAt w cfg7.N

theorem step7_ne (c : Dev nD) (b : Ref sig .tc) (hb : ∀ w, Pipeline.arrRef spec7 w ≠ b) :
    step7 Vs c (no_index (Proc.devRef .tc b)) = Vs c (Proc.devRef .tc b) :=
  Pipeline.withArrays_of_ne spec7 c _ _ b hb

theorem step7_out_h (c : Dev nD) :
    step7 Vs c (no_index (Proc.devRef .tc main_v191_0))
      = GBh (Vs c (Proc.devRef .tc main_v167)) (Vs c (Proc.devRef .tc main_v186)) (Vs c (Proc.devRef .tc main_v187)) (Vs c (Proc.devRef .tc main_v188)) (Vs c (Proc.devRef .tc main_v189)) (Vs c (Proc.devRef .tc main_v183)) (Vs c (Proc.devRef .tc main_v190)) :=
  (Pipeline.withArrays_arr spec7 launch7.win.arr_inj c _ _ 8).trans (RegB7.final_h (toV Vs) c)

theorem step7_out_np (c : Dev nD) :
    step7 Vs c (no_index (Proc.devRef .tc main_v191_1))
      = GBnp (Vs c (Proc.devRef .tc main_v167)) (Vs c (Proc.devRef .tc main_v186)) (Vs c (Proc.devRef .tc main_v187)) (Vs c (Proc.devRef .tc main_v188)) (Vs c (Proc.devRef .tc main_v189)) (Vs c (Proc.devRef .tc main_v183)) (Vs c (Proc.devRef .tc main_v190)) (Vs c (Proc.devRef .tc main_v143_1)) :=
  (Pipeline.withArrays_arr spec7 launch7.win.arr_inj c _ _ 9).trans (RegB7.final_np (toV Vs) c)

end Cert.KernelIdeal.Step

end
-- ==== Proof.TakeRows.lean ====
/-
  Taking rows of a table by an index column whose every entry is in range.

  One program takes rows guardedly: an index is first wrapped (a negative one has the table's height added), then
  tested against the bounds 0 and height − 1, and a row whose index fails the test is filled with a constant instead of
  being read. The other reads the rows of the same wrapped column with no test. When every index already lies in
  [0, 50000) the wrap changes nothing, the test passes in every row, and the guarded take is the plain read.
-/
import Idealize.ShloMosaic.PureOps.Ideal
import Idealize.ShloMosaic.Lib.ValueIdx
import Idealize.ShloMosaic.Lib.StableHlo.Predicate
import Idealize.ShloMosaic.Lib.ReduceAll

noncomputable section

namespace Cert.TakeRows

open Idealize.ShloMosaic

/-! ## Words in [0, 50000) under the three signed comparisons -/

/-- A word whose signed value is not negative is not below zero. -/
theorem slt_zero_of_nonneg (a : BitVec 32) (h : 0 ≤ a.toInt) : IntOp.cmpi .slt a 0#32 = 0#1 := by
  have h0 : (0#32 : BitVec 32).toInt = 0 := by decide
  simp only [IntOp.cmpi, BitVec.slt, h0]
  rw [decide_eq_false (by omega)]
  rfl

/-- A word whose signed value is not negative is at least zero. -/
theorem sge_zero_of_nonneg (a : BitVec 32) (h : 0 ≤ a.toInt) : IntOp.cmpi .sge a 0#32 = 1#1 := by
  have h0 : (0#32 : BitVec 32).toInt = 0 := by decide
  simp only [IntOp.cmpi, BitVec.sle, h0]
  rw [decide_eq_true (by omega)]
  rfl

/-- A word whose signed value is below 50000 is at most 49999. -/
theorem sle_last_of_lt (a : BitVec 32) (h : a.toInt < 50000) : IntOp.cmpi .sle a 49999#32 = 1#1 := by
  have h0 : (49999#32 : BitVec 32).toInt = 49999 := by decide
  simp only [IntOp.cmpi, BitVec.sle, h0]
  rw [decide_eq_true (by omega)]
  rfl

/-! ## A conjunction of ones is one -/

/-- A left fold by and, from 1, over bits that are all 1, is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    rw [List.foldl_cons]
    refine foldl_andi_one f l _ ?_ (fun n hn => hl n (List.mem_cons_of_mem _ hn))
    rw [hi, hl a List.mem_cons_self]; rfl

/-- A reduction by and, from 1, of an array of ones is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl]
  exact foldl_andi_one x _ _ (hinit _) (fun n _ => hx n)

/-! ## The wrap and the guarded take -/

/-- Wrapping leaves an index column in [0, 50000) as it is: no entry is negative, so none has the height added. -/
theorem wrap_id (hs : (⟨0, ![]⟩ : Shape).BroadcastsInDim ⟨1, ![800000]⟩ ![])
    (idx : IVec ⟨1, ![800000]⟩ 32) (hr : ∀ e, 0 ≤ (idx e).toInt ∧ (idx e).toInt < 50000) :
    select (cmpi .slt idx (broadcastInDim ⟨1, ![800000]⟩ ![] hs (constantI ⟨0, ![]⟩ 32 0#32)))
        (addi idx (broadcastInDim ⟨1, ![800000]⟩ ![] hs (constantI ⟨0, ![]⟩ 32 50000#32))) idx = idx := by
  funext e
  show Scalar.select (IntOp.cmpi .slt (idx e) 0#32) _ (idx e) = idx e
  rw [slt_zero_of_nonneg _ (hr e).1]
  rfl

/-- The guarded take of rows by an index column in [0, 50000) is the plain read of the wrapped column's rows: every
    row passes the bounds test, so no row is filled. -/
theorem take_eq_gather {F : FTy → Type} [FloatOps F]
    (g : GatherDims ⟨2, ![50000, 128]⟩ ⟨2, ![800000, 1]⟩ ⟨2, ![800000, 128]⟩)
    (hs : (⟨0, ![]⟩ : Shape).BroadcastsInDim ⟨1, ![800000]⟩ ![])
    (hcol : (⟨1, ![800000]⟩ : Shape).BroadcastsInDim ⟨2, ![800000, 1]⟩ ![0])
    (hs2 : (⟨0, ![]⟩ : Shape).BroadcastsInDim ⟨2, ![800000, 1]⟩ ![])
    (h11 : (⟨1, ![1]⟩ : Shape).BroadcastsInDim ⟨2, ![1, 1]⟩ ![1])
    (h1c : (⟨2, ![1, 1]⟩ : Shape).BroadcastsInDim ⟨2, ![800000, 1]⟩ ![0, 1])
    (hred : (⟨2, ![800000, 1]⟩ : Shape).ReducesTo [1] ⟨1, ![800000]⟩)
    (h0 : 0 < (⟨0, ![]⟩ : Shape).numel)
    (hm : (⟨1, ![800000]⟩ : Shape).BroadcastsInDim ⟨2, ![800000, 128]⟩ ![0])
    (hn : (⟨0, ![]⟩ : Shape).BroadcastsInDim ⟨2, ![800000, 128]⟩ ![])
    (h : FVec F ⟨2, ![50000, 128]⟩ .f32) (idx : IVec ⟨1, ![800000]⟩ 32)
    (hr : ∀ e, 0 ≤ (idx e).toInt ∧ (idx e).toInt < 50000) :
    select
        (broadcastInDim ⟨2, ![800000, 128]⟩ ![0] hm
          (Host.reduce IntOp.andi
            (andi
              (cmpi .sge
                (broadcastInDim ⟨2, ![800000, 1]⟩ ![0] hcol
                  (select (cmpi .slt idx (broadcastInDim ⟨1, ![800000]⟩ ![] hs (constantI ⟨0, ![]⟩ 32 0#32)))
                    (addi idx (broadcastInDim ⟨1, ![800000]⟩ ![] hs (constantI ⟨0, ![]⟩ 32 50000#32))) idx))
                (broadcastInDim ⟨2, ![800000, 1]⟩ ![] hs2 (constantI ⟨0, ![]⟩ 32 0#32)))
              (cmpi .sle
                (broadcastInDim ⟨2, ![800000, 1]⟩ ![0] hcol
                  (select (cmpi .slt idx (broadcastInDim ⟨1, ![800000]⟩ ![] hs (constantI ⟨0, ![]⟩ 32 0#32)))
                    (addi idx (broadcastInDim ⟨1, ![800000]⟩ ![] hs (constantI ⟨0, ![]⟩ 32 50000#32))) idx))
                (broadcastInDim ⟨2, ![800000, 1]⟩ ![0, 1] h1c
                  (broadcastInDim ⟨2, ![1, 1]⟩ ![1] h11 (constantI ⟨1, ![1]⟩ 32 49999#32)))))
            (constantI ⟨0, ![]⟩ 1 1#1) hred h0))
        (Host.gather g h
          (broadcastInDim ⟨2, ![800000, 1]⟩ ![0] hcol
            (select (cmpi .slt idx (broadcastInDim ⟨1, ![800000]⟩ ![] hs (constantI ⟨0, ![]⟩ 32 0#32)))
              (addi idx (broadcastInDim ⟨1, ![800000]⟩ ![] hs (constantI ⟨0, ![]⟩ 32 50000#32))) idx)))
        (broadcastInDim ⟨2, ![800000, 128]⟩ ![] hn (constant (F := F) ⟨0, ![]⟩ .f32 0x7FC00000#32))
      = Host.gather g h
          (broadcastInDim ⟨2, ![800000, 1]⟩ ![0] hcol
            (select (cmpi .slt idx (broadcastInDim ⟨1, ![800000]⟩ ![] hs (constantI ⟨0, ![]⟩ 32 0#32)))
              (addi idx (broadcastInDim ⟨1, ![800000]⟩ ![] hs (constantI ⟨0, ![]⟩ 32 50000#32))) idx)) := by
  rw [wrap_id hs idx hr]
  funext j
  have hmask : ∀ k, Host.reduce IntOp.andi
      (andi
        (cmpi .sge (broadcastInDim ⟨2, ![800000, 1]⟩ ![0] hcol idx)
          (broadcastInDim ⟨2, ![800000, 1]⟩ ![] hs2 (constantI ⟨0, ![]⟩ 32 0#32)))
        (cmpi .sle (broadcastInDim ⟨2, ![800000, 1]⟩ ![0] hcol idx)
          (broadcastInDim ⟨2, ![800000, 1]⟩ ![0, 1] h1c
            (broadcastInDim ⟨2, ![1, 1]⟩ ![1] h11 (constantI ⟨1, ![1]⟩ 32 49999#32)))))
      (constantI ⟨0, ![]⟩ 1 1#1) hred h0 k = 1#1 := by
    intro k
    refine reduce_andi_one _ _ hred h0 ?_ (fun _ => rfl) k
    intro i
    show IntOp.andi (IntOp.cmpi .sge (idx _) 0#32) (IntOp.cmpi .sle (idx _) 49999#32) = 1#1
    rw [sge_zero_of_nonneg _ (hr _).1, sle_last_of_lt _ (hr _).2]
    rfl
  show Scalar.select (Host.reduce IntOp.andi _ _ hred h0 _) _ _ = _
  rw [hmask]
  rfl

end Cert.TakeRows

end
-- ==== Proof.HostChains.lean ====
/-
  The reference's two dense stages, written as chains of whole-array operations, are the whole-array functions of
  the layer, over the extended reals.

  The reference lays a vector of 128 features along every one of the 50000 rows in two moves: first as a one-row
  matrix, then that row repeated down the rows. Read at (r, j) the result is the vector's entry j; the one-row
  matrix the specification carries reads the same entry at (0, j). A scalar laid over any array reads the scalar
  everywhere, and the matrix product read at (r, j) is the sum over k of the products of row r and column j.
  With these four reads every entry of either chain is, term by term, the entry the specification names.
-/
import proofs.«417867_j28183575396971_1_alg».proof.Proof.RegionFns
import proofs.«417867_j28183575396971_1_alg».proof.Proof.LibContract
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.HostChains

open Idealize.ShloMosaic Idealize.ShloMosaic.ValueIdx Cert.RegionFns
open scoped BigOperators

/-- A vector of 128 features. -/
abbrev V128 : Shape := ⟨1, ![128]⟩
/-- The shape of a scalar. -/
abbrev S0 : Shape := ⟨0, ![]⟩

/-! ## A vector laid along the rows, and the same vector as a one-row matrix -/

section Reads
variable {α : Type}

/-- A vector laid out as a one-row matrix reads, at (u, k), its entry k. -/
theorem row_apply (hb1 : V128.BroadcastsInDim RD ![1]) (x : V128.Idx → α) (u : Fin 1) (k : Fin 128) :
    broadcastInDim RD ![1] hb1 x (ix2 u k) = x (ix1 k) := by
  refine broadcastInDim_apply ![1] hb1 x (ix2 u k) (ix1 k) fun a => ?_
  match a with
  | ⟨0, _⟩ =>
    show k.val = if (128 : ℕ) = 1 then 0 else k.val
    exact (if_neg (by decide)).symm

/-- A vector laid along each of the 50000 rows reads, at (r, j), its entry j. -/
theorem rows_apply (hb1 : V128.BroadcastsInDim RD ![1]) (hb2 : RD.BroadcastsInDim ND ![0, 1]) (x : V128.Idx → α)
    (r : Fin 50000) (j : Fin 128) :
    broadcastInDim ND ![0, 1] hb2 (broadcastInDim RD ![1] hb1 x) (ix2 r j) = x (ix1 j) :=
  (broadcastInDim_oneRow_apply hb2 _ r j).trans (row_apply hb1 x 0 j)

/-- The same vector recast as a one-row matrix reads, at (0, k), its entry k. -/
theorem cast_apply (hc : V128.ShapeCasts RD) (x : V128.Idx → α) (k : Fin 128) :
    shapeCast RD x hc (ix2 0 k) = x (ix1 k) :=
  shapeCast_a_1a_apply x hc 0 k

end Reads

/-! ## The two stages -/

section Chains
variable (d : DotDims ND DD ND) (hlc : d.lhsContracting = [1]) (hrc : d.rhsContracting = [0])
  (hln : d.lhsNonContracting = [0]) (hrn : d.rhsNonContracting = [1]) (hlb : d.lhsBatch = []) (hrb : d.rhsBatch = [])
  (hb1 : V128.BroadcastsInDim RD ![1]) (hb2 : RD.BroadcastsInDim ND ![0, 1]) (hc : V128.ShapeCasts RD)
  (hs : S0.BroadcastsInDim V128 ![]) (hsN : S0.BroadcastsInDim ND ![])

include hlc hrc hln hrn hlb hrb

/-- The first stage: the product of `h + agg` with the weights, plus the bias laid along the rows, is
    `(h + agg) · W + b` entry by entry. -/
theorem hostA (h agg : FVec Ideal ND .f32) (w : FVec Ideal DD .f32) (b : FVec Ideal V128 .f32) :
    addf (Host.dotGeneral d none (addf h agg) w) (broadcastInDim ND ![0, 1] hb2 (broadcastInDim RD ![1] hb1 b))
      = GA h agg w (shapeCast RD b hc) := by
  funext i
  obtain ⟨r, j, rfl⟩ : ∃ (r : Fin 50000) (j : Fin 128), i = ix2 r j := ⟨i 0, i 1, eq_ix2 i⟩
  rw [GA_apply]
  unfold linA
  rw [addf_apply, Cert.LibContract.dotGeneral_plain d hlc hrc hln hrn hlb hrb, rows_apply hb1 hb2, cast_apply hc]
  rfl

omit hlc hrc hln hrn hlb hrb in
/-- The normalised, scaled, shifted and rectified activations, read at (r, k): each row vector is read at k, the
    variance offset and the zero of the rectifier are scalars read everywhere, and the host's reciprocal square
    root is the extended reals'. -/
theorem act_apply (z : FVec Ideal ND .f32) (mu var g be : FVec Ideal V128 .f32) (r : Fin 50000) (k : Fin 128) :
    (maximumf
            (addf
              (mulf (mulf (broadcastInDim ND ![0, 1] hb2 (broadcastInDim RD ![1] hb1 g)) (subf z (broadcastInDim ND ![0, 1] hb2 (broadcastInDim RD ![1] hb1 mu))))
                (broadcastInDim ND ![0, 1] hb2 (broadcastInDim RD ![1] hb1 (Host.rsqrt (addf var (broadcastInDim V128 ![] hs (constant (F := Ideal) S0 .f32 0x3727C5AC#32)))))))
              (broadcastInDim ND ![0, 1] hb2 (broadcastInDim RD ![1] hb1 be)))
            (broadcastInDim ND ![] hsN (constant (F := Ideal) S0 .f32 0x00000000#32))) (ix2 r k)
      = act z (shapeCast RD mu hc) (shapeCast RD var hc) (shapeCast RD g hc) (shapeCast RD be hc) r k := by
  unfold act
  rw [maximumf_apply, addf_apply, mulf_apply, mulf_apply, subf_apply, rows_apply hb1 hb2 g, rows_apply hb1 hb2 mu,
    rows_apply hb1 hb2 be, rows_apply hb1 hb2, broadcastInDim_scalar_apply hsN, cast_apply hc g, cast_apply hc mu,
    cast_apply hc be, cast_apply hc var]
  show _ = max (g (ix1 k) * (z (ix2 r k) - mu (ix1 k)) * Ideal.rsqrt (var (ix1 k) + eps) + be (ix1 k))
    (Ideal.ofBits .f32 0x00000000#32)
  rw [show Host.rsqrt (addf var (broadcastInDim V128 ![] hs (constant (F := Ideal) S0 .f32 0x3727C5AC#32))) (ix1 k)
      = Ideal.rsqrt (var (ix1 k) + eps) from by
    show FloatOps.hostUnary .rsqrt _ = _
    rw [Ideal.hostUnary_rsqrt_def, addf_apply, broadcastInDim_scalar_apply hs]
    rfl]
  rfl

/-- The second stage: the product of the activations with the weights, plus the bias laid along the rows, is
    `act · W + b` entry by entry. -/
theorem hostB_h (z : FVec Ideal ND .f32) (mu var g be b : FVec Ideal V128 .f32) (w : FVec Ideal DD .f32) :
    addf (Host.dotGeneral d none
          (maximumf
            (addf
              (mulf (mulf (broadcastInDim ND ![0, 1] hb2 (broadcastInDim RD ![1] hb1 g)) (subf z (broadcastInDim ND ![0, 1] hb2 (broadcastInDim RD ![1] hb1 mu))))
                (broadcastInDim ND ![0, 1] hb2 (broadcastInDim RD ![1] hb1 (Host.rsqrt (addf var (broadcastInDim V128 ![] hs (constant (F := Ideal) S0 .f32 0x3727C5AC#32)))))))
              (broadcastInDim ND ![0, 1] hb2 (broadcastInDim RD ![1] hb1 be)))
            (broadcastInDim ND ![] hsN (constant (F := Ideal) S0 .f32 0x00000000#32)))
          w) (broadcastInDim ND ![0, 1] hb2 (broadcastInDim RD ![1] hb1 b))
      = GBh z (shapeCast RD mu hc) (shapeCast RD var hc) (shapeCast RD g hc) (shapeCast RD be hc) w
          (shapeCast RD b hc) := by
  funext i
  obtain ⟨r, j, rfl⟩ : ∃ (r : Fin 50000) (j : Fin 128), i = ix2 r j := ⟨i 0, i 1, eq_ix2 i⟩
  rw [GBh_apply]
  unfold linB
  rw [addf_apply, Cert.LibContract.dotGeneral_plain d hlc hrc hln hrn hlb hrb, rows_apply hb1 hb2, cast_apply hc]
  congr 1
  exact Finset.sum_congr rfl fun k _ => congrArg (· * w (ix2 k j)) (act_apply hb1 hb2 hc hs hsN z mu var g be r k)

/-- The node pool after the layer: what it held plus the second stage. -/
theorem hostB_np (np z : FVec Ideal ND .f32) (mu var g be b : FVec Ideal V128 .f32) (w : FVec Ideal DD .f32) :
    addf np
        (addf (Host.dotGeneral d none
          (maximumf
            (addf
              (mulf (mulf (broadcastInDim ND ![0, 1] hb2 (broadcastInDim RD ![1] hb1 g)) (subf z (broadcastInDim ND ![0, 1] hb2 (broadcastInDim RD ![1] hb1 mu))))
                (broadcastInDim ND ![0, 1] hb2 (broadcastInDim RD ![1] hb1 (Host.rsqrt (addf var (broadcastInDim V128 ![] hs (constant (F := Ideal) S0 .f32 0x3727C5AC#32)))))))
              (broadcastInDim ND ![0, 1] hb2 (broadcastInDim RD ![1] hb1 be)))
            (broadcastInDim ND ![] hsN (constant (F := Ideal) S0 .f32 0x00000000#32)))
          w) (broadcastInDim ND ![0, 1] hb2 (broadcastInDim RD ![1] hb1 b)))
      = GBnp z (shapeCast RD mu hc) (shapeCast RD var hc) (shapeCast RD g hc) (shapeCast RD be hc) w
          (shapeCast RD b hc) np := by
  rw [hostB_h d hlc hrc hln hrn hlb hrb hb1 hb2 hc hs hsN z mu var g be b w]
  funext i
  obtain ⟨r, j, rfl⟩ : ∃ (r : Fin 50000) (j : Fin 128), i = ix2 r j := ⟨i 0, i 1, eq_ix2 i⟩
  rfl

end Chains

end Cert.HostChains

end
-- ==== Proof.SimL0.lean ====
/-
  Layer 1 of the network, run side by side in the two programs. From contents that share the layer's inputs, the
  kernel's program (gather and aggregate on the host, the first pallas_call, the column statistics on the host, the second
  pallas_call, the per-graph mean on the host) and the reference's 88 host operations arrive at contents that share
  the layer's outputs. Three steps: up to `z₁ = (h + agg) · W₁ + b₁` (the kernel's guarded row gather is the plain one
  because every source index is in range, and the first pallas_call's array is the host's `add, dot, add`); up to the new
  features and the node pool (the second pallas_call's arrays are the host's normalise, rectify, dot, add chain); the
  graph pool (the same host operations on both sides). Every other buffer is carried across unchanged.
-/
import proofs.«417867_j28183575396971_1_alg».proof.Proof.SimRel
import proofs.«417867_j28183575396971_1_alg».proof.Proof.KRegStep
import proofs.«417867_j28183575396971_1_alg».proof.Proof.RefStages
import proofs.«417867_j28183575396971_1_alg».proof.Proof.TakeRows
import proofs.«417867_j28183575396971_1_alg».proof.Proof.HostChains

set_option maxRecDepth 16384

noncomputable section

namespace Cert.Sim.L0

open Idealize.ShloMosaic Idealize.ShloMosaic.TcCoe Idealize.ShloMosaic.StableHlo Idealize.SL.Sem

variable (src : IVec ⟨1, ![800000]⟩ 32) (hr : ∀ e, 0 ≤ (src e).toInt ∧ (src e).toInt < 50000)
variable (Vs : Dev Cert.KernelIdeal.nD → Valuation Cert.KernelIdeal.τ Cert.KernelIdeal.sig (Elt Ideal)) (Vr : Valuation Cert.ReferenceIdeal.τ Cert.ReferenceIdeal.sig (Elt Ideal)) (c : Dev Cert.KernelIdeal.nD)

/-- The contents once `z₁` is there: the relation at the layer's start with `z₁` in place of `h`. -/
structure RelA (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  z1 : Vk (Proc.devRef .tc Cert.KernelIdeal.main_v23) = Vr (Proc.devRef .tc Cert.ReferenceIdeal.main_v32)
  np : Vk (Proc.devRef .tc Cert.KernelIdeal.main_v10) = Vr (Proc.devRef .tc Cert.ReferenceIdeal.main_v10)
  gp : Vk (Proc.devRef .tc Cert.KernelIdeal.main_v11) = Vr (Proc.devRef .tc Cert.ReferenceIdeal.main_v11)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

/-- The contents once the new features and the new node pool are there. -/
structure RelB (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  h : Vk (Proc.devRef .tc Cert.KernelIdeal.main_v47_0) = Vr (Proc.devRef .tc Cert.ReferenceIdeal.main_v70)
  np : Vk (Proc.devRef .tc Cert.KernelIdeal.main_v47_1) = Vr (Proc.devRef .tc Cert.ReferenceIdeal.main_v71)
  gp : Vk (Proc.devRef .tc Cert.KernelIdeal.main_v11) = Vr (Proc.devRef .tc Cert.ReferenceIdeal.main_v11)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

set_option maxHeartbeats 8000000 in
include hr in
/-- Up to the first dense stage. -/
theorem stepA (H : RelStart0 src (Vs c) Vr) : RelA src ((Cert.KernelIdeal.Step.step0 (fun c => after Cert.KernelIdeal.Gen.hostOps0_4 (after Cert.KernelIdeal.Gen.hostOps0_3 (Vs c)))) c) (after Cert.ReferenceIdeal.Stages.S2_0 (after Cert.ReferenceIdeal.Stages.S1_0 Vr)) where
  z1 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.h, H.srcK, H.srcR, H.dst, H.deg, H.a3, H.a4]
    rw [Cert.TakeRows.take_eq_gather (F := Ideal) Cert.KernelIdeal.gather_S50000x128_S800000x1_S800000x128_1_0_n_n_0_1_1128 Cert.KernelIdeal.Gen.bcast_S_S800000 Cert.KernelIdeal.Gen.bcast_S800000_S800000x1_0 Cert.KernelIdeal.Gen.bcast_S_S800000x1 Cert.KernelIdeal.Gen.bcast_S1_S1x1_1 Cert.KernelIdeal.Gen.bcast_S1x1_S800000x1_0_1 Cert.KernelIdeal.Gen.reducesTo_S800000x1_S800000_d1 Cert.KernelIdeal.Gen.h_S_ Cert.KernelIdeal.Gen.bcast_S800000_S800000x128_0 Cert.KernelIdeal.Gen.bcast_S_S800000x128 _ _ hr]
    rw [Cert.HostChains.hostA Cert.ReferenceIdeal.dot_S50000x128_S128x128_S50000x128_1_0_0_1_n_n rfl rfl rfl rfl rfl rfl Cert.ReferenceIdeal.Gen.bcast_S128_S1x128_1 Cert.ReferenceIdeal.Gen.bcast_S1x128_S50000x128_0_1 Cert.KernelIdeal.Gen.shapeCasts_S128_S1x128]
    rfl
  np := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.np
  gp := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.gp
  srcK := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcK
  srcR := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcR
  dst := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.dst
  deg := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.deg
  a2 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a2
  a3 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a3
  a4 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a4
  a5 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a5
  a6 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a6
  a7 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a7
  a8 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a8

set_option maxHeartbeats 8000000 in
/-- Up to the second dense stage and the node pool. -/
theorem stepB (H : RelA src (Vs c) Vr) : RelB src ((Cert.KernelIdeal.Step.step1 (fun c => after Cert.KernelIdeal.Gen.hostOps1 (Vs c))) c) (after Cert.ReferenceIdeal.Stages.S4_0 (after Cert.ReferenceIdeal.Stages.S3_0 Vr)) where
  h := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.z1, H.a5, H.a6, H.a7, H.a8]
    rw [Cert.HostChains.hostB_h Cert.ReferenceIdeal.dot_S50000x128_S128x128_S50000x128_1_0_0_1_n_n rfl rfl rfl rfl rfl rfl Cert.ReferenceIdeal.Gen.bcast_S128_S1x128_1 Cert.ReferenceIdeal.Gen.bcast_S1x128_S50000x128_0_1 Cert.KernelIdeal.Gen.shapeCasts_S128_S1x128 Cert.ReferenceIdeal.Gen.bcast_S_S128 Cert.ReferenceIdeal.Gen.bcast_S_S50000x128]
    rfl
  np := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.z1, H.np, H.a5, H.a6, H.a7, H.a8]
    rw [Cert.HostChains.hostB_np Cert.ReferenceIdeal.dot_S50000x128_S128x128_S50000x128_1_0_0_1_n_n rfl rfl rfl rfl rfl rfl Cert.ReferenceIdeal.Gen.bcast_S128_S1x128_1 Cert.ReferenceIdeal.Gen.bcast_S1x128_S50000x128_0_1 Cert.KernelIdeal.Gen.shapeCasts_S128_S1x128 Cert.ReferenceIdeal.Gen.bcast_S_S128 Cert.ReferenceIdeal.Gen.bcast_S_S50000x128]
    rfl
  gp := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.gp
  srcK := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcK
  srcR := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcR
  dst := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.dst
  deg := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.deg
  a2 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a2
  a3 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a3
  a4 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a4
  a5 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a5
  a6 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a6
  a7 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a7
  a8 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a8

set_option maxHeartbeats 8000000 in
/-- The graph pool, and with it the layer's end. -/
theorem stepC (H : RelB src (Vs c) Vr) : RelStart1 src (after Cert.KernelIdeal.Gen.hostOps2_2 (after Cert.KernelIdeal.Gen.hostOps2_1 (after Cert.KernelIdeal.Gen.hostOps2 (Vs c)))) (after Cert.ReferenceIdeal.Stages.S5_0 Vr) where
  gp := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.h, H.gp, H.a2]
    rfl
  h := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.h
  np := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.np
  srcK := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcK
  srcR := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcR
  dst := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.dst
  deg := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.deg
  a2 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a2
  a3 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a3
  a4 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a4
  a5 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a5
  a6 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a6
  a7 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a7
  a8 := by
    conv_lhs => simp (disch := decide) only [Cert.KernelIdeal.Step.step0_out, Cert.KernelIdeal.Step.step0_ne, Cert.KernelIdeal.Step.step1_out_h, Cert.KernelIdeal.Step.step1_out_np, Cert.KernelIdeal.Step.step1_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a8

set_option maxHeartbeats 8000000 in
include hr in
/-- The whole layer. -/
theorem layer (H : RelStart0 src (Vs c) Vr) :
    RelStart1 src
      (after Cert.KernelIdeal.Gen.hostOps2_2 (after Cert.KernelIdeal.Gen.hostOps2_1 (after Cert.KernelIdeal.Gen.hostOps2
        (Cert.KernelIdeal.Step.step1 (fun c => after Cert.KernelIdeal.Gen.hostOps1 ((Cert.KernelIdeal.Step.step0 (fun c => after Cert.KernelIdeal.Gen.hostOps0_4 (after Cert.KernelIdeal.Gen.hostOps0_3 (Vs c)))) c)) c))))
      (after Cert.ReferenceIdeal.RunP.opsL0 Vr) := by
  rw [Cert.ReferenceIdeal.Stages.after_opsL0]
  exact stepC src (Cert.KernelIdeal.Step.step1 (fun c => after Cert.KernelIdeal.Gen.hostOps1 ((Cert.KernelIdeal.Step.step0 (fun c => after Cert.KernelIdeal.Gen.hostOps0_4 (after Cert.KernelIdeal.Gen.hostOps0_3 (Vs c)))) c))) _ c
    (stepB src (fun c => (Cert.KernelIdeal.Step.step0 (fun c => after Cert.KernelIdeal.Gen.hostOps0_4 (after Cert.KernelIdeal.Gen.hostOps0_3 (Vs c)))) c) _ c (stepA src hr Vs Vr c H))

end Cert.Sim.L0

end
-- ==== Proof.SimL1.lean ====
/-
  Layer 2 of the network, run side by side in the two programs. From contents that share the layer's inputs, the
  kernel's program (gather and aggregate on the host, the first pallas_call, the column statistics on the host, the second
  pallas_call, the per-graph mean on the host) and the reference's 88 host operations arrive at contents that share
  the layer's outputs. Three steps: up to `z₁ = (h + agg) · W₁ + b₁` (the kernel's guarded row gather is the plain one
  because every source index is in range, and the first pallas_call's array is the host's `add, dot, add`); up to the new
  features and the node pool (the second pallas_call's arrays are the host's normalise, rectify, dot, add chain); the
  graph pool (the same host operations on both sides). Every other buffer is carried across unchanged.
-/
import proofs.«417867_j28183575396971_1_alg».proof.Proof.SimRel
import proofs.«417867_j28183575396971_1_alg».proof.Proof.KRegStep
import proofs.«417867_j28183575396971_1_alg».proof.Proof.RefStages
import proofs.«417867_j28183575396971_1_alg».proof.Proof.TakeRows
import proofs.«417867_j28183575396971_1_alg».proof.Proof.HostChains

set_option maxRecDepth 16384

noncomputable section

namespace Cert.Sim.L1

open Idealize.ShloMosaic Idealize.ShloMosaic.TcCoe Idealize.ShloMosaic.StableHlo Idealize.SL.Sem

variable (src : IVec ⟨1, ![800000]⟩ 32) (hr : ∀ e, 0 ≤ (src e).toInt ∧ (src e).toInt < 50000)
variable (Vs : Dev Cert.KernelIdeal.nD → Valuation Cert.KernelIdeal.τ Cert.KernelIdeal.sig (Elt Ideal)) (Vr : Valuation Cert.ReferenceIdeal.τ Cert.ReferenceIdeal.sig (Elt Ideal)) (c : Dev Cert.KernelIdeal.nD)

/-- The contents once `z₁` is there: the relation at the layer's start with `z₁` in place of `h`. -/
structure RelA (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  z1 : Vk (Proc.devRef .tc Cert.KernelIdeal.main_v71) = Vr (Proc.devRef .tc Cert.ReferenceIdeal.main_v104)
  np : Vk (Proc.devRef .tc Cert.KernelIdeal.main_v47_1) = Vr (Proc.devRef .tc Cert.ReferenceIdeal.main_v71)
  gp : Vk (Proc.devRef .tc Cert.KernelIdeal.main_v59) = Vr (Proc.devRef .tc Cert.ReferenceIdeal.main_v83)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

/-- The contents once the new features and the new node pool are there. -/
structure RelB (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  h : Vk (Proc.devRef .tc Cert.KernelIdeal.main_v95_0) = Vr (Proc.devRef .tc Cert.ReferenceIdeal.main_v142)
  np : Vk (Proc.devRef .tc Cert.KernelIdeal.main_v95_1) = Vr (Proc.devRef .tc Cert.ReferenceIdeal.main_v143)
  gp : Vk (Proc.devRef .tc Cert.KernelIdeal.main_v59) = Vr (Proc.devRef .tc Cert.ReferenceIdeal.main_v83)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

set_option maxHeartbeats 8000000 in
include hr in
/-- Up to the first dense stage. -/
theorem stepA (H : RelStart1 src (Vs c) Vr) : RelA src ((Cert.KernelIdeal.Step.step2 (fun c => after Cert.KernelIdeal.Gen.hostOps2_4 (after Cert.KernelIdeal.Gen.hostOps2_3 (Vs c)))) c) (after Cert.ReferenceIdeal.Stages.S2_1 (after Cert.ReferenceIdeal.Stages.S1_1 Vr)) where
  z1 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.h, H.srcK, H.srcR, H.dst, H.deg, H.a3, H.a4]
    rw [Cert.TakeRows.take_eq_gather (F := Ideal) Cert.KernelIdeal.gather_S50000x128_S800000x1_S800000x128_1_0_n_n_0_1_1128 Cert.KernelIdeal.Gen.bcast_S_S800000 Cert.KernelIdeal.Gen.bcast_S800000_S800000x1_0 Cert.KernelIdeal.Gen.bcast_S_S800000x1 Cert.KernelIdeal.Gen.bcast_S1_S1x1_1 Cert.KernelIdeal.Gen.bcast_S1x1_S800000x1_0_1 Cert.KernelIdeal.Gen.reducesTo_S800000x1_S800000_d1 Cert.KernelIdeal.Gen.h_S_ Cert.KernelIdeal.Gen.bcast_S800000_S800000x128_0 Cert.KernelIdeal.Gen.bcast_S_S800000x128 _ _ hr]
    rw [Cert.HostChains.hostA Cert.ReferenceIdeal.dot_S50000x128_S128x128_S50000x128_1_0_0_1_n_n rfl rfl rfl rfl rfl rfl Cert.ReferenceIdeal.Gen.bcast_S128_S1x128_1 Cert.ReferenceIdeal.Gen.bcast_S1x128_S50000x128_0_1 Cert.KernelIdeal.Gen.shapeCasts_S128_S1x128]
    rfl
  np := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.np
  gp := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.gp
  srcK := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcK
  srcR := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcR
  dst := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.dst
  deg := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.deg
  a2 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a2
  a3 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a3
  a4 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a4
  a5 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a5
  a6 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a6
  a7 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a7
  a8 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a8

set_option maxHeartbeats 8000000 in
/-- Up to the second dense stage and the node pool. -/
theorem stepB (H : RelA src (Vs c) Vr) : RelB src ((Cert.KernelIdeal.Step.step3 (fun c => after Cert.KernelIdeal.Gen.hostOps3 (Vs c))) c) (after Cert.ReferenceIdeal.Stages.S4_1 (after Cert.ReferenceIdeal.Stages.S3_1 Vr)) where
  h := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.z1, H.a5, H.a6, H.a7, H.a8]
    rw [Cert.HostChains.hostB_h Cert.ReferenceIdeal.dot_S50000x128_S128x128_S50000x128_1_0_0_1_n_n rfl rfl rfl rfl rfl rfl Cert.ReferenceIdeal.Gen.bcast_S128_S1x128_1 Cert.ReferenceIdeal.Gen.bcast_S1x128_S50000x128_0_1 Cert.KernelIdeal.Gen.shapeCasts_S128_S1x128 Cert.ReferenceIdeal.Gen.bcast_S_S128 Cert.ReferenceIdeal.Gen.bcast_S_S50000x128]
    rfl
  np := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.z1, H.np, H.a5, H.a6, H.a7, H.a8]
    rw [Cert.HostChains.hostB_np Cert.ReferenceIdeal.dot_S50000x128_S128x128_S50000x128_1_0_0_1_n_n rfl rfl rfl rfl rfl rfl Cert.ReferenceIdeal.Gen.bcast_S128_S1x128_1 Cert.ReferenceIdeal.Gen.bcast_S1x128_S50000x128_0_1 Cert.KernelIdeal.Gen.shapeCasts_S128_S1x128 Cert.ReferenceIdeal.Gen.bcast_S_S128 Cert.ReferenceIdeal.Gen.bcast_S_S50000x128]
    rfl
  gp := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.gp
  srcK := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcK
  srcR := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcR
  dst := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.dst
  deg := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.deg
  a2 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a2
  a3 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a3
  a4 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a4
  a5 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a5
  a6 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a6
  a7 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a7
  a8 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a8

set_option maxHeartbeats 8000000 in
/-- The graph pool, and with it the layer's end. -/
theorem stepC (H : RelB src (Vs c) Vr) : RelStart2 src (after Cert.KernelIdeal.Gen.hostOps4_2 (after Cert.KernelIdeal.Gen.hostOps4_1 (after Cert.KernelIdeal.Gen.hostOps4 (Vs c)))) (after Cert.ReferenceIdeal.Stages.S5_1 Vr) where
  gp := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.h, H.gp, H.a2]
    rfl
  h := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.h
  np := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.np
  srcK := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcK
  srcR := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcR
  dst := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.dst
  deg := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.deg
  a2 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a2
  a3 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a3
  a4 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a4
  a5 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a5
  a6 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a6
  a7 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a7
  a8 := by
    conv_lhs => simp (disch := decide) only [Cert.KernelIdeal.Step.step2_out, Cert.KernelIdeal.Step.step2_ne, Cert.KernelIdeal.Step.step3_out_h, Cert.KernelIdeal.Step.step3_out_np, Cert.KernelIdeal.Step.step3_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a8

set_option maxHeartbeats 8000000 in
include hr in
/-- The whole layer. -/
theorem layer (H : RelStart1 src (Vs c) Vr) :
    RelStart2 src
      (after Cert.KernelIdeal.Gen.hostOps4_2 (after Cert.KernelIdeal.Gen.hostOps4_1 (after Cert.KernelIdeal.Gen.hostOps4
        (Cert.KernelIdeal.Step.step3 (fun c => after Cert.KernelIdeal.Gen.hostOps3 ((Cert.KernelIdeal.Step.step2 (fun c => after Cert.KernelIdeal.Gen.hostOps2_4 (after Cert.KernelIdeal.Gen.hostOps2_3 (Vs c)))) c)) c))))
      (after Cert.ReferenceIdeal.RunP.opsL1 Vr) := by
  rw [Cert.ReferenceIdeal.Stages.after_opsL1]
  exact stepC src (Cert.KernelIdeal.Step.step3 (fun c => after Cert.KernelIdeal.Gen.hostOps3 ((Cert.KernelIdeal.Step.step2 (fun c => after Cert.KernelIdeal.Gen.hostOps2_4 (after Cert.KernelIdeal.Gen.hostOps2_3 (Vs c)))) c))) _ c
    (stepB src (fun c => (Cert.KernelIdeal.Step.step2 (fun c => after Cert.KernelIdeal.Gen.hostOps2_4 (after Cert.KernelIdeal.Gen.hostOps2_3 (Vs c)))) c) _ c (stepA src hr Vs Vr c H))

end Cert.Sim.L1

end
-- ==== Proof.SimL2.lean ====
/-
  Layer 3 of the network, run side by side in the two programs. From contents that share the layer's inputs, the
  kernel's program (gather and aggregate on the host, the first pallas_call, the column statistics on the host, the second
  pallas_call, the per-graph mean on the host) and the reference's 88 host operations arrive at contents that share
  the layer's outputs. Three steps: up to `z₁ = (h + agg) · W₁ + b₁` (the kernel's guarded row gather is the plain one
  because every source index is in range, and the first pallas_call's array is the host's `add, dot, add`); up to the new
  features and the node pool (the second pallas_call's arrays are the host's normalise, rectify, dot, add chain); the
  graph pool (the same host operations on both sides). Every other buffer is carried across unchanged.
-/
import proofs.«417867_j28183575396971_1_alg».proof.Proof.SimRel
import proofs.«417867_j28183575396971_1_alg».proof.Proof.KRegStep
import proofs.«417867_j28183575396971_1_alg».proof.Proof.RefStages
import proofs.«417867_j28183575396971_1_alg».proof.Proof.TakeRows
import proofs.«417867_j28183575396971_1_alg».proof.Proof.HostChains

set_option maxRecDepth 16384

noncomputable section

namespace Cert.Sim.L2

open Idealize.ShloMosaic Idealize.ShloMosaic.TcCoe Idealize.ShloMosaic.StableHlo Idealize.SL.Sem

variable (src : IVec ⟨1, ![800000]⟩ 32) (hr : ∀ e, 0 ≤ (src e).toInt ∧ (src e).toInt < 50000)
variable (Vs : Dev Cert.KernelIdeal.nD → Valuation Cert.KernelIdeal.τ Cert.KernelIdeal.sig (Elt Ideal)) (Vr : Valuation Cert.ReferenceIdeal.τ Cert.ReferenceIdeal.sig (Elt Ideal)) (c : Dev Cert.KernelIdeal.nD)

/-- The contents once `z₁` is there: the relation at the layer's start with `z₁` in place of `h`. -/
structure RelA (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  z1 : Vk (Proc.devRef .tc Cert.KernelIdeal.main_v119) = Vr (Proc.devRef .tc Cert.ReferenceIdeal.main_v176)
  np : Vk (Proc.devRef .tc Cert.KernelIdeal.main_v95_1) = Vr (Proc.devRef .tc Cert.ReferenceIdeal.main_v143)
  gp : Vk (Proc.devRef .tc Cert.KernelIdeal.main_v107) = Vr (Proc.devRef .tc Cert.ReferenceIdeal.main_v155)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

/-- The contents once the new features and the new node pool are there. -/
structure RelB (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  h : Vk (Proc.devRef .tc Cert.KernelIdeal.main_v143_0) = Vr (Proc.devRef .tc Cert.ReferenceIdeal.main_v214)
  np : Vk (Proc.devRef .tc Cert.KernelIdeal.main_v143_1) = Vr (Proc.devRef .tc Cert.ReferenceIdeal.main_v215)
  gp : Vk (Proc.devRef .tc Cert.KernelIdeal.main_v107) = Vr (Proc.devRef .tc Cert.ReferenceIdeal.main_v155)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

set_option maxHeartbeats 8000000 in
include hr in
/-- Up to the first dense stage. -/
theorem stepA (H : RelStart2 src (Vs c) Vr) : RelA src ((Cert.KernelIdeal.Step.step4 (fun c => after Cert.KernelIdeal.Gen.hostOps4_4 (after Cert.KernelIdeal.Gen.hostOps4_3 (Vs c)))) c) (after Cert.ReferenceIdeal.Stages.S2_2 (after Cert.ReferenceIdeal.Stages.S1_2 Vr)) where
  z1 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.h, H.srcK, H.srcR, H.dst, H.deg, H.a3, H.a4]
    rw [Cert.TakeRows.take_eq_gather (F := Ideal) Cert.KernelIdeal.gather_S50000x128_S800000x1_S800000x128_1_0_n_n_0_1_1128 Cert.KernelIdeal.Gen.bcast_S_S800000 Cert.KernelIdeal.Gen.bcast_S800000_S800000x1_0 Cert.KernelIdeal.Gen.bcast_S_S800000x1 Cert.KernelIdeal.Gen.bcast_S1_S1x1_1 Cert.KernelIdeal.Gen.bcast_S1x1_S800000x1_0_1 Cert.KernelIdeal.Gen.reducesTo_S800000x1_S800000_d1 Cert.KernelIdeal.Gen.h_S_ Cert.KernelIdeal.Gen.bcast_S800000_S800000x128_0 Cert.KernelIdeal.Gen.bcast_S_S800000x128 _ _ hr]
    rw [Cert.HostChains.hostA Cert.ReferenceIdeal.dot_S50000x128_S128x128_S50000x128_1_0_0_1_n_n rfl rfl rfl rfl rfl rfl Cert.ReferenceIdeal.Gen.bcast_S128_S1x128_1 Cert.ReferenceIdeal.Gen.bcast_S1x128_S50000x128_0_1 Cert.KernelIdeal.Gen.shapeCasts_S128_S1x128]
    rfl
  np := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.np
  gp := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.gp
  srcK := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcK
  srcR := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcR
  dst := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.dst
  deg := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.deg
  a2 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a2
  a3 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a3
  a4 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a4
  a5 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a5
  a6 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a6
  a7 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a7
  a8 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a8

set_option maxHeartbeats 8000000 in
/-- Up to the second dense stage and the node pool. -/
theorem stepB (H : RelA src (Vs c) Vr) : RelB src ((Cert.KernelIdeal.Step.step5 (fun c => after Cert.KernelIdeal.Gen.hostOps5 (Vs c))) c) (after Cert.ReferenceIdeal.Stages.S4_2 (after Cert.ReferenceIdeal.Stages.S3_2 Vr)) where
  h := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.z1, H.a5, H.a6, H.a7, H.a8]
    rw [Cert.HostChains.hostB_h Cert.ReferenceIdeal.dot_S50000x128_S128x128_S50000x128_1_0_0_1_n_n rfl rfl rfl rfl rfl rfl Cert.ReferenceIdeal.Gen.bcast_S128_S1x128_1 Cert.ReferenceIdeal.Gen.bcast_S1x128_S50000x128_0_1 Cert.KernelIdeal.Gen.shapeCasts_S128_S1x128 Cert.ReferenceIdeal.Gen.bcast_S_S128 Cert.ReferenceIdeal.Gen.bcast_S_S50000x128]
    rfl
  np := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.z1, H.np, H.a5, H.a6, H.a7, H.a8]
    rw [Cert.HostChains.hostB_np Cert.ReferenceIdeal.dot_S50000x128_S128x128_S50000x128_1_0_0_1_n_n rfl rfl rfl rfl rfl rfl Cert.ReferenceIdeal.Gen.bcast_S128_S1x128_1 Cert.ReferenceIdeal.Gen.bcast_S1x128_S50000x128_0_1 Cert.KernelIdeal.Gen.shapeCasts_S128_S1x128 Cert.ReferenceIdeal.Gen.bcast_S_S128 Cert.ReferenceIdeal.Gen.bcast_S_S50000x128]
    rfl
  gp := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.gp
  srcK := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcK
  srcR := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcR
  dst := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.dst
  deg := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.deg
  a2 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a2
  a3 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a3
  a4 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a4
  a5 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a5
  a6 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a6
  a7 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a7
  a8 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a8

set_option maxHeartbeats 8000000 in
/-- The graph pool, and with it the layer's end. -/
theorem stepC (H : RelB src (Vs c) Vr) : RelStart3 src (after Cert.KernelIdeal.Gen.hostOps6_2 (after Cert.KernelIdeal.Gen.hostOps6_1 (after Cert.KernelIdeal.Gen.hostOps6 (Vs c)))) (after Cert.ReferenceIdeal.Stages.S5_2 Vr) where
  gp := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.h, H.gp, H.a2]
    rfl
  h := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.h
  np := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.np
  srcK := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcK
  srcR := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcR
  dst := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.dst
  deg := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.deg
  a2 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a2
  a3 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a3
  a4 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a4
  a5 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a5
  a6 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a6
  a7 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a7
  a8 := by
    conv_lhs => simp (disch := decide) only [Cert.KernelIdeal.Step.step4_out, Cert.KernelIdeal.Step.step4_ne, Cert.KernelIdeal.Step.step5_out_h, Cert.KernelIdeal.Step.step5_out_np, Cert.KernelIdeal.Step.step5_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a8

set_option maxHeartbeats 8000000 in
include hr in
/-- The whole layer. -/
theorem layer (H : RelStart2 src (Vs c) Vr) :
    RelStart3 src
      (after Cert.KernelIdeal.Gen.hostOps6_2 (after Cert.KernelIdeal.Gen.hostOps6_1 (after Cert.KernelIdeal.Gen.hostOps6
        (Cert.KernelIdeal.Step.step5 (fun c => after Cert.KernelIdeal.Gen.hostOps5 ((Cert.KernelIdeal.Step.step4 (fun c => after Cert.KernelIdeal.Gen.hostOps4_4 (after Cert.KernelIdeal.Gen.hostOps4_3 (Vs c)))) c)) c))))
      (after Cert.ReferenceIdeal.RunP.opsL2 Vr) := by
  rw [Cert.ReferenceIdeal.Stages.after_opsL2]
  exact stepC src (Cert.KernelIdeal.Step.step5 (fun c => after Cert.KernelIdeal.Gen.hostOps5 ((Cert.KernelIdeal.Step.step4 (fun c => after Cert.KernelIdeal.Gen.hostOps4_4 (after Cert.KernelIdeal.Gen.hostOps4_3 (Vs c)))) c))) _ c
    (stepB src (fun c => (Cert.KernelIdeal.Step.step4 (fun c => after Cert.KernelIdeal.Gen.hostOps4_4 (after Cert.KernelIdeal.Gen.hostOps4_3 (Vs c)))) c) _ c (stepA src hr Vs Vr c H))

end Cert.Sim.L2

end
-- ==== Proof.SimL3.lean ====
/-
  Layer 4 of the network, run side by side in the two programs. From contents that share the layer's inputs, the
  kernel's program (gather and aggregate on the host, the first pallas_call, the column statistics on the host, the second
  pallas_call, the per-graph mean on the host) and the reference's 88 host operations arrive at contents that share
  the layer's outputs. Three steps: up to `z₁ = (h + agg) · W₁ + b₁` (the kernel's guarded row gather is the plain one
  because every source index is in range, and the first pallas_call's array is the host's `add, dot, add`); up to the new
  features and the node pool (the second pallas_call's arrays are the host's normalise, rectify, dot, add chain); the
  graph pool (the same host operations on both sides). Every other buffer is carried across unchanged.
-/
import proofs.«417867_j28183575396971_1_alg».proof.Proof.SimRel
import proofs.«417867_j28183575396971_1_alg».proof.Proof.KRegStep
import proofs.«417867_j28183575396971_1_alg».proof.Proof.RefStages
import proofs.«417867_j28183575396971_1_alg».proof.Proof.TakeRows
import proofs.«417867_j28183575396971_1_alg».proof.Proof.HostChains

set_option maxRecDepth 16384

noncomputable section

namespace Cert.Sim.L3

open Idealize.ShloMosaic Idealize.ShloMosaic.TcCoe Idealize.ShloMosaic.StableHlo Idealize.SL.Sem

variable (src : IVec ⟨1, ![800000]⟩ 32) (hr : ∀ e, 0 ≤ (src e).toInt ∧ (src e).toInt < 50000)
variable (Vs : Dev Cert.KernelIdeal.nD → Valuation Cert.KernelIdeal.τ Cert.KernelIdeal.sig (Elt Ideal)) (Vr : Valuation Cert.ReferenceIdeal.τ Cert.ReferenceIdeal.sig (Elt Ideal)) (c : Dev Cert.KernelIdeal.nD)

/-- The contents once `z₁` is there: the relation at the layer's start with `z₁` in place of `h`. -/
structure RelA (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  z1 : Vk (Proc.devRef .tc Cert.KernelIdeal.main_v167) = Vr (Proc.devRef .tc Cert.ReferenceIdeal.main_v248)
  np : Vk (Proc.devRef .tc Cert.KernelIdeal.main_v143_1) = Vr (Proc.devRef .tc Cert.ReferenceIdeal.main_v215)
  gp : Vk (Proc.devRef .tc Cert.KernelIdeal.main_v155) = Vr (Proc.devRef .tc Cert.ReferenceIdeal.main_v227)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

/-- The contents once the new features and the new node pool are there. -/
structure RelB (src : IVec ⟨1, ![800000]⟩ 32) (Vk : Valuation Cert.KernelIdeal.τ Cert.KernelIdeal.sig (Elt Ideal)) (Vr : Valuation Cert.ReferenceIdeal.τ Cert.ReferenceIdeal.sig (Elt Ideal)) : Prop where
  h : Vk (Proc.devRef .tc Cert.KernelIdeal.main_v191_0) = Vr (Proc.devRef .tc Cert.ReferenceIdeal.main_v286)
  np : Vk (Proc.devRef .tc Cert.KernelIdeal.main_v191_1) = Vr (Proc.devRef .tc Cert.ReferenceIdeal.main_v287)
  gp : Vk (Proc.devRef .tc Cert.KernelIdeal.main_v155) = Vr (Proc.devRef .tc Cert.ReferenceIdeal.main_v227)
  srcK : (Vk (Proc.devRef .tc Cert.KernelIdeal.main_v1) : IVec ⟨1, ![800000]⟩ 32) = src
  srcR : (Vr (Proc.devRef .tc Cert.ReferenceIdeal.main_v1) : IVec ⟨1, ![800000]⟩ 32) = src
  dst : Vk (Proc.devRef .tc Cert.KernelIdeal.main_v3) = Vr (Proc.devRef .tc Cert.ReferenceIdeal.main_v3)
  deg : Vk (Proc.devRef .tc Cert.KernelIdeal.main_v9) = Vr (Proc.devRef .tc Cert.ReferenceIdeal.main_v9)
  a2 : Vk (Proc.devRef .tc Cert.KernelIdeal.main_arg2) = Vr (Proc.devRef .tc Cert.ReferenceIdeal.main_arg2)
  a3 : Vk (Proc.devRef .tc Cert.KernelIdeal.main_arg3) = Vr (Proc.devRef .tc Cert.ReferenceIdeal.main_arg3)
  a4 : Vk (Proc.devRef .tc Cert.KernelIdeal.main_arg4) = Vr (Proc.devRef .tc Cert.ReferenceIdeal.main_arg4)
  a5 : Vk (Proc.devRef .tc Cert.KernelIdeal.main_arg5) = Vr (Proc.devRef .tc Cert.ReferenceIdeal.main_arg5)
  a6 : Vk (Proc.devRef .tc Cert.KernelIdeal.main_arg6) = Vr (Proc.devRef .tc Cert.ReferenceIdeal.main_arg6)
  a7 : Vk (Proc.devRef .tc Cert.KernelIdeal.main_arg7) = Vr (Proc.devRef .tc Cert.ReferenceIdeal.main_arg7)
  a8 : Vk (Proc.devRef .tc Cert.KernelIdeal.main_arg8) = Vr (Proc.devRef .tc Cert.ReferenceIdeal.main_arg8)

set_option maxHeartbeats 8000000 in
include hr in
/-- Up to the first dense stage. -/
theorem stepA (H : RelStart3 src (Vs c) Vr) : RelA src ((Cert.KernelIdeal.Step.step6 (fun c => after Cert.KernelIdeal.Gen.hostOps6_4 (after Cert.KernelIdeal.Gen.hostOps6_3 (Vs c)))) c) (after Cert.ReferenceIdeal.Stages.S2_3 (after Cert.ReferenceIdeal.Stages.S1_3 Vr)) where
  z1 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.h, H.srcK, H.srcR, H.dst, H.deg, H.a3, H.a4]
    rw [Cert.TakeRows.take_eq_gather (F := Ideal) Cert.KernelIdeal.gather_S50000x128_S800000x1_S800000x128_1_0_n_n_0_1_1128 Cert.KernelIdeal.Gen.bcast_S_S800000 Cert.KernelIdeal.Gen.bcast_S800000_S800000x1_0 Cert.KernelIdeal.Gen.bcast_S_S800000x1 Cert.KernelIdeal.Gen.bcast_S1_S1x1_1 Cert.KernelIdeal.Gen.bcast_S1x1_S800000x1_0_1 Cert.KernelIdeal.Gen.reducesTo_S800000x1_S800000_d1 Cert.KernelIdeal.Gen.h_S_ Cert.KernelIdeal.Gen.bcast_S800000_S800000x128_0 Cert.KernelIdeal.Gen.bcast_S_S800000x128 _ _ hr]
    rw [Cert.HostChains.hostA Cert.ReferenceIdeal.dot_S50000x128_S128x128_S50000x128_1_0_0_1_n_n rfl rfl rfl rfl rfl rfl Cert.ReferenceIdeal.Gen.bcast_S128_S1x128_1 Cert.ReferenceIdeal.Gen.bcast_S1x128_S50000x128_0_1 Cert.KernelIdeal.Gen.shapeCasts_S128_S1x128]
    rfl
  np := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.np
  gp := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.gp
  srcK := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcK
  srcR := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcR
  dst := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.dst
  deg := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.deg
  a2 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a2
  a3 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a3
  a4 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a4
  a5 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a5
  a6 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a6
  a7 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a7
  a8 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a8

set_option maxHeartbeats 8000000 in
/-- Up to the second dense stage and the node pool. -/
theorem stepB (H : RelA src (Vs c) Vr) : RelB src ((Cert.KernelIdeal.Step.step7 (fun c => after Cert.KernelIdeal.Gen.hostOps7 (Vs c))) c) (after Cert.ReferenceIdeal.Stages.S4_3 (after Cert.ReferenceIdeal.Stages.S3_3 Vr)) where
  h := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.z1, H.a5, H.a6, H.a7, H.a8]
    rw [Cert.HostChains.hostB_h Cert.ReferenceIdeal.dot_S50000x128_S128x128_S50000x128_1_0_0_1_n_n rfl rfl rfl rfl rfl rfl Cert.ReferenceIdeal.Gen.bcast_S128_S1x128_1 Cert.ReferenceIdeal.Gen.bcast_S1x128_S50000x128_0_1 Cert.KernelIdeal.Gen.shapeCasts_S128_S1x128 Cert.ReferenceIdeal.Gen.bcast_S_S128 Cert.ReferenceIdeal.Gen.bcast_S_S50000x128]
    rfl
  np := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.z1, H.np, H.a5, H.a6, H.a7, H.a8]
    rw [Cert.HostChains.hostB_np Cert.ReferenceIdeal.dot_S50000x128_S128x128_S50000x128_1_0_0_1_n_n rfl rfl rfl rfl rfl rfl Cert.ReferenceIdeal.Gen.bcast_S128_S1x128_1 Cert.ReferenceIdeal.Gen.bcast_S1x128_S50000x128_0_1 Cert.KernelIdeal.Gen.shapeCasts_S128_S1x128 Cert.ReferenceIdeal.Gen.bcast_S_S128 Cert.ReferenceIdeal.Gen.bcast_S_S50000x128]
    rfl
  gp := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.gp
  srcK := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcK
  srcR := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcR
  dst := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.dst
  deg := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.deg
  a2 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a2
  a3 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a3
  a4 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a4
  a5 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a5
  a6 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a6
  a7 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a7
  a8 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a8

set_option maxHeartbeats 8000000 in
/-- The graph pool, and with it the layer's end. -/
theorem stepC (H : RelB src (Vs c) Vr) : RelStart4 src (after Cert.KernelIdeal.Gen.hostOps8_2 (after Cert.KernelIdeal.Gen.hostOps8_1 (after Cert.KernelIdeal.Gen.hostOps8 (Vs c)))) (after Cert.ReferenceIdeal.Stages.S5_3 Vr) where
  gp := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    rw [H.h, H.gp, H.a2]
    rfl
  h := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.h
  np := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.np
  srcK := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcK
  srcR := by
    conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.srcR
  dst := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.dst
  deg := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.deg
  a2 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a2
  a3 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a3
  a4 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a4
  a5 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a5
  a6 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a6
  a7 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a7
  a8 := by
    conv_lhs => simp (disch := decide) only [Cert.KernelIdeal.Step.step6_out, Cert.KernelIdeal.Step.step6_ne, Cert.KernelIdeal.Step.step7_out_h, Cert.KernelIdeal.Step.step7_out_np, Cert.KernelIdeal.Step.step7_ne, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    conv_rhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]
    exact H.a8

set_option maxHeartbeats 8000000 in
include hr in
/-- The whole layer. -/
theorem layer (H : RelStart3 src (Vs c) Vr) :
    RelStart4 src
      (after Cert.KernelIdeal.Gen.hostOps8_2 (after Cert.KernelIdeal.Gen.hostOps8_1 (after Cert.KernelIdeal.Gen.hostOps8
        (Cert.KernelIdeal.Step.step7 (fun c => after Cert.KernelIdeal.Gen.hostOps7 ((Cert.KernelIdeal.Step.step6 (fun c => after Cert.KernelIdeal.Gen.hostOps6_4 (after Cert.KernelIdeal.Gen.hostOps6_3 (Vs c)))) c)) c))))
      (after Cert.ReferenceIdeal.RunP.opsL3 Vr) := by
  rw [Cert.ReferenceIdeal.Stages.after_opsL3]
  exact stepC src (Cert.KernelIdeal.Step.step7 (fun c => after Cert.KernelIdeal.Gen.hostOps7 ((Cert.KernelIdeal.Step.step6 (fun c => after Cert.KernelIdeal.Gen.hostOps6_4 (after Cert.KernelIdeal.Gen.hostOps6_3 (Vs c)))) c))) _ c
    (stepB src (fun c => (Cert.KernelIdeal.Step.step6 (fun c => after Cert.KernelIdeal.Gen.hostOps6_4 (after Cert.KernelIdeal.Gen.hostOps6_3 (Vs c)))) c) _ c (stepA src hr Vs Vr c H))

end Cert.Sim.L3

end
-- ==== Proof.lean ====
/-
  A four-layer graph network: each layer gathers the features of every edge's source node, sums them per destination
  node and divides by the clipped in-degree, adds the node's own features, applies a linear map, normalises every
  column by its batch statistics, rectifies, applies a second linear map, adds the result to a running node pool,
  and adds its per-graph mean to a running graph pool. The kernel's program runs the two dense stages of every layer
  as pallas_calls over ten blocks of 5000 rows and everything else on the host; the reference runs everything on the
  host. Over the extended reals the two agree on every input whose source indices are in range (out of range the
  kernel's guarded gather fills a row with the junk value, the reference reads a clamped row): the blocks of a
  pallas_call tile the rows and each block holds the same sums the host's dot product does, the matrix-unit's
  narrowing of its operands is the identity, and the host operations outside the pallas_calls are the same on both
  sides. The proof walks the two programs side by side, layer by layer, over relations that say which buffers agree
  at each layer's start.
  The frames of the two kernel programs are the generated frame certificates; the reference's frame is its run as a
  line of host operations, no operation of which writes an argument.
-/
import proofs.«417867_j28183575396971_1_alg».proof.Defs
import proofs.«417867_j28183575396971_1_alg».proof.Proof.Gen.Kernel
import proofs.«417867_j28183575396971_1_alg».proof.Proof.Gen.Kernel.Frame
import proofs.«417867_j28183575396971_1_alg».proof.Proof.Gen.KernelIdeal
import proofs.«417867_j28183575396971_1_alg».proof.Proof.Gen.KernelIdeal.Frame
import proofs.«417867_j28183575396971_1_alg».proof.Proof.Gen.ReferenceIdeal
import proofs.«417867_j28183575396971_1_alg».proof.Proof.Gen.Pre_finite_inputs
import proofs.«417867_j28183575396971_1_alg».proof.Proof.KRunVals
import proofs.«417867_j28183575396971_1_alg».proof.Proof.RefRun
import proofs.«417867_j28183575396971_1_alg».proof.Proof.RefArgs
import proofs.«417867_j28183575396971_1_alg».proof.Proof.PreRange
import proofs.«417867_j28183575396971_1_alg».proof.Proof.SimPre
import proofs.«417867_j28183575396971_1_alg».proof.Proof.SimL0
import proofs.«417867_j28183575396971_1_alg».proof.Proof.SimL1
import proofs.«417867_j28183575396971_1_alg».proof.Proof.SimL2
import proofs.«417867_j28183575396971_1_alg».proof.Proof.SimL3
import Idealize.ShloMosaic.Adequacy
import Idealize.ShloMosaic.Init

set_option maxRecDepth 16384

noncomputable section

namespace Cert.Proof

open Idealize.ShloMosaic Idealize.ShloMosaic.TcCoe Idealize.ShloMosaic.StableHlo Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs as a line of host operations, and none of them writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Args.arg0 _),
     (h c Cert.ReferenceIdeal.main_arg1).trans (Cert.ReferenceIdeal.Args.arg1 _),
     (h c Cert.ReferenceIdeal.main_arg2).trans (Cert.ReferenceIdeal.Args.arg2 _),
     (h c Cert.ReferenceIdeal.main_arg3).trans (Cert.ReferenceIdeal.Args.arg3 _),
     (h c Cert.ReferenceIdeal.main_arg4).trans (Cert.ReferenceIdeal.Args.arg4 _),
     (h c Cert.ReferenceIdeal.main_arg5).trans (Cert.ReferenceIdeal.Args.arg5 _),
     (h c Cert.ReferenceIdeal.main_arg6).trans (Cert.ReferenceIdeal.Args.arg6 _),
     (h c Cert.ReferenceIdeal.main_arg7).trans (Cert.ReferenceIdeal.Args.arg7 _),
     (h c Cert.ReferenceIdeal.main_arg8).trans (Cert.ReferenceIdeal.Args.arg8 _)⟩)
    (Cert.ReferenceIdeal.RunP.run_after (F := Ideal) m ρ)

section Results

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (hpre : Cert.Pre_KernelIdeal m)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
  (c : Dev Cert.KernelIdeal.nD)

/-- The column of source indices of core `c`'s edge list. -/
abbrev src : IVec ⟨1, ![800000]⟩ 32 := Cert.Sim.Pre.srcOf (launchContents m' c)

include hpre hagree in
/-- Every source index is in range: the statement's precondition says so of the kernel's edge list, and the two
    edge lists are one. -/
theorem src_range : ∀ e, 0 ≤ (src m' c e).toInt ∧ (src m' c e).toInt < 50000 := by
  intro e
  unfold src
  rw [Cert.Sim.Pre.srcOf_eq]
  have e1 : launchContents m' c (Proc.devRef .tc Cert.ReferenceIdeal.main_arg1) = m ((c.tc : Thread Cert.KernelIdeal.nD Cert.KernelIdeal.τ).loc Cert.KernelIdeal.main_arg1) := (hagree c).2.1
  rw [e1]
  exact Cert.PreRange.src_in_range _ _ _ _ _ _ _ _ _ (hpre c) _ _ e

include hpre hagree in
set_option maxHeartbeats 8000000 in
/-- After the last layer the two programs' node pools and graph pools agree. -/
theorem final_rel : Cert.Sim.RelStart4 (src m' c) (Cert.KernelIdeal.Gen.W35 m ρ c) (after Cert.ReferenceIdeal.RunP.ops (launchContents m' c)) := by
  have hr := src_range m m' hpre hagree c
  have r0 : Cert.Sim.RelStart0 (src m' c) (Cert.KernelIdeal.Gen.W3 m ρ c) (after Cert.ReferenceIdeal.RunP.opsPre (launchContents m' c)) :=
    Cert.Sim.Pre.start (Cert.KernelIdeal.Gen.W0 m ρ c) (launchContents m' c)
      ((hagree c).1).symm ((hagree c).2.1).symm ((hagree c).2.2.1).symm ((hagree c).2.2.2.1).symm ((hagree c).2.2.2.2.1).symm ((hagree c).2.2.2.2.2.1).symm ((hagree c).2.2.2.2.2.2.1).symm ((hagree c).2.2.2.2.2.2.2.1).symm ((hagree c).2.2.2.2.2.2.2.2).symm
  have r1 : Cert.Sim.RelStart1 (src m' c) (Cert.KernelIdeal.Gen.W11 m ρ c) _ := Cert.Sim.L0.layer _ hr (Cert.KernelIdeal.Gen.W3 m ρ) _ c r0
  have r2 : Cert.Sim.RelStart2 (src m' c) (Cert.KernelIdeal.Gen.W19 m ρ c) _ := Cert.Sim.L1.layer _ hr (Cert.KernelIdeal.Gen.W11 m ρ) _ c r1
  have r3 : Cert.Sim.RelStart3 (src m' c) (Cert.KernelIdeal.Gen.W27 m ρ c) _ := Cert.Sim.L2.layer _ hr (Cert.KernelIdeal.Gen.W19 m ρ) _ c r2
  have r4 : Cert.Sim.RelStart4 (src m' c) (Cert.KernelIdeal.Gen.W35 m ρ c) _ := Cert.Sim.L3.layer _ hr (Cert.KernelIdeal.Gen.W27 m ρ) _ c r3
  rw [Cert.ReferenceIdeal.Stages.after_ops]
  exact r4

end Results

theorem preserves : Cert.preserves_Kernel_KernelIdeal := trivial

/-- Both programs run, the kernel's results at the last boundary's contents, the reference's at the contents after its
    last operation; the two are the same arrays by `final_rel`. -/
theorem algebraic : Cert.algebraic_KernelIdeal_ReferenceIdeal := by
  intro m ρ m' ρ' hpre hagree
  refine ⟨fun c => Cert.KernelIdeal.Gen.W35 m ρ c (Proc.devRef .tc Cert.KernelIdeal.main_v191_1), fun c => Cert.KernelIdeal.Gen.W35 m ρ c (Proc.devRef .tc Cert.KernelIdeal.main_v203),
    Cert.KernelIdeal.GenV.run_vals m ρ, ?_⟩
  refine (θ_run Cert.ReferenceIdeal.defs _ _).mono (fun _ h c => ⟨?_, ?_, ?_⟩) (Cert.ReferenceIdeal.RunP.run_after (F := Ideal) m' ρ')
  · exact (h c Cert.ReferenceIdeal.main_v287).trans (final_rel m ρ m' hpre hagree c).np.symm
  · exact (h c Cert.ReferenceIdeal.main_v299).trans (final_rel m ρ m' hpre hagree c).gp.symm
  · exact ⟨(h c Cert.ReferenceIdeal.main_arg0).trans (Cert.ReferenceIdeal.Args.arg0 _),
      (h c Cert.ReferenceIdeal.main_arg1).trans (Cert.ReferenceIdeal.Args.arg1 _),
      (h c Cert.ReferenceIdeal.main_arg2).trans (Cert.ReferenceIdeal.Args.arg2 _),
      (h c Cert.ReferenceIdeal.main_arg3).trans (Cert.ReferenceIdeal.Args.arg3 _),
      (h c Cert.ReferenceIdeal.main_arg4).trans (Cert.ReferenceIdeal.Args.arg4 _),
      (h c Cert.ReferenceIdeal.main_arg5).trans (Cert.ReferenceIdeal.Args.arg5 _),
      (h c Cert.ReferenceIdeal.main_arg6).trans (Cert.ReferenceIdeal.Args.arg6 _),
      (h c Cert.ReferenceIdeal.main_arg7).trans (Cert.ReferenceIdeal.Args.arg7 _),
      (h c Cert.ReferenceIdeal.main_arg8).trans (Cert.ReferenceIdeal.Args.arg8 _)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
